-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4096x1 : Shape := ⟨2, ![4096, 1]⟩
abbrev S1x1 : Shape := ⟨2, ![1, 1]⟩
abbrev S256x4096 : Shape := ⟨2, ![256, 4096]⟩
abbrev S256x1 : Shape := ⟨2, ![256, 1]⟩
abbrev S256 : Shape := ⟨1, ![256]⟩
abbrev S1 : Shape := ⟨1, ![1]⟩
abbrev S1x4096 : Shape := ⟨2, ![1, 4096]⟩
abbrev S512x4096 : Shape := ⟨2, ![512, 4096]⟩
abbrev S512x1 : Shape := ⟨2, ![512, 1]⟩
abbrev S1x256 : Shape := ⟨2, ![1, 256]⟩
abbrev S512x256 : Shape := ⟨2, ![512, 256]⟩
abbrev S512 : Shape := ⟨1, ![512]⟩
abbrev S_ : Shape := ⟨0, ![]⟩

abbrev nBuf : Space → Nat
  | .hbm => 18
  | .vmem => 22
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x1, .f32⟩
  | .hbm, ⟨3, _⟩ => ⟨S4096x1, .f32⟩
  | .hbm, ⟨4, _⟩ => ⟨S1x1, .f32⟩
  | .hbm, ⟨5, _⟩ => ⟨S1x4096, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S1x1, .f32⟩
  | .local _ .vmem, ⟨9, _⟩ => ⟨S1x1, .f32⟩
  | .local _ .vmem, ⟨10, _⟩ => ⟨S512x4096, .f32⟩
  | .local _ .vmem, ⟨11, _⟩ => ⟨S512x4096, .f32⟩
  | .local _ .vmem, ⟨12, _⟩ => ⟨S256x4096, .f32⟩
  | .local _ .vmem, ⟨13, _⟩ => ⟨S256x4096, .f32⟩
  | .local _ .vmem, ⟨14, _⟩ => ⟨S512x1, .f32⟩
  | .local _ .vmem, ⟨15, _⟩ => ⟨S512x1, .f32⟩
  | .local _ .vmem, ⟨16, _⟩ => ⟨S1x256, .f32⟩
  | .local _ .vmem, ⟨17, _⟩ => ⟨S1x256, .f32⟩
  | .local _ .vmem, ⟨18, _⟩ => ⟨S1x1, .f32⟩
  | .local _ .vmem, ⟨19, _⟩ => ⟨S1x1, .f32⟩
  | .local _ .vmem, ⟨20, _⟩ => ⟨S1x1, .f32⟩
  | .local _ .vmem, ⟨21, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v24 : BitVec 1 := Scalar.cmpi .eq arg0 c15_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![8, 16], ![false, false]⟩

def k1_cond2 (i : grid1.Coords) : BitVec 1 :=
  let arg0 : BitVec 32 := BitVec.ofNat 32 (i 0).val
  let c7_i32 : BitVec 32 := 7#32
  let v49 : BitVec 1 := Scalar.cmpi .eq arg0 c7_i32
  let arg1 : BitVec 32 := BitVec.ofNat 32 (i 1).val
  let c15_i32 : BitVec 32 := 15#32
  let v50 : BitVec 1 := Scalar.cmpi .eq arg1 c15_i32
  let v51 : BitVec 1 := Scalar.andi v49 v50
  let v52 : BitVec 32 := Scalar.extui v51
  let c0_i32_23 : BitVec 32 := 0#32
  let v53 : BitVec 1 := Scalar.cmpi .ne v52 c0_i32_23
  v53

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  inb_S256x1_S256x1_0_0 : ∀ a, (![0, 0] : Fin 2 → Nat) a + S256x1.size a ≤ S256x1.size a
  h_S256x1 : 0 < S256x1.numel
  shapeCasts_S4096x1_S1x4096 : S4096x1.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S512x1_S512x256 : S512x1.Broadcasts S512x256
  broadcasts_S1x256_S512x256 : S1x256.Broadcasts S512x256
  reduces_S512x256_S512 : S512x256.Reduces [1] S512
  shapeCasts_S512_S512x1 : S512.ShapeCasts S512x1
  reduces_S512x1_S1 : S512x1.Reduces [0] S1
  iota_S512x256_d0_w32 : S512x256.Iotas .tc 32 [0]
  iota_S512x256_d1_w32 : S512x256.Iotas .tc 32 [1]
  shapeCasts_S1x1_S_ : S1x1.ShapeCasts S_
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x4096.size a
  hwx1_3 : ∀ i : grid1.Coords, EltTy.bits .f32 = 32 ∨ (Rect.block (s := S1x4096) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S1x1.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096x4096, .f32⟩
  | .hbm, ⟨15, _⟩ => ⟨S4096x4096, .f32⟩
  | .hbm, ⟨16, _⟩ => ⟨S4096x1, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S4096x4096, .i32⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_c : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_cst : Ref sig .tc := ⟨.hbm, 33, rfl⟩
abbrev main_call0_v5 : Ref sig .tc := ⟨.hbm, 34, rfl⟩
abbrev main_call0_v6 : Ref sig .tc := ⟨.hbm, 35, rfl⟩
abbrev main_call0_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  reducesTo_S4096x4096_S4096_d1 : S4096x4096.ReducesTo [1] S4096
  transposes_S4096x4096_S4096x4096_1_0 : S4096x4096.Transposes [1, 0] S4096x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.K.Defs0.lean ====
/-
  The row-statistics region (the first pallas_call: 16 grid points, each a tile of 256 rows of the two
  4096 × 4096 matrices p and q), as data for the pipeline's launch rule.

  At point t the body reads the two tiles x = p[256t .. 256t+255, :] and y = q[256t .. 256t+255, :] and
    · stores the rows' squared norms  Σ_k x(r,k)²  and  Σ_k y(r,k)²  into the two column outputs' blocks,
    · adds the tile's  Σ_r Σ_k (x(r,k) − y(r,k))²  to a one-cell accumulator it keeps in scratch memory
      (reset to 0 at the first point), and
    · at the last point copies the accumulator into the one-cell third output.
  So the accumulator after point n is the recursion `acc0` below: from the zero cell at the first point,
  each point adding its tile's sum. The region's invariant `Inv0` holds the scratch cell at that value
  between points (before the first point at anything), beside the other scoped buffers at anything.
-/
import proofs.«128264_j17093969838495_1_alg».proof.Proof.Gen.Kernel.Launch
import proofs.«128264_j17093969838495_1_alg».proof.Proof.Gen.Kernel.Skeleton
import proofs.«128264_j17093969838495_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's data are stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulator -/

/-- The scratch cell, a whole scoped buffer of the kernel's own. -/
abbrev scM0 : Memref sig .tc .vmem S1x1 .f32 := Memref.whole cc0_scratch0

/-- The accumulator after point `n`: the zero cell plus the first tile's sum of squared differences at the
    first point, then each point's tile sum added to what the point before left. -/
def acc0 (c : Dev nD) : (n : ℕ) → n < cfg0.N → Vec F S1x1 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (acc0 c n (Nat.lt_of_succ_lt h))

theorem acc0_zero (c : Dev nD) (h : 0 < cfg0.N) :
    acc0 V c 0 h = k0_pay2 (iblk0 V c 0 ⟨0, h⟩) (iblk0 V c 1 ⟨0, h⟩) (k0_pay1 (F := F)) := rfl

theorem acc0_succ (c : Dev nD) (n : ℕ) (h : n + 1 < cfg0.N) :
    acc0 V c (n + 1) h = k0_pay2 (iblk0 V c 0 ⟨n + 1, h⟩) (iblk0 V c 1 ⟨n + 1, h⟩) (acc0 V c n (Nat.lt_of_succ_lt h)) := rfl

/-- At a point that is not the first: this point's tile sum added to what the point before left. -/
theorem acc0_pos (c : Dev nD) (t : Fin cfg0.N) (hz : t.val ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd rfl hz
  | succ n => rfl

/-! ## The invariant -/

/-- The core's scoped buffers other than the scratch cell (the other pallas_call's staging and scratch buffers),
    each whole at some contents: what this region's body never touches. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The launch's invariant (every scoped buffer no window stages at anything, the generator register at some state)
    with the scratch cell set apart as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; rfl

/-- The region's invariant before position `n`: before the first point the launch's; afterwards the scratch cell at
    the accumulator the point before left, the other scoped buffers at anything, the generator register at some state. -/
def Inv0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem Inv0_zero (c : Dev nD) (n : ℕ) (h : n ≤ cfg0.N) (hz : n = 0) : Inv0 V c n h = Pipeline.ΦA spec0 c := by
  subst hz; rfl

theorem Inv0_succ (c : Dev nD) (n : ℕ) (hn : n < cfg0.N) :
    Inv0 V c (n + 1) hn = iprop(iprop(owns (c : Thread nD τ) scM0 fullShare (acc0 V c n hn) ∗ rest0 (F := F) c) ∗ (∃ r, prngReg c r)) := rfl

theorem Inv0_pos (c : Dev nD) (n : ℕ) (h : n ≤ cfg0.N) (hz : n ≠ 0) :
    Inv0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The proof data -/

/-- The pipeline's proof data on core `c`: the arrays as the region finds them; after the body at point `t` each
    input's buffer at its block, the two column outputs' at the tile's row norms, the one-cell output's at the
    accumulator (it is stored, and written back, at the last point only); the invariant `Inv0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (iblk0 V c 0 t)
    | ⟨3, _⟩ => k0_pay4 (iblk0 V c 1 t)
    | ⟨4, _⟩ => acc0 V c t.val t.isLt
  Φ t := Inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (iblk0 V c 0 t) := by dsimp only [dat0]
theorem after0_3 (c : Dev nD) (t : Fin cfg0.N) : (dat0 V c).after 3 t = k0_pay4 (iblk0 V c 1 t) := by dsimp only [dat0]
theorem after0_4 (c : Dev nD) (t : Fin cfg0.N) : (dat0 V c).after 4 t = acc0 V c t.val t.isLt := by dsimp only [dat0]

/-- The invariant at a point's start, restated at the point's position. -/
theorem Inv0_castSucc (c : Dev nD) (t : Fin cfg0.N) :
    (dat0 V c).Φ t.castSucc = Inv0 V c t.val (Nat.le_of_lt t.isLt) := by
  dsimp only [dat0]; simp only [Fin.coe_castSucc]

/-- What the launch hands the region is the invariant before the first point. -/
theorem hin0 (c : Dev nD) : Pipeline.ΦA spec0 c ⊢ (dat0 V c).Φ 0 := by
  rw [show (dat0 V c).Φ 0 = Inv0 V c 0 (Nat.zero_le _) from rfl, Inv0_zero V c 0 _ rfl]
  try exact Idealize.SL.BI.Entails.refl _

/-- After the last point the invariant gives the launch's back: the accumulator's value is forgotten. -/
theorem hout0 (c : Dev nD) : (dat0 V c).Φ (Fin.last cfg0.N) ⊢ Pipeline.ΦA spec0 c := by
  rw [show (dat0 V c).Φ (Fin.last cfg0.N) = Inv0 V c (Fin.last cfg0.N).val (Nat.le_of_lt_succ (Fin.last cfg0.N).isLt) from rfl,
    Inv0_pos V c _ _ (by rw [Fin.val_last]; have : cfg0.N = 16 := N_0; omega), PhiA0_eq]
  iintro ⟨⟨HS, Hr⟩, Hg⟩
  isplitl [HS Hr]
  · isplitl [HS]
    · iexists _; iexact HS
    iexact Hr
  iexact Hg

end Cert.Kernel.Hand

end
-- ==== Proof.K.Body0.lean ====
/-
  The row-statistics region's BODY OBLIGATION: at every grid point the kernel body, run from the region's invariant and
  the windows' current staging buffers, re-establishes the invariant at the next point and leaves each buffer at what
  the proof data say.

  The body has two conditionals on the grid coordinate, so a point is in one of three cases:
    · the first point: the accumulator cell is reset to the zero cell and then updated, ending at the first tile's
      sum of squared differences added to zero;
    · a point between: the cell, at what the point before left, is updated by this tile's sum;
    · the last point: after the update the cell is copied into the one-cell output's buffer.
  In every case the two column outputs' buffers end at the rows' squared norms of the two tiles and the inputs' buffers
  are left as found; off the last point the one-cell output's buffer is not touched (and not written back), so it is
  handed back as found.

  Each case's run is stated over arbitrary whole memrefs and arbitrary tiles x, y (so nothing about the region's arrays
  is unfolded), the pieces its stores leave being found by the run itself; each buffer's pieces are then read back as
  the skeleton's payload, and the three cases are put together at the point's blocks.
-/
import proofs.«128264_j17093969838495_1_alg».proof.Proof.K.Defs0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, in closed form over the grid -/

/-- The first conditional's test (is this the first tile?), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional's test (is this the last tile?). -/
abbrev cond0_1 (i : grid0.Coords) : Prop := k0_cond2 i = 1#1
/-- It holds at the last point only. -/
theorem hcond0_1 : ∀ t : Fin cfg0.N, cond0_1 (grid0.coords t) ↔ t.val = 15 :=
  (by decide +kernel : ∀ t : Fin grid0.N, cond0_1 (grid0.coords t) ↔ t.val = 15)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last point the one-cell output is idle (nothing is stored into it) -/
theorem idleAt0_4 : ∀ t : Fin cfg0.N, ¬cond0_1 (grid0.coords t) → cfg0.idle 4 (grid0.coords t) = true := by decide +kernel
/-- and not written back; -/
theorem noFlush0_4 : ∀ t : Fin cfg0.N, ¬cond0_1 (grid0.coords t) → (cfg0.win 4).flush t = false := by decide +kernel
/-- at the last point it is live. -/
theorem liveAt0_4 : ∀ t : Fin cfg0.N, cond0_1 (grid0.coords t) → cfg0.idle 4 (grid0.coords t) = false := by decide +kernel

/-! ## The inputs' staging buffers hold their blocks -/

/-- An input's current staging buffer holds its block at every point (it is fetched at every point and the body
    leaves it in place). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

set_option maxHeartbeats 1000000 in
/-- The body on any whole buffers at the first point: the accumulator cell at anything (it is reset, then updated). -/
noncomputable def kernelRun0_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x4096 .f32) :
    Σ' (L2 : List (View.Piece (Elt F) S256x1 .f32)) (L3 : List (View.Piece (Elt F) S256x1 .f32)), { LS : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__rowstats_kernel i arg1 harg1 arg2 harg2 arg3 harg3 arg4 harg4 arg5 harg5 arg6 harg6) K } := by
  refine ⟨?_, ?_, ?_, fun xi4 E K => ?run⟩
  case run =>
    simp only [cc0__rowstats_kernel_eq_skeleton]; unfold cc0__rowstats_kernel_skel
    unfold owns
    iintro ⟨⟨%f0, %hf0, H0⟩, ⟨%f1, %hf1, H1⟩, ⟨%d2, %f2, -, H2⟩, ⟨%d3, %f3, -, H3⟩, ⟨%f4, %hf4, H4⟩, ⟨%ds, %fs, -, HS⟩, Hk⟩
    obtain rfl := harg1.eq_unread hf0; obtain rfl := harg2.eq_unread hf1; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    iexists _; iexact HS

set_option maxHeartbeats 1000000 in
/-- The body on any whole buffers at a point that is neither the first nor the last: the tiles x, y in the two inputs'
    buffers, the accumulator cell at s; it leaves the inputs and the one-cell output's buffer as found, and in the two
    column outputs' buffers and the accumulator cell the pieces its stores wrote (the witness). -/
noncomputable def kernelRun0_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x4096 .f32) (xs : Vec F S1x1 .f32) :
    Σ' (L2 : List (View.Piece (Elt F) S256x1 .f32)) (L3 : List (View.Piece (Elt F) S256x1 .f32)), { LS : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ owns (c : Thread nD τ) arg6 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__rowstats_kernel i arg1 harg1 arg2 harg2 arg3 harg3 arg4 harg4 arg5 harg5 arg6 harg6) K } := by
  refine ⟨?_, ?_, ?_, fun xi4 E K => ?run⟩
  case run =>
    simp only [cc0__rowstats_kernel_eq_skeleton]; unfold cc0__rowstats_kernel_skel
    unfold owns
    iintro ⟨⟨%f0, %hf0, H0⟩, ⟨%f1, %hf1, H1⟩, ⟨%d2, %f2, -, H2⟩, ⟨%d3, %f3, -, H3⟩, ⟨%f4, %hf4, H4⟩, ⟨%fs, %hfs, HS⟩, Hk⟩
    obtain rfl := harg1.eq_unread hf0; obtain rfl := harg2.eq_unread hf1; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    iexists _; iexact HS

set_option maxHeartbeats 1000000 in
/-- The body on any whole buffers at the last point: the accumulator cell at s, the one-cell output's buffer at anything
    (the updated accumulator is copied into it). -/
noncomputable def kernelRun0_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) :
    Σ' (L2 : List (View.Piece (Elt F) S256x1 .f32)) (L3 : List (View.Piece (Elt F) S256x1 .f32)) (L4 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc0__rowstats_kernel i arg1 harg1 arg2 harg2 arg3 harg3 arg4 harg4 arg5 harg5 arg6 harg6) K } := by
  refine ⟨?_, ?_, ?_, ?_, fun E K => ?run⟩
  case run =>
    simp only [cc0__rowstats_kernel_eq_skeleton]; unfold cc0__rowstats_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs, %hfs, HS⟩, Hk⟩
    obtain rfl := harg1.eq_unread hf0; obtain rfl := harg2.eq_unread hf1; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS

/-! ## What the runs' pieces read back as

Every store of the body writes a whole buffer through the rectangle at zero offsets, so a buffer the body stores
into ends at the payload of its last store, with each load in that payload read back the same way. -/

/-- The zero offsets of a rank-2 buffer, however spelt. -/
theorem zeroOffs0 : (![0, 0] : Fin 2 → ℕ) = fun _ => 0 := by funext a; fin_cases a <;> rfl

/-- The one store into the first column output covers its buffer. -/
theorem cov0_L2_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x4096 .f32) (y : S256x1.Idx) :
    ∃ pc ∈ (kernelRun0_A c i arg1 harg1 arg2 harg2 arg3 harg3 arg4 harg4 arg5 harg5 arg6 harg6 hc0 hc1 x0 x1).1, y ∈ pc.1.set :=
  View.cover_of_tiledL (kernelRun0_A c i arg1 harg1 arg2 harg2 arg3 harg3 arg4 harg4 arg5 harg5 arg6 harg6 hc0 hc1 x0 x1).1 S256x1.size (by sl_kernel_rfl) y

/-- It leaves the row norms of x. -/
theorem sout0_L2_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x4096 .f32) (f : arg3.view.ty.Contents (Elt F)) :
    arg3.view.read (Elt F) (arg3.view.writes (Elt F) f (kernelRun0_A c i arg1 harg1 arg2 harg2 arg3 harg3 arg4 harg4 arg5 harg5 arg6 harg6 hc0 hc1 x0 x1).1) = k0_pay3 x0 := by
  rw [View.read_writes_eq_canon _ _ _ (cov0_L2_A c i arg1 harg1 arg2 harg2 arg3 harg3 arg4 harg4 arg5 harg5 arg6 harg6 hc0 hc1 x0 x1)]
  unfold kernelRun0_A; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The one store into the second column output covers its buffer. -/
theorem cov0_L3_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x4096 .f32) (y : S256x1.Idx) :
    ∃ pc ∈ (kernelRun0_A c i arg1 harg1 arg2 harg2 arg3 harg3 arg4 harg4 arg5 harg5 arg6 harg6 hc0 hc1 x0 x1).2.1, y ∈ pc.1.set :=
  View.cover_of_tiledL (kernelRun0_A c i arg1 harg1 arg2 harg2 arg3 harg3 arg4 harg4 arg5 harg5 arg6 harg6 hc0 hc1 x0 x1).2.1 S256x1.size (by sl_kernel_rfl) y

/-- It leaves the row norms of y. -/
theorem sout0_L3_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x4096 .f32) (f : arg4.view.ty.Contents (Elt F)) :
    arg4.view.read (Elt F) (arg4.view.writes (Elt F) f (kernelRun0_A c i arg1 harg1 arg2 harg2 arg3 harg3 arg4 harg4 arg5 harg5 arg6 harg6 hc0 hc1 x0 x1).2.1) = k0_pay4 x1 := by
  rw [View.read_writes_eq_canon _ _ _ (cov0_L3_A c i arg1 harg1 arg2 harg2 arg3 harg3 arg4 harg4 arg5 harg5 arg6 harg6 hc0 hc1 x0 x1)]
  unfold kernelRun0_A; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The reset and the update each cover the accumulator cell. -/
theorem cov0_LS_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x4096 .f32) (y : S1x1.Idx) :
    ∃ pc ∈ (kernelRun0_A c i arg1 harg1 arg2 harg2 arg3 harg3 arg4 harg4 arg5 harg5 arg6 harg6 hc0 hc1 x0 x1).2.2.1, y ∈ pc.1.set :=
  View.cover_of_tiledL (kernelRun0_A c i arg1 harg1 arg2 harg2 arg3 harg3 arg4 harg4 arg5 harg5 arg6 harg6 hc0 hc1 x0 x1).2.2.1 S1x1.size (by sl_kernel_rfl) y

/-- The cell ends at the update of the zero cell (the load between the two stores reads the reset back). -/
theorem sout0_LS_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x4096 .f32) (f : arg6.view.ty.Contents (Elt F)) :
    arg6.view.read (Elt F) (arg6.view.writes (Elt F) f (kernelRun0_A c i arg1 harg1 arg2 harg2 arg3 harg3 arg4 harg4 arg5 harg5 arg6 harg6 hc0 hc1 x0 x1).2.2.1) = k0_pay2 x0 x1 (k0_pay1 (F := F)) := by
  rw [View.read_writes_eq_canon _ _ _ (cov0_LS_A c i arg1 harg1 arg2 harg2 arg3 harg3 arg4 harg4 arg5 harg5 arg6 harg6 hc0 hc1 x0 x1)]
  unfold kernelRun0_A; dsimp only; sl_unfold_words
  rw [View.canon_cons_unit_zero (S := S1x1) zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The one store into the first column output covers its buffer. -/
theorem cov0_L2_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x4096 .f32) (xs : Vec F S1x1 .f32) (y : S256x1.Idx) :
    ∃ pc ∈ (kernelRun0_B c i arg1 harg1 arg2 harg2 arg3 harg3 arg4 harg4 arg5 harg5 arg6 harg6 hc0 hc1 x0 x1 xs).1, y ∈ pc.1.set :=
  View.cover_of_tiledL (kernelRun0_B c i arg1 harg1 arg2 harg2 arg3 harg3 arg4 harg4 arg5 harg5 arg6 harg6 hc0 hc1 x0 x1 xs).1 S256x1.size (by sl_kernel_rfl) y

/-- It leaves the row norms of x. -/
theorem sout0_L2_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x4096 .f32) (xs : Vec F S1x1 .f32) (f : arg3.view.ty.Contents (Elt F)) :
    arg3.view.read (Elt F) (arg3.view.writes (Elt F) f (kernelRun0_B c i arg1 harg1 arg2 harg2 arg3 harg3 arg4 harg4 arg5 harg5 arg6 harg6 hc0 hc1 x0 x1 xs).1) = k0_pay3 x0 := by
  rw [View.read_writes_eq_canon _ _ _ (cov0_L2_B c i arg1 harg1 arg2 harg2 arg3 harg3 arg4 harg4 arg5 harg5 arg6 harg6 hc0 hc1 x0 x1 xs)]
  unfold kernelRun0_B; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The one store into the second column output covers its buffer. -/
theorem cov0_L3_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x4096 .f32) (xs : Vec F S1x1 .f32) (y : S256x1.Idx) :
    ∃ pc ∈ (kernelRun0_B c i arg1 harg1 arg2 harg2 arg3 harg3 arg4 harg4 arg5 harg5 arg6 harg6 hc0 hc1 x0 x1 xs).2.1, y ∈ pc.1.set :=
  View.cover_of_tiledL (kernelRun0_B c i arg1 harg1 arg2 harg2 arg3 harg3 arg4 harg4 arg5 harg5 arg6 harg6 hc0 hc1 x0 x1 xs).2.1 S256x1.size (by sl_kernel_rfl) y

/-- It leaves the row norms of y. -/
theorem sout0_L3_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x4096 .f32) (xs : Vec F S1x1 .f32) (f : arg4.view.ty.Contents (Elt F)) :
    arg4.view.read (Elt F) (arg4.view.writes (Elt F) f (kernelRun0_B c i arg1 harg1 arg2 harg2 arg3 harg3 arg4 harg4 arg5 harg5 arg6 harg6 hc0 hc1 x0 x1 xs).2.1) = k0_pay4 x1 := by
  rw [View.read_writes_eq_canon _ _ _ (cov0_L3_B c i arg1 harg1 arg2 harg2 arg3 harg3 arg4 harg4 arg5 harg5 arg6 harg6 hc0 hc1 x0 x1 xs)]
  unfold kernelRun0_B; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The update covers the accumulator cell. -/
theorem cov0_LS_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x4096 .f32) (xs : Vec F S1x1 .f32) (y : S1x1.Idx) :
    ∃ pc ∈ (kernelRun0_B c i arg1 harg1 arg2 harg2 arg3 harg3 arg4 harg4 arg5 harg5 arg6 harg6 hc0 hc1 x0 x1 xs).2.2.1, y ∈ pc.1.set :=
  View.cover_of_tiledL (kernelRun0_B c i arg1 harg1 arg2 harg2 arg3 harg3 arg4 harg4 arg5 harg5 arg6 harg6 hc0 hc1 x0 x1 xs).2.2.1 S1x1.size (by sl_kernel_rfl) y

/-- The cell ends at the update of what it held. -/
theorem sout0_LS_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x4096 .f32) (xs : Vec F S1x1 .f32) (f : arg6.view.ty.Contents (Elt F)) :
    arg6.view.read (Elt F) (arg6.view.writes (Elt F) f (kernelRun0_B c i arg1 harg1 arg2 harg2 arg3 harg3 arg4 harg4 arg5 harg5 arg6 harg6 hc0 hc1 x0 x1 xs).2.2.1) = k0_pay2 x0 x1 xs := by
  rw [View.read_writes_eq_canon _ _ _ (cov0_LS_B c i arg1 harg1 arg2 harg2 arg3 harg3 arg4 harg4 arg5 harg5 arg6 harg6 hc0 hc1 x0 x1 xs)]
  unfold kernelRun0_B; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The one store into the first column output covers its buffer. -/
theorem cov0_L2_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (y : S256x1.Idx) :
    ∃ pc ∈ (kernelRun0_C c i arg1 harg1 arg2 harg2 arg3 harg3 arg4 harg4 arg5 harg5 arg6 harg6 hc0 hc1 x0 x1 xs).1, y ∈ pc.1.set :=
  View.cover_of_tiledL (kernelRun0_C c i arg1 harg1 arg2 harg2 arg3 harg3 arg4 harg4 arg5 harg5 arg6 harg6 hc0 hc1 x0 x1 xs).1 S256x1.size (by sl_kernel_rfl) y

/-- It leaves the row norms of x. -/
theorem sout0_L2_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (f : arg3.view.ty.Contents (Elt F)) :
    arg3.view.read (Elt F) (arg3.view.writes (Elt F) f (kernelRun0_C c i arg1 harg1 arg2 harg2 arg3 harg3 arg4 harg4 arg5 harg5 arg6 harg6 hc0 hc1 x0 x1 xs).1) = k0_pay3 x0 := by
  rw [View.read_writes_eq_canon _ _ _ (cov0_L2_C c i arg1 harg1 arg2 harg2 arg3 harg3 arg4 harg4 arg5 harg5 arg6 harg6 hc0 hc1 x0 x1 xs)]
  unfold kernelRun0_C; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The one store into the second column output covers its buffer. -/
theorem cov0_L3_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (y : S256x1.Idx) :
    ∃ pc ∈ (kernelRun0_C c i arg1 harg1 arg2 harg2 arg3 harg3 arg4 harg4 arg5 harg5 arg6 harg6 hc0 hc1 x0 x1 xs).2.1, y ∈ pc.1.set :=
  View.cover_of_tiledL (kernelRun0_C c i arg1 harg1 arg2 harg2 arg3 harg3 arg4 harg4 arg5 harg5 arg6 harg6 hc0 hc1 x0 x1 xs).2.1 S256x1.size (by sl_kernel_rfl) y

/-- It leaves the row norms of y. -/
theorem sout0_L3_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (f : arg4.view.ty.Contents (Elt F)) :
    arg4.view.read (Elt F) (arg4.view.writes (Elt F) f (kernelRun0_C c i arg1 harg1 arg2 harg2 arg3 harg3 arg4 harg4 arg5 harg5 arg6 harg6 hc0 hc1 x0 x1 xs).2.1) = k0_pay4 x1 := by
  rw [View.read_writes_eq_canon _ _ _ (cov0_L3_C c i arg1 harg1 arg2 harg2 arg3 harg3 arg4 harg4 arg5 harg5 arg6 harg6 hc0 hc1 x0 x1 xs)]
  unfold kernelRun0_C; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The one store into the one-cell output covers its buffer. -/
theorem cov0_L4_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (y : S1x1.Idx) :
    ∃ pc ∈ (kernelRun0_C c i arg1 harg1 arg2 harg2 arg3 harg3 arg4 harg4 arg5 harg5 arg6 harg6 hc0 hc1 x0 x1 xs).2.2.1, y ∈ pc.1.set :=
  View.cover_of_tiledL (kernelRun0_C c i arg1 harg1 arg2 harg2 arg3 harg3 arg4 harg4 arg5 harg5 arg6 harg6 hc0 hc1 x0 x1 xs).2.2.1 S1x1.size (by sl_kernel_rfl) y

/-- It leaves the updated accumulator (the cell's load after the update reads the update back). -/
theorem sout0_L4_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (f : arg5.view.ty.Contents (Elt F)) :
    arg5.view.read (Elt F) (arg5.view.writes (Elt F) f (kernelRun0_C c i arg1 harg1 arg2 harg2 arg3 harg3 arg4 harg4 arg5 harg5 arg6 harg6 hc0 hc1 x0 x1 xs).2.2.1) = k0_pay2 x0 x1 xs := by
  rw [View.read_writes_eq_canon _ _ _ (cov0_L4_C c i arg1 harg1 arg2 harg2 arg3 harg3 arg4 harg4 arg5 harg5 arg6 harg6 hc0 hc1 x0 x1 xs)]
  unfold kernelRun0_C; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The update covers the accumulator cell. -/
theorem cov0_LS_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (y : S1x1.Idx) :
    ∃ pc ∈ (kernelRun0_C c i arg1 harg1 arg2 harg2 arg3 harg3 arg4 harg4 arg5 harg5 arg6 harg6 hc0 hc1 x0 x1 xs).2.2.2.1, y ∈ pc.1.set :=
  View.cover_of_tiledL (kernelRun0_C c i arg1 harg1 arg2 harg2 arg3 harg3 arg4 harg4 arg5 harg5 arg6 harg6 hc0 hc1 x0 x1 xs).2.2.2.1 S1x1.size (by sl_kernel_rfl) y

/-- The cell ends at the update of what it held. -/
theorem sout0_LS_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (f : arg6.view.ty.Contents (Elt F)) :
    arg6.view.read (Elt F) (arg6.view.writes (Elt F) f (kernelRun0_C c i arg1 harg1 arg2 harg2 arg3 harg3 arg4 harg4 arg5 harg5 arg6 harg6 hc0 hc1 x0 x1 xs).2.2.2.1) = k0_pay2 x0 x1 xs := by
  rw [View.read_writes_eq_canon _ _ _ (cov0_LS_C c i arg1 harg1 arg2 harg2 arg3 harg3 arg4 harg4 arg5 harg5 arg6 harg6 hc0 hc1 x0 x1 xs)]
  unfold kernelRun0_C; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-! ## The body obligation, at a generic point -/

/-- Each window's current staging memref at point `t`, as the pipeline passes it to the body, and its wholeness. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

/-- At the first point the accumulator is the first tile's sum added to the zero cell. -/
theorem acc0_first (c : Dev nD) (t : Fin cfg0.N) (hz : t.val = 0) :
    acc0 V c t.val t.isLt = k0_pay2 (iblk0 V c 0 t) (iblk0 V c 1 t) (k0_pay1 (F := F)) := by
  obtain ⟨n, hn⟩ := t
  cases n with
  | zero => rfl
  | succ n => exact absurd hz (Nat.succ_ne_zero n)

/-- What the body is called with at point `t`: the invariant, what the core owes, each window's current buffer, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold the tiles; the point is the first, the last, or neither, and that
    case's run applies: the invariant hands it the accumulator cell (at anything at the first point, afterwards at what
    the point before left) and takes it back at this point's accumulator; the column outputs' buffers end at the tiles'
    row norms; the one-cell output's buffer is handed back as found, except at the last point, where it ends at the
    accumulator. The other scoped buffers, the generator register and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Inv0 V c (t.val + 1) t.isLt from rfl, Inv0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 16 := lt_of_lt_of_eq t.isLt (show cfg0.N = 16 from N_0)
  by_cases h0 : t.val = 0
  · -- the first point
    have h1 : ¬t.val = 15 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [acc0_first V c t h0]
    rw [Inv0_castSucc V c t, Inv0_zero V c _ _ h0, PhiA0_eq]
    iintro ⟨⟨⟨HS, Hr⟩, Hg⟩, Ho, ⟨%d0, H0⟩, ⟨%d1, H1⟩, ⟨%d2, H2⟩, ⟨%d3, H3⟩, ⟨%d4, H4⟩⟩
    iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t)).2.2.2 _ Set.univ _)
    isplitl [H0]; · iexact H0
    isplitl [H1]; · iexact H1
    isplitl [H2]; · iexists _; iexact H2
    isplitl [H3]; · iexists _; iexact H3
    isplitl [H4]; · iexact H4
    isplitl [HS]; · iexact HS
    iintro ⟨H0, H1, ⟨%e2, H2⟩, ⟨%e3, H3⟩, H4, ⟨%es, HS⟩⟩
    isplitl [HS Hr Hg]
    · isplitl [HS Hr]
      · isplitl [HS]
        · unfold owns; iexists _; isplitr
          swap; · iexact HS
          ipureintro; exact sout0_LS_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) es
        iexact Hr
      iexact Hg
    isplitl [Ho]; · iexact Ho
    isplitl [H0]; · iexact H0
    isplitl [H1]; · iexact H1
    isplitl [H2]
    · unfold owns; iexists _; isplitr
      swap; · iexact H2
      ipureintro; exact sout0_L2_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) e2
    isplitl [H3]
    · unfold owns; iexists _; isplitr
      swap; · iexact H3
      ipureintro; exact sout0_L3_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) e3
    iexists _; iexact H4
  · have hc0 : ¬cond0_0 (grid0.coords t) := fun h => h0 ((hcond0_0 t).mp h)
    by_cases h1 : t.val = 15
    · -- the last point
      have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [acc0_pos V c t h0]
      rw [Inv0_castSucc V c t, Inv0_pos V c _ _ h0]
      iintro ⟨⟨⟨HS, Hr⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt))).2.2.2.2 Set.univ _)
      isplitl [H0]; · iexact H0
      isplitl [H1]; · iexact H1
      isplitl [H2]; · iexists _; iexact H2
      isplitl [H3]; · iexists _; iexact H3
      isplitl [H4]; · iexists _; iexact H4
      isplitl [HS]; · iexact HS
      iintro ⟨H0, H1, ⟨%e2, H2⟩, ⟨%e3, H3⟩, ⟨%e4, H4⟩, ⟨%es, HS⟩⟩
      isplitl [HS Hr Hg]
      · isplitl [HS Hr]
        · isplitl [HS]
          · unfold owns; iexists _; isplitr
            swap; · iexact HS
            ipureintro; exact sout0_LS_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt)) es
          iexact Hr
        iexact Hg
      isplitl [Ho]; · iexact Ho
      isplitl [H0]; · iexact H0
      isplitl [H1]; · iexact H1
      isplitl [H2]
      · unfold owns; iexists _; isplitr
        swap; · iexact H2
        ipureintro; exact sout0_L2_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt)) e2
      isplitl [H3]
      · unfold owns; iexists _; isplitr
        swap; · iexact H3
        ipureintro; exact sout0_L3_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt)) e3
      unfold owns; iexists _; isplitr
      swap; · iexact H4
      ipureintro; exact sout0_L4_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt)) e4
    · -- a point between
      have hc1 : ¬cond0_1 (grid0.coords t) := fun h => h1 ((hcond0_1 t).mp h)
      rw [Dat.leavesExact_idle (dat0 V c) 4 t (idleAt0_4 t hc1) (noFlush0_4 t hc1)]
      rw [acc0_pos V c t h0]
      rw [Inv0_castSucc V c t, Inv0_pos V c _ _ h0]
      iintro ⟨⟨⟨HS, Hr⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt))).2.2.2 _ Set.univ _)
      isplitl [H0]; · iexact H0
      isplitl [H1]; · iexact H1
      isplitl [H2]; · iexists _; iexact H2
      isplitl [H3]; · iexists _; iexact H3
      isplitl [H4]; · iexact H4
      isplitl [HS]; · iexact HS
      iintro ⟨H0, H1, ⟨%e2, H2⟩, ⟨%e3, H3⟩, H4, ⟨%es, HS⟩⟩
      isplitl [HS Hr Hg]
      · isplitl [HS Hr]
        · isplitl [HS]
          · unfold owns; iexists _; isplitr
            swap; · iexact HS
            ipureintro; exact sout0_LS_B c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt)) es
          iexact Hr
        iexact Hg
      isplitl [Ho]; · iexact Ho
      isplitl [H0]; · iexact H0
      isplitl [H1]; · iexact H1
      isplitl [H2]
      · unfold owns; iexists _; isplitr
        swap; · iexact H2
        ipureintro; exact sout0_L2_B c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt)) e2
      isplitl [H3]
      · unfold owns; iexists _; isplitr
        swap; · iexact H3
        ipureintro; exact sout0_L3_B c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt)) e3
      iexists _; iexact H4

/-- THE BODY OBLIGATION of the row-statistics region: the library's obligation at every point, the windows taken one by one. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Defs1.lean ====
/-
  The Gram region (the second pallas_call: an 8 × 16 grid, point (i, j) a 512 × 256 tile of the 4096 × 4096
  matrix of all-pairs squared distances), as data for the pipeline's launch rule.

  At point (i, j) the body reads the tiles x = p[512i .., :], y = q[256j .., :], the row norms' tiles
  a = n1[512i ..] (a column) and b = n2[256j ..] (a row), forms the tile of distances
      d(r, s) = (a(r) + b(s)) − 2 · Σ_k x(r,k) · y(s,k),
  and adds  Σ_r Σ_s d(r, s)  to one accumulator and the tile's part of the diagonal,
  Σ_r Σ_s [512i + r = 256j + s] · d(r, s), to a second one — two one-cell scratch buffers, both reset to 0 at the
  first point —; at the last point it copies the two accumulators into the two one-cell outputs.
  `acc1` is that pair of accumulators after point n; the invariant `Inv1` holds the two scratch cells at it
  between points, the other scoped buffers at anything.
-/
import proofs.«128264_j17093969838495_1_alg».proof.Proof.Gen.Kernel.Launch
import proofs.«128264_j17093969838495_1_alg».proof.Proof.Gen.Kernel.Skeleton
import proofs.«128264_j17093969838495_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's data are stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two accumulators -/

/-- The two scratch cells, whole scoped buffers of the kernel's own. -/
abbrev scM1_0 : Memref sig .tc .vmem S1x1 .f32 := Memref.whole cc1_scratch0
abbrev scM1_1 : Memref sig .tc .vmem S1x1 .f32 := Memref.whole cc1_scratch1

/-- One point's update of the first accumulator: the tile of distances summed over both axes, added to `s`. -/
def step8 (x0 : Vec F S512x4096 .f32) (x1 : Vec F S256x4096 .f32) (x2 : Vec F S512x1 .f32) (x3 : Vec F S1x256 .f32)
    (s : Vec F S1x1 .f32) : Vec F S1x1 .f32 :=
  k1_pay5 x0 x1 x2 x3 s

/-- One point's update of the second accumulator at grid coordinates `i`: the tile of distances masked to the
    entries whose global row index equals their global column index, summed over both axes, added to `s`. -/
def step9 (i : grid1.Coords) (x0 : Vec F S512x4096 .f32) (x1 : Vec F S256x4096 .f32) (x2 : Vec F S512x1 .f32) (x3 : Vec F S1x256 .f32)
    (s : Vec F S1x1 .f32) : Vec F S1x1 .f32 :=
  k1_pay1 (k1_pay4 x0 x1 x2 x3) (k1_pay6 i) (iota .tc S512x256 32 [1] iota_S512x256_d1_w32)
    (Scalar.muli (BitVec.ofNat 32 (i 1).val) 256#32) s

/-- The two accumulators after point `n`: from the zero cells at the first point, each point's two tile sums
    added to what the point before left. -/
def acc1 (c : Dev nD) : (n : ℕ) → n < cfg1.N → Vec F S1x1 .f32 × Vec F S1x1 .f32
  | 0, h =>
    (step8 (iblk1 V c 0 ⟨0, h⟩) (iblk1 V c 1 ⟨0, h⟩) (iblk1 V c 2 ⟨0, h⟩) (iblk1 V c 3 ⟨0, h⟩) (k1_pay2 (F := F)),
     step9 (grid1.coords ⟨0, h⟩) (iblk1 V c 0 ⟨0, h⟩) (iblk1 V c 1 ⟨0, h⟩) (iblk1 V c 2 ⟨0, h⟩) (iblk1 V c 3 ⟨0, h⟩) (k1_pay3 (F := F)))
  | n + 1, h =>
    (step8 (iblk1 V c 0 ⟨n + 1, h⟩) (iblk1 V c 1 ⟨n + 1, h⟩) (iblk1 V c 2 ⟨n + 1, h⟩) (iblk1 V c 3 ⟨n + 1, h⟩) (acc1 c n (Nat.lt_of_succ_lt h)).1,
     step9 (grid1.coords ⟨n + 1, h⟩) (iblk1 V c 0 ⟨n + 1, h⟩) (iblk1 V c 1 ⟨n + 1, h⟩) (iblk1 V c 2 ⟨n + 1, h⟩) (iblk1 V c 3 ⟨n + 1, h⟩) (acc1 c n (Nat.lt_of_succ_lt h)).2)

theorem acc1_zero (c : Dev nD) (h : 0 < cfg1.N) :
    acc1 V c 0 h =
      (step8 (iblk1 V c 0 ⟨0, h⟩) (iblk1 V c 1 ⟨0, h⟩) (iblk1 V c 2 ⟨0, h⟩) (iblk1 V c 3 ⟨0, h⟩) (k1_pay2 (F := F)),
       step9 (grid1.coords ⟨0, h⟩) (iblk1 V c 0 ⟨0, h⟩) (iblk1 V c 1 ⟨0, h⟩) (iblk1 V c 2 ⟨0, h⟩) (iblk1 V c 3 ⟨0, h⟩) (k1_pay3 (F := F))) := rfl

theorem acc1_succ (c : Dev nD) (n : ℕ) (h : n + 1 < cfg1.N) :
    acc1 V c (n + 1) h =
      (step8 (iblk1 V c 0 ⟨n + 1, h⟩) (iblk1 V c 1 ⟨n + 1, h⟩) (iblk1 V c 2 ⟨n + 1, h⟩) (iblk1 V c 3 ⟨n + 1, h⟩) (acc1 V c n (Nat.lt_of_succ_lt h)).1,
       step9 (grid1.coords ⟨n + 1, h⟩) (iblk1 V c 0 ⟨n + 1, h⟩) (iblk1 V c 1 ⟨n + 1, h⟩) (iblk1 V c 2 ⟨n + 1, h⟩) (iblk1 V c 3 ⟨n + 1, h⟩) (acc1 V c n (Nat.lt_of_succ_lt h)).2) := rfl

/-- At a point that is not the first: this point's two tile sums added to what the point before left. -/
theorem acc1_pos (c : Dev nD) (t : Fin cfg1.N) (hz : t.val ≠ 0) :
    acc1 V c t.val t.isLt =
      (step8 (iblk1 V c 0 t) (iblk1 V c 1 t) (iblk1 V c 2 t) (iblk1 V c 3 t) (acc1 V c (t.val - 1) (Nat.lt_of_le_of_lt (Nat.sub_le _ _) t.isLt)).1,
       step9 (grid1.coords t) (iblk1 V c 0 t) (iblk1 V c 1 t) (iblk1 V c 2 t) (iblk1 V c 3 t) (acc1 V c (t.val - 1) (Nat.lt_of_le_of_lt (Nat.sub_le _ _) t.isLt)).2) := by
  obtain ⟨n, hn⟩ := t
  cases n with
  | zero => exact absurd rfl hz
  | succ n => rfl

/-! ## The invariant -/

/-- The core's scoped buffers other than the two scratch cells (the other pallas_call's staging and scratch
    buffers), each whole at some contents, beside `X` (what is said of the two scratch cells). -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ X)

/-- The launch's invariant with the two scratch cells set apart as memrefs owned at some contents. -/
theorem PhiA1_eq (c : Dev nD) :
    (Pipeline.ΦA spec1 c : sProp 𝕄)
      = iprop(rest1 (F := F) c (iprop((∃ d, owns (c : Thread nD τ) scM1_0 fullShare d) ∗ (∃ d, owns (c : Thread nD τ) scM1_1 fullShare d))) ∗ (∃ r, prngReg c r)) := by
  unfold Pipeline.ΦA rest1; rw [scopedRest1_eq]; simp only [scM1_0, scM1_1, owns_whole]; rfl

/-- The region's invariant before position `n`: before the first point the launch's; afterwards the two scratch
    cells at the accumulators the point before left, the other scoped buffers at anything, the generator register at
    some state. -/
def Inv1 (c : Dev nD) : (n : ℕ) → n ≤ cfg1.N → sProp 𝕄
  | 0, _ => Pipeline.ΦA spec1 c
  | n + 1, hn => iprop(rest1 (F := F) c (iprop(owns (c : Thread nD τ) scM1_0 fullShare (acc1 V c n hn).1 ∗ owns (c : Thread nD τ) scM1_1 fullShare (acc1 V c n hn).2)) ∗ (∃ r, prngReg c r))

theorem Inv1_zero (c : Dev nD) (n : ℕ) (h : n ≤ cfg1.N) (hz : n = 0) : Inv1 V c n h = Pipeline.ΦA spec1 c := by
  subst hz; rfl

theorem Inv1_succ (c : Dev nD) (n : ℕ) (hn : n < cfg1.N) :
    Inv1 V c (n + 1) hn = iprop(rest1 (F := F) c (iprop(owns (c : Thread nD τ) scM1_0 fullShare (acc1 V c n hn).1 ∗ owns (c : Thread nD τ) scM1_1 fullShare (acc1 V c n hn).2)) ∗ (∃ r, prngReg c r)) := rfl

theorem Inv1_pos (c : Dev nD) (n : ℕ) (h : n ≤ cfg1.N) (hz : n ≠ 0) :
    Inv1 V c n h = iprop(rest1 (F := F) c (iprop(owns (c : Thread nD τ) scM1_0 fullShare (acc1 V c (n - 1) (by omega)).1 ∗ owns (c : Thread nD τ) scM1_1 fullShare (acc1 V c (n - 1) (by omega)).2)) ∗ (∃ r, prngReg c r)) := by
  cases n with
  | zero => exact absurd rfl hz
  | succ n => rfl

/-! ## The proof data -/

/-- The pipeline's proof data on core `c`: the arrays as the region finds them; after the body at point `t` each
    input's buffer at its block, the two one-cell outputs' at the two accumulators (they are stored, and written
    back, at the last point only); the invariant `Inv1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (acc1 V c t.val t.isLt).1
    | ⟨5, _⟩ => (acc1 V c t.val t.isLt).2
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (acc1 V c t.val t.isLt).1 := by dsimp only [dat1]
theorem after1_5 (c : Dev nD) (t : Fin cfg1.N) : (dat1 V c).after 5 t = (acc1 V c t.val t.isLt).2 := by dsimp only [dat1]

/-- The invariant at a point's start, restated at the point's position. -/
theorem Inv1_castSucc (c : Dev nD) (t : Fin cfg1.N) :
    (dat1 V c).Φ t.castSucc = Inv1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = Inv1 V c 0 (Nat.zero_le _) from rfl, Inv1_zero V c 0 _ rfl]
  try exact Idealize.SL.BI.Entails.refl _

/-- After the last point the invariant gives the launch's back: the accumulators' values are forgotten. -/
theorem hout1 (c : Dev nD) : (dat1 V c).Φ (Fin.last cfg1.N) ⊢ Pipeline.ΦA spec1 c := by
  rw [show (dat1 V c).Φ (Fin.last cfg1.N) = Inv1 V c (Fin.last cfg1.N).val (Nat.le_of_lt_succ (Fin.last cfg1.N).isLt) from rfl,
    Inv1_pos V c _ _ (by rw [Fin.val_last]; have : cfg1.N = 128 := N_1; omega), PhiA1_eq]
  unfold rest1
  iintro ⟨⟨A0, A1, A2, A3, A4, A5, A6, A7, A8, A9, HS0, HS1⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [HS0]
    · iexists _; iexact HS0
    iexists _; iexact HS1
  iexact Hg

end Cert.Kernel.Hand

end
-- ==== Proof.K.Body1.lean ====
/-
  The body obligation of the Gram region (the program's second kernel call: an 8 × 16 grid, 128 points).

  At a grid point the body reads the four input tiles, adds the tile's sum of squared distances to the first one-cell
  accumulator and the tile's part of the diagonal to the second one; at the first point it first resets both
  accumulators to the zero cell; at the last point it also copies the two accumulators into the two one-cell outputs.
  So there are three control cases: the first point, a middle point, the last point. For each the whole body is run
  once on abstract whole buffers, with the contents it leaves stated explicitly (`step8` and `step9` of what the
  accumulators held before). The obligation at a point then follows from its case's run: the invariant `Inv1` hands
  the body the two accumulator cells and takes them back at this point's values, the inputs' buffers hold their
  blocks whether or not the point fetched them, and the two output windows, idle and not written back off the last
  point, are handed back as found there and hold the accumulators at the last point.
-/
import proofs.«128264_j17093969838495_1_alg».proof.Proof.K.Defs1
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, over the grid coordinates -/

/-- The first conditional's test (both grid coordinates zero), the scalar chain substituted. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second conditional's test (the grid's last point). -/
abbrev cond1_1 (i : grid1.Coords) : Prop := k1_cond2 i = 1#1

/-- Zero offsets in two axes, however spelt. -/
theorem zeroOffs1 : (![0, 0] : Fin 2 → Nat) = fun _ => 0 := funext fun a => by fin_cases a <;> rfl

/-- One store through the whole one-cell rectangle leaves its payload, whatever the view and the prior contents; -/
theorem cell1_write_one {κ : Kind} {sp : Space} (v : View sig κ sp S1x1 .f32) (f : v.ty.Contents (Elt F)) (w : S1x1.Idx → Elt F .f32) :
    v.read (Elt F) (v.writes (Elt F) f [(⟨Rect.unit ![0, 0] S1x1.size inb_S1x1_S1x1_0_0, w⟩ : View.Piece (Elt F) S1x1 .f32)]) = w :=
  (View.read_writes_eq_canon v f _ (fun y => ⟨_, List.mem_singleton_self _, View.mem_set_unit_zero (S := S1x1) zeroOffs1 inb_S1x1_S1x1_0_0 y⟩)).trans
    (View.canon_unit_zero (S := S1x1) zeroOffs1 inb_S1x1_S1x1_0_0 w)

/-- and so does the last of several. -/
theorem cell1_write_last {κ : Kind} {sp : Space} (v : View sig κ sp S1x1 .f32) (f : v.ty.Contents (Elt F)) (w : S1x1.Idx → Elt F .f32)
    (L : List (View.Piece (Elt F) S1x1 .f32)) :
    v.read (Elt F) (v.writes (Elt F) f ((⟨Rect.unit ![0, 0] S1x1.size inb_S1x1_S1x1_0_0, w⟩ : View.Piece (Elt F) S1x1 .f32) :: L)) = w :=
  (View.read_writes_eq_canon v f _ (fun y => ⟨_, List.Mem.head _, View.mem_set_unit_zero (S := S1x1) zeroOffs1 inb_S1x1_S1x1_0_0 y⟩)).trans
    (View.canon_cons_unit_zero (S := S1x1) zeroOffs1 inb_S1x1_S1x1_0_0 w L)

/-! ## The whole body, run once per control case -/

set_option maxHeartbeats 1000000 in
/-- The body at the first point: on whole buffers, the four inputs' at their blocks and the two scratch cells at
    anything, it resets each scratch cell to the zero cell and runs to the inputs' as they were and each scratch cell
    at its update of the zero cell; the two outputs' buffers are not touched. -/
theorem run1_A (c : Dev nD) (i : grid1.Coords) (arg2 : Memref sig .tc .vmem S512x4096 .f32) (harg2 : arg2.IsWhole) (arg3 : Memref sig .tc .vmem S256x4096 .f32) (harg3 : arg3.IsWhole) (arg4 : Memref sig .tc .vmem S512x1 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc0 : cond1_0 i) (hc1 : ¬cond1_1 i) (x0 : Vec F S512x4096 .f32) (x1 : Vec F S256x4096 .f32) (x2 : Vec F S512x1 .f32) (x3 : Vec F S1x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (step8 x0 x1 x2 x3 (k1_pay2 (F := F))) ∗ owns (c : Thread nD τ) arg9 fullShare (step9 i x0 x1 x2 x3 (k1_pay3 (F := F)))) -∗ K ⟨⟩))
      ⊢ wp frame (wpE (defs₀ (F := F)) Variants.none c none) E (cc1__gram_kernel i arg2 harg2 arg3 harg3 arg4 harg4 arg5 harg5 arg6 harg6 arg7 harg7 arg8 harg8 arg9 harg9) K := by
  simp only [cc1__gram_kernel_eq_skeleton]; unfold cc1__gram_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    refine (cell1_write_last _ _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1, View.readCov_unit_zero (S := S1x1) _ zeroOffs1]
    rfl
  · iexists _; isplitr
    swap; · iexact HS1
    ipureintro
    refine (cell1_write_last _ _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1, View.readCov_unit_zero (S := S1x1) _ zeroOffs1]
    rfl

set_option maxHeartbeats 1000000 in
/-- The body at a point that is neither the first nor the last: on whole buffers, the four inputs' at their blocks and
    the two scratch cells at what the point before left, it runs to the inputs' as they were and each scratch cell at
    its update; the two outputs' buffers are not touched. -/
theorem run1_B (c : Dev nD) (i : grid1.Coords) (arg2 : Memref sig .tc .vmem S512x4096 .f32) (harg2 : arg2.IsWhole) (arg3 : Memref sig .tc .vmem S256x4096 .f32) (harg3 : arg3.IsWhole) (arg4 : Memref sig .tc .vmem S512x1 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc0 : ¬cond1_0 i) (hc1 : ¬cond1_1 i) (x0 : Vec F S512x4096 .f32) (x1 : Vec F S256x4096 .f32) (x2 : Vec F S512x1 .f32) (x3 : Vec F S1x256 .f32)
    (s0 s1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (step8 x0 x1 x2 x3 s0) ∗ owns (c : Thread nD τ) arg9 fullShare (step9 i x0 x1 x2 x3 s1)) -∗ K ⟨⟩))
      ⊢ wp frame (wpE (defs₀ (F := F)) Variants.none c none) E (cc1__gram_kernel i arg2 harg2 arg3 harg3 arg4 harg4 arg5 harg5 arg6 harg6 arg7 harg7 arg8 harg8 arg9 harg9) K := by
  simp only [cc1__gram_kernel_eq_skeleton]; unfold cc1__gram_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    refine (cell1_write_one _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1]
    rfl
  · iexists _; isplitr
    swap; · iexact HS1
    ipureintro
    refine (cell1_write_one _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1]
    rfl

set_option maxHeartbeats 1000000 in
/-- The body at the last point: on whole buffers, the four inputs' at their blocks, the two scratch cells at what the
    point before left and the two outputs' at anything, it runs to the inputs' as they were, each scratch cell at its
    update, and each output's buffer at a copy of its scratch cell. -/
theorem run1_C (c : Dev nD) (i : grid1.Coords) (arg2 : Memref sig .tc .vmem S512x4096 .f32) (harg2 : arg2.IsWhole) (arg3 : Memref sig .tc .vmem S256x4096 .f32) (harg3 : arg3.IsWhole) (arg4 : Memref sig .tc .vmem S512x1 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc0 : ¬cond1_0 i) (hc1 : cond1_1 i) (x0 : Vec F S512x4096 .f32) (x1 : Vec F S256x4096 .f32) (x2 : Vec F S512x1 .f32) (x3 : Vec F S1x256 .f32)
    (s0 s1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (step8 x0 x1 x2 x3 s0) ∗ owns (c : Thread nD τ) arg7 fullShare (step9 i x0 x1 x2 x3 s1)
            ∗ owns (c : Thread nD τ) arg8 fullShare (step8 x0 x1 x2 x3 s0) ∗ owns (c : Thread nD τ) arg9 fullShare (step9 i x0 x1 x2 x3 s1)) -∗ K ⟨⟩))
      ⊢ wp frame (wpE (defs₀ (F := F)) Variants.none c none) E (cc1__gram_kernel i arg2 harg2 arg3 harg3 arg4 harg4 arg5 harg5 arg6 harg6 arg7 harg7 arg8 harg8 arg9 harg9) K := by
  simp only [cc1__gram_kernel_eq_skeleton]; unfold cc1__gram_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (cell1_write_one _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1, View.readCov_unit_zero (S := S1x1) _ zeroOffs1]
    rfl
  isplitl [H5]
  · iexists _; isplitr
    swap; · iexact H5
    ipureintro
    refine (cell1_write_one _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1, View.readCov_unit_zero (S := S1x1) _ zeroOffs1]
    rfl
  isplitl [HS0]
  · iexists _; isplitr
    swap; · iexact HS0
    ipureintro
    refine (cell1_write_one _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1]
    rfl
  · iexists _; isplitr
    swap; · iexact HS1
    ipureintro
    refine (cell1_write_one _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1]
    rfl

/-! ## The conditions in closed form, decided over the grid -/

/-- The first conditional is taken at the first point only. -/
theorem hcond1_0 : ∀ t : Fin cfg1.N, cond1_0 (grid1.coords t) ↔ t.val = 0 :=
  (by decide +kernel : ∀ t : Fin grid1.N, cond1_0 (grid1.coords t) ↔ t.val = 0)
/-- The second conditional is taken at the last point only. -/
theorem hcond1_1 : ∀ t : Fin cfg1.N, cond1_1 (grid1.coords t) ↔ t.val = 127 :=
  (by decide +kernel : ∀ t : Fin grid1.N, cond1_1 (grid1.coords t) ↔ t.val = 127)

/-! ## Where the windows are idle -/

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last point the two outputs are idle and not written back; at the last point they are live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The staging memrefs at a point, and what the inputs' hold -/

abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)

/-- Each input's current staging buffer holds its block at every point, fetched there or not: unfetched, the block
    index has not moved since the point that fetched it. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- The accumulators after the first point: the zero cells' updates. -/
theorem acc1_first (c : Dev nD) (t : Fin cfg1.N) (hz : t.val = 0) :
    acc1 V c t.val t.isLt =
      (step8 (iblk1 V c 0 t) (iblk1 V c 1 t) (iblk1 V c 2 t) (iblk1 V c 3 t) (k1_pay2 (F := F)),
       step9 (grid1.coords t) (iblk1 V c 0 t) (iblk1 V c 1 t) (iblk1 V c 2 t) (iblk1 V c 3 t) (k1_pay3 (F := F))) := by
  obtain ⟨n, hn⟩ := t
  cases n with
  | zero => rfl
  | succ n => exact absurd hz (Nat.succ_ne_zero n)

/-! ## The body obligation, at a generic point -/

/-- What the body is called with at point `t`: the invariant, the core's owes, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the closed forms say which of the three control
    cases the point is in; the invariant hands the body the two scratch cells (at anything at the first point, else at
    the accumulators the point before left) and takes them back at this point's accumulators; off the last point the
    two outputs' buffers are handed back as found, at the last point they hold the two accumulators. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Inv1 V c (t.val + 1) t.isLt from rfl, Inv1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 128 := lt_of_lt_of_eq t.isLt (show cfg1.N = 128 from N_1)
  by_cases h0 : t.val = 0
  · have h1 : ¬t.val = 127 := by omega
    rw [Dat.leavesExact_idle (dat1 V c) 4 t (idleAt1_4 t (fun h => h1 ((hcond1_1 t).mp h))) (noFlush1_4 t (fun h => h1 ((hcond1_1 t).mp h)))]
    rw [Dat.leavesExact_idle (dat1 V c) 5 t (idleAt1_5 t (fun h => h1 ((hcond1_1 t).mp h))) (noFlush1_5 t (fun h => h1 ((hcond1_1 t).mp h)))]
    rw [acc1_first V c t h0]
    rw [Inv1_castSucc V c t, Inv1_zero V c _ _ h0, PhiA1_eq]
    unfold rest1
    iintro ⟨⟨⟨A0, A1, A2, A3, A4, A5, A6, A7, A8, A9, HS0, HS1⟩, Hg⟩, Ho, ⟨%d0, H0⟩, ⟨%d1, H1⟩, ⟨%d2, H2⟩, ⟨%d3, H3⟩, ⟨%d4, H4⟩, ⟨%d5, H5⟩⟩
    iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _)
      ((hcond1_0 t).mpr h0) (fun h => h1 ((hcond1_1 t).mp h)) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitr [Ho H0 H1 H2 H3 H4 H5]
    · isplitr [Hg]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h1 : t.val = 127
    · rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [acc1_pos V c t h0]
      rw [Inv1_castSucc V c t, Inv1_pos V c _ _ h0]
      unfold rest1
      iintro ⟨⟨⟨A0, A1, A2, A3, A4, A5, A6, A7, A8, A9, HS0, HS1⟩, Hg⟩, Ho, ⟨%d0, H0⟩, ⟨%d1, H1⟩, ⟨%d2, H2⟩, ⟨%d3, H3⟩, ⟨%d4, H4⟩, ⟨%d5, H5⟩⟩
      iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _)
        (fun h => h0 ((hcond1_0 t).mp h)) ((hcond1_1 t).mpr h1) (iblk1 V c 0 t) (iblk1 V c 1 t) (iblk1 V c 2 t) (iblk1 V c 3 t)
        (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitr [Ho H0 H1 H2 H3 H4 H5]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [acc1_pos V c t h0]
      rw [Inv1_castSucc V c t, Inv1_pos V c _ _ h0]
      unfold rest1
      iintro ⟨⟨⟨A0, A1, A2, A3, A4, A5, A6, A7, A8, A9, HS0, HS1⟩, Hg⟩, Ho, ⟨%d0, H0⟩, ⟨%d1, H1⟩, ⟨%d2, H2⟩, ⟨%d3, H3⟩, ⟨%d4, H4⟩, ⟨%d5, H5⟩⟩
      iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _)
        (fun h => h0 ((hcond1_0 t).mp h)) (fun h => h1 ((hcond1_1 t).mp h)) (iblk1 V c 0 t) (iblk1 V c 1 t) (iblk1 V c 2 t) (iblk1 V c 3 t)
        (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitr [Ho H0 H1 H2 H3 H4 H5]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- THE BODY OBLIGATION of the Gram region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Fold.lean ====
/-
  The contents of the TensorCore's buffers at each boundary of the program: at launch, after the row-statistics
  region, after the reshape of the second column of norms into a row, after the Gram region, and after the ten
  scalar operations that end the program.

  A kernel region leaves each of its windows' arrays at what the pipeline's write-backs fold to (an input array
  as it was entered) and every other buffer untouched; a stretch of host operations leaves what the operations
  compute one after another. The two argument matrices are read by both regions through input windows and are
  written by no host operation, so at the end they hold what they held at launch.
-/
import proofs.«128264_j17093969838495_1_alg».proof.Proof.Gen.Kernel.Launch
import proofs.«128264_j17093969838495_1_alg».proof.Proof.Gen.Kernel.Skeleton
import proofs.«128264_j17093969838495_1_alg».proof.Proof.Gen.Kernel.Points
import proofs.«128264_j17093969838495_1_alg».proof.Proof.K.Defs0
import proofs.«128264_j17093969838495_1_alg».proof.Proof.K.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core `c`'s buffers at launch: what the first region is entered from. -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b

/-- After the row-statistics region: its five arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the reshape of the second column of norms into a row: what the Gram region is entered from. -/
abbrev W2 : Dev nD → Valuation τ sig (Elt F) := fun c => StableHlo.after hostOps1 (W1 m c)
/-- The same read at the TensorCore's references. -/
abbrev V2 : (c : Dev nD) → (b : Ref sig .tc) → Buf (Elt F) ((c : Thread nD τ).loc b) := fun c b => W2 m c b

/-- After the Gram region: its six arrays at what the pipeline leaves, every other buffer as it was entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the ten scalar operations: the end of the program. -/
abbrev W4 : Dev nD → Valuation τ sig (Elt F) := fun c => StableHlo.after hostOps2 (W3 m c)

/-! ## The arguments end as launched

No host operation writes an argument matrix, and each region reads it through an input window, whose array the
pipeline leaves as it was entered: so the fold at an argument's buffer walks back to the launch memory. -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := (W3_arr m c 0).trans (((dat1 (V2 m) c).arrAt_in 0 rfl _).trans (A_eq1 (V2 m) c 0))
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := (W3_arr m c 1).trans (((dat1 (V2 m) c).arrAt_in 1 rfl _).trans (A_eq1 (V2 m) c 1))
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 1).trans (((dat0 (V0 m) c).arrAt_in 1 rfl _).trans (A_eq0 (V0 m) c 1))
    _ = m ((c : Thread nD τ).loc main_arg1) := rfl

/-! ## The proof data of both pipelines -/

/-- The prefetched tables' admissible contents: no pipeline has a table. -/
abbrev adm : (p : Fin 2) → (pcfgs (F := F) p).Adm := fun p => (cfgs p).toPCfg_adm

/-- Every pipeline's proof data, each at its region's entry contents: the row-statistics region at the launch
    contents, the Gram region at the contents after the reshape. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c

end Cert.Kernel.Hand

end
-- ==== Proof.K.Main.lean ====
/-
  The run of the whole program: the row-statistics region, the reshape, the Gram region and the ten scalar
  operations, as four segments over one thread state — between two segments the TensorCore holds every unscoped
  buffer whole at that boundary's contents, its generator register at some state, and owes nothing.

  Each region takes its arrays out of the unscoped buffers at entry and puts them back at what the pipeline leaves
  at exit; the scoped buffers no window stages and the generator register go into the region's invariant before
  the first point and come back after the last. What each region's body does at a point is taken as a hypothesis
  here. The launch then says: from any memory, every fair execution of the program terminates, and at the end every
  unscoped buffer holds the last boundary's contents; in particular the two argument matrices hold what they held
  at launch.
-/
import proofs.«128264_j17093969838495_1_alg».proof.Proof.Gen.Kernel.Launch
import proofs.«128264_j17093969838495_1_alg».proof.Proof.Gen.Kernel.Skeleton
import proofs.«128264_j17093969838495_1_alg».proof.Proof.Gen.Kernel.Points
import proofs.«128264_j17093969838495_1_alg».proof.Proof.K.Defs0
import proofs.«128264_j17093969838495_1_alg».proof.Proof.K.Defs1
import proofs.«128264_j17093969838495_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The thread state between segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along:
    it runs to those buffers at what the operations compute one after another. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps1_fresh : (hostOps1 : List (HloOp τ sig (Elt F))).Forall fun op => op.fresh = ∅ := by
  simp only [List.Forall]; repeat' constructor
/-- None of the ten scalar operations allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The two regions as segments -/

set_option backward.isDefEq.respectTransparency.types false in
/-- The row-statistics region over the thread state: entered from every unscoped buffer at the launch contents, left at `W1`. Its arrays are split out of the unscoped buffers and put back at what the pipeline leaves; the generator register and the scoped buffers no window stages enter the invariant before the first point and come back after the last; nothing owed; no semaphore of the kernel's own. -/
def reg0 (hb0 : ∀ (V : (c : Dev nD) → (b : Ref sig .tc) → Buf (Elt F) ((c : Thread nD τ).loc b)) (c : Dev nD), BodyObligation (dat0 (F := F) V c) (defs₀ (F := F)) Variants.none () Set.univ) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (V0 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The Gram region over the thread state: entered from every unscoped buffer at the contents after the reshape, left at `W3`; the rest as for the first region. -/
def reg1 (hb1 : ∀ (V : (c : Dev nD) → (b : Ref sig .tc) → Buf (Elt F) ((c : Thread nD τ).loc b)) (c : Dev nD), BodyObligation (dat1 (F := F) V c) (defs₀ (F := F)) Variants.none () Set.univ) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's four segments in order. -/
abbrev segs (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ) : List (Pipeline.Seg (pcfgs (F := F)) adm (pdats m) () defs₀ 𝒱₀ L lv) :=
  [ .region (reg0 m hb0),
    .host (hseg hostOps1 hostOps1_sub hostOps1_fresh (W1 m)),
    .region (reg1 m hb1),
    .host (hseg hostOps2 hostOps2_sub hostOps2_fresh (W3 m)) ]
/-- The program IS the run of its segments. -/
theorem main_run (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ) (c : Dev nD) : main (F := F) c = Pipeline.Seg.run (segs m hb0 hb1) := (main_chain c).trans (by chain_rfl)

set_option backward.isDefEq.respectTransparency.types false in
/-- THE RUN. From any memory with zero counters, every weakly fair execution of the program on the TensorCores
    terminates, nothing faulting, and in every final state every unscoped buffer holds the last boundary's contents. -/
theorem run_all (hb0 : ∀ (V : (c : Dev nD) → (b : Ref sig .tc) → Buf (Elt F) ((c : Thread nD τ).loc b)) (c : Dev nD), BodyObligation (dat0 (F := F) V c) (defs₀ (F := F)) Variants.none () Set.univ)
      (hb1 : ∀ (V : (c : Dev nD) → (b : Ref sig .tc) → Buf (Elt F) ((c : Thread nD τ).loc b)) (c : Dev nD), BodyObligation (dat1 (F := F) V c) (defs₀ (F := F)) Variants.none () Set.univ)
      (m : (ℓ : Loc nD τ sig) → Buf (Elt F) ℓ) (ρ : Dev nD → PrngReg) :
      θ_run defs (onTc (τ := τ) (main (F := F))) ⟨m, fun _ => 0, ρ⟩ (fun r => ∀ c : Dev nD,
        ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m hb0 hb1)
    (fun c Q => by rw [main_run m hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the two argument matrices end as launched. -/
theorem frame (hb0 : ∀ (V : (c : Dev nD) → (b : Ref sig .tc) → Buf (Elt F) ((c : Thread nD τ).loc b)) (c : Dev nD), BodyObligation (dat0 (F := F) V c) (defs₀ (F := F)) Variants.none () Set.univ)
      (hb1 : ∀ (V : (c : Dev nD) → (b : Ref sig .tc) → Buf (Elt F) ((c : Thread nD τ).loc b)) (c : Dev nD), BodyObligation (dat1 (F := F) V c) (defs₀ (F := F)) Variants.none () Set.univ)
      (m : (ℓ : Loc nD τ sig) → Buf (Elt F) ℓ) (ρ : Dev nD → PrngReg) :
      θ_run defs (onTc (τ := τ) (main (F := F))) ⟨m, fun _ => 0, ρ⟩ (fun r => ∀ c : Dev nD,
        r.2.mem ((c.tc : Thread nD τ).loc main_arg0) = m ((c.tc : Thread nD τ).loc main_arg0) ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m c),
     (h c _ (mem_uc main_arg1 (by decide))).trans (W4_main_arg1 m c)⟩) (run_all hb0 hb1 m ρ)

/-- info: 'Cert.Kernel.Hand.run_all' depends on axioms: [propext, Classical.choice, Quot.sound] -/
#guard_msgs in #print axioms run_all

end Cert.Kernel.Hand

end
-- ==== Proof.KI.Defs0.lean ====
/-
  The row-statistics region (the first pallas_call: 16 grid points, each a tile of 256 rows of the two
  4096 × 4096 matrices p and q), as data for the pipeline's launch rule.

  At point t the body reads the two tiles x = p[256t .. 256t+255, :] and y = q[256t .. 256t+255, :] and
    · stores the rows' squared norms  Σ_k x(r,k)²  and  Σ_k y(r,k)²  into the two column outputs' blocks,
    · adds the tile's  Σ_r Σ_k (x(r,k) − y(r,k))²  to a one-cell accumulator it keeps in scratch memory
      (reset to 0 at the first point), and
    · at the last point copies the accumulator into the one-cell third output.
  So the accumulator after point n is the recursion `acc0` below: from the zero cell at the first point,
  each point adding its tile's sum. The region's invariant `Inv0` holds the scratch cell at that value
  between points (before the first point at anything), beside the other scoped buffers at anything.
-/
import proofs.«128264_j17093969838495_1_alg».proof.Proof.Gen.KernelIdeal.Launch
import proofs.«128264_j17093969838495_1_alg».proof.Proof.Gen.KernelIdeal.Skeleton
import proofs.«128264_j17093969838495_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's data are stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulator -/

/-- The scratch cell, a whole scoped buffer of the kernel's own. -/
abbrev scM0 : Memref sig .tc .vmem S1x1 .f32 := Memref.whole cc0_scratch0

/-- The accumulator after point `n`: the zero cell plus the first tile's sum of squared differences at the
    first point, then each point's tile sum added to what the point before left. -/
def acc0 (c : Dev nD) : (n : ℕ) → n < cfg0.N → Vec F S1x1 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (acc0 c n (Nat.lt_of_succ_lt h))

theorem acc0_zero (c : Dev nD) (h : 0 < cfg0.N) :
    acc0 V c 0 h = k0_pay2 (iblk0 V c 0 ⟨0, h⟩) (iblk0 V c 1 ⟨0, h⟩) (k0_pay1 (F := F)) := rfl

theorem acc0_succ (c : Dev nD) (n : ℕ) (h : n + 1 < cfg0.N) :
    acc0 V c (n + 1) h = k0_pay2 (iblk0 V c 0 ⟨n + 1, h⟩) (iblk0 V c 1 ⟨n + 1, h⟩) (acc0 V c n (Nat.lt_of_succ_lt h)) := rfl

/-- At a point that is not the first: this point's tile sum added to what the point before left. -/
theorem acc0_pos (c : Dev nD) (t : Fin cfg0.N) (hz : t.val ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd rfl hz
  | succ n => rfl

/-! ## The invariant -/

/-- The core's scoped buffers other than the scratch cell (the other pallas_call's staging and scratch buffers),
    each whole at some contents: what this region's body never touches. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The launch's invariant (every scoped buffer no window stages at anything, the generator register at some state)
    with the scratch cell set apart as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; rfl

/-- The region's invariant before position `n`: before the first point the launch's; afterwards the scratch cell at
    the accumulator the point before left, the other scoped buffers at anything, the generator register at some state. -/
def Inv0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem Inv0_zero (c : Dev nD) (n : ℕ) (h : n ≤ cfg0.N) (hz : n = 0) : Inv0 V c n h = Pipeline.ΦA spec0 c := by
  subst hz; rfl

theorem Inv0_succ (c : Dev nD) (n : ℕ) (hn : n < cfg0.N) :
    Inv0 V c (n + 1) hn = iprop(iprop(owns (c : Thread nD τ) scM0 fullShare (acc0 V c n hn) ∗ rest0 (F := F) c) ∗ (∃ r, prngReg c r)) := rfl

theorem Inv0_pos (c : Dev nD) (n : ℕ) (h : n ≤ cfg0.N) (hz : n ≠ 0) :
    Inv0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The proof data -/

/-- The pipeline's proof data on core `c`: the arrays as the region finds them; after the body at point `t` each
    input's buffer at its block, the two column outputs' at the tile's row norms, the one-cell output's at the
    accumulator (it is stored, and written back, at the last point only); the invariant `Inv0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (iblk0 V c 0 t)
    | ⟨3, _⟩ => k0_pay4 (iblk0 V c 1 t)
    | ⟨4, _⟩ => acc0 V c t.val t.isLt
  Φ t := Inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (iblk0 V c 0 t) := by dsimp only [dat0]
theorem after0_3 (c : Dev nD) (t : Fin cfg0.N) : (dat0 V c).after 3 t = k0_pay4 (iblk0 V c 1 t) := by dsimp only [dat0]
theorem after0_4 (c : Dev nD) (t : Fin cfg0.N) : (dat0 V c).after 4 t = acc0 V c t.val t.isLt := by dsimp only [dat0]

/-- The invariant at a point's start, restated at the point's position. -/
theorem Inv0_castSucc (c : Dev nD) (t : Fin cfg0.N) :
    (dat0 V c).Φ t.castSucc = Inv0 V c t.val (Nat.le_of_lt t.isLt) := by
  dsimp only [dat0]; simp only [Fin.coe_castSucc]

/-- What the launch hands the region is the invariant before the first point. -/
theorem hin0 (c : Dev nD) : Pipeline.ΦA spec0 c ⊢ (dat0 V c).Φ 0 := by
  rw [show (dat0 V c).Φ 0 = Inv0 V c 0 (Nat.zero_le _) from rfl, Inv0_zero V c 0 _ rfl]
  try exact Idealize.SL.BI.Entails.refl _

/-- After the last point the invariant gives the launch's back: the accumulator's value is forgotten. -/
theorem hout0 (c : Dev nD) : (dat0 V c).Φ (Fin.last cfg0.N) ⊢ Pipeline.ΦA spec0 c := by
  rw [show (dat0 V c).Φ (Fin.last cfg0.N) = Inv0 V c (Fin.last cfg0.N).val (Nat.le_of_lt_succ (Fin.last cfg0.N).isLt) from rfl,
    Inv0_pos V c _ _ (by rw [Fin.val_last]; have : cfg0.N = 16 := N_0; omega), PhiA0_eq]
  iintro ⟨⟨HS, Hr⟩, Hg⟩
  isplitl [HS Hr]
  · isplitl [HS]
    · iexists _; iexact HS
    iexact Hr
  iexact Hg

end Cert.KernelIdeal.Hand

end
-- ==== Proof.KI.Body0.lean ====
/-
  The row-statistics region's BODY OBLIGATION: at every grid point the kernel body, run from the region's invariant and
  the windows' current staging buffers, re-establishes the invariant at the next point and leaves each buffer at what
  the proof data say.

  The body has two conditionals on the grid coordinate, so a point is in one of three cases:
    · the first point: the accumulator cell is reset to the zero cell and then updated, ending at the first tile's
      sum of squared differences added to zero;
    · a point between: the cell, at what the point before left, is updated by this tile's sum;
    · the last point: after the update the cell is copied into the one-cell output's buffer.
  In every case the two column outputs' buffers end at the rows' squared norms of the two tiles and the inputs' buffers
  are left as found; off the last point the one-cell output's buffer is not touched (and not written back), so it is
  handed back as found.

  Each case's run is stated over arbitrary whole memrefs and arbitrary tiles x, y (so nothing about the region's arrays
  is unfolded), the pieces its stores leave being found by the run itself; each buffer's pieces are then read back as
  the skeleton's payload, and the three cases are put together at the point's blocks.
-/
import proofs.«128264_j17093969838495_1_alg».proof.Proof.KI.Defs0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, in closed form over the grid -/

/-- The first conditional's test (is this the first tile?), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional's test (is this the last tile?). -/
abbrev cond0_1 (i : grid0.Coords) : Prop := k0_cond2 i = 1#1
/-- It holds at the last point only. -/
theorem hcond0_1 : ∀ t : Fin cfg0.N, cond0_1 (grid0.coords t) ↔ t.val = 15 :=
  (by decide +kernel : ∀ t : Fin grid0.N, cond0_1 (grid0.coords t) ↔ t.val = 15)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last point the one-cell output is idle (nothing is stored into it) -/
theorem idleAt0_4 : ∀ t : Fin cfg0.N, ¬cond0_1 (grid0.coords t) → cfg0.idle 4 (grid0.coords t) = true := by decide +kernel
/-- and not written back; -/
theorem noFlush0_4 : ∀ t : Fin cfg0.N, ¬cond0_1 (grid0.coords t) → (cfg0.win 4).flush t = false := by decide +kernel
/-- at the last point it is live. -/
theorem liveAt0_4 : ∀ t : Fin cfg0.N, cond0_1 (grid0.coords t) → cfg0.idle 4 (grid0.coords t) = false := by decide +kernel

/-! ## The inputs' staging buffers hold their blocks -/

/-- An input's current staging buffer holds its block at every point (it is fetched at every point and the body
    leaves it in place). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

set_option maxHeartbeats 1000000 in
/-- The body on any whole buffers at the first point: the accumulator cell at anything (it is reset, then updated). -/
noncomputable def kernelRun0_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x4096 .f32) :
    Σ' (L2 : List (View.Piece (Elt F) S256x1 .f32)) (L3 : List (View.Piece (Elt F) S256x1 .f32)), { LS : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__rowstats_kernel i arg1 harg1 arg2 harg2 arg3 harg3 arg4 harg4 arg5 harg5 arg6 harg6) K } := by
  refine ⟨?_, ?_, ?_, fun xi4 E K => ?run⟩
  case run =>
    simp only [cc0__rowstats_kernel_eq_skeleton]; unfold cc0__rowstats_kernel_skel
    unfold owns
    iintro ⟨⟨%f0, %hf0, H0⟩, ⟨%f1, %hf1, H1⟩, ⟨%d2, %f2, -, H2⟩, ⟨%d3, %f3, -, H3⟩, ⟨%f4, %hf4, H4⟩, ⟨%ds, %fs, -, HS⟩, Hk⟩
    obtain rfl := harg1.eq_unread hf0; obtain rfl := harg2.eq_unread hf1; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    iexists _; iexact HS

set_option maxHeartbeats 1000000 in
/-- The body on any whole buffers at a point that is neither the first nor the last: the tiles x, y in the two inputs'
    buffers, the accumulator cell at s; it leaves the inputs and the one-cell output's buffer as found, and in the two
    column outputs' buffers and the accumulator cell the pieces its stores wrote (the witness). -/
noncomputable def kernelRun0_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x4096 .f32) (xs : Vec F S1x1 .f32) :
    Σ' (L2 : List (View.Piece (Elt F) S256x1 .f32)) (L3 : List (View.Piece (Elt F) S256x1 .f32)), { LS : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ owns (c : Thread nD τ) arg6 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__rowstats_kernel i arg1 harg1 arg2 harg2 arg3 harg3 arg4 harg4 arg5 harg5 arg6 harg6) K } := by
  refine ⟨?_, ?_, ?_, fun xi4 E K => ?run⟩
  case run =>
    simp only [cc0__rowstats_kernel_eq_skeleton]; unfold cc0__rowstats_kernel_skel
    unfold owns
    iintro ⟨⟨%f0, %hf0, H0⟩, ⟨%f1, %hf1, H1⟩, ⟨%d2, %f2, -, H2⟩, ⟨%d3, %f3, -, H3⟩, ⟨%f4, %hf4, H4⟩, ⟨%fs, %hfs, HS⟩, Hk⟩
    obtain rfl := harg1.eq_unread hf0; obtain rfl := harg2.eq_unread hf1; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    iexists _; iexact HS

set_option maxHeartbeats 1000000 in
/-- The body on any whole buffers at the last point: the accumulator cell at s, the one-cell output's buffer at anything
    (the updated accumulator is copied into it). -/
noncomputable def kernelRun0_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) :
    Σ' (L2 : List (View.Piece (Elt F) S256x1 .f32)) (L3 : List (View.Piece (Elt F) S256x1 .f32)) (L4 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc0__rowstats_kernel i arg1 harg1 arg2 harg2 arg3 harg3 arg4 harg4 arg5 harg5 arg6 harg6) K } := by
  refine ⟨?_, ?_, ?_, ?_, fun E K => ?run⟩
  case run =>
    simp only [cc0__rowstats_kernel_eq_skeleton]; unfold cc0__rowstats_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs, %hfs, HS⟩, Hk⟩
    obtain rfl := harg1.eq_unread hf0; obtain rfl := harg2.eq_unread hf1; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS

/-! ## What the runs' pieces read back as

Every store of the body writes a whole buffer through the rectangle at zero offsets, so a buffer the body stores
into ends at the payload of its last store, with each load in that payload read back the same way. -/

/-- The zero offsets of a rank-2 buffer, however spelt. -/
theorem zeroOffs0 : (![0, 0] : Fin 2 → ℕ) = fun _ => 0 := by funext a; fin_cases a <;> rfl

/-- The one store into the first column output covers its buffer. -/
theorem cov0_L2_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x4096 .f32) (y : S256x1.Idx) :
    ∃ pc ∈ (kernelRun0_A c i arg1 harg1 arg2 harg2 arg3 harg3 arg4 harg4 arg5 harg5 arg6 harg6 hc0 hc1 x0 x1).1, y ∈ pc.1.set :=
  View.cover_of_tiledL (kernelRun0_A c i arg1 harg1 arg2 harg2 arg3 harg3 arg4 harg4 arg5 harg5 arg6 harg6 hc0 hc1 x0 x1).1 S256x1.size (by sl_kernel_rfl) y

/-- It leaves the row norms of x. -/
theorem sout0_L2_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x4096 .f32) (f : arg3.view.ty.Contents (Elt F)) :
    arg3.view.read (Elt F) (arg3.view.writes (Elt F) f (kernelRun0_A c i arg1 harg1 arg2 harg2 arg3 harg3 arg4 harg4 arg5 harg5 arg6 harg6 hc0 hc1 x0 x1).1) = k0_pay3 x0 := by
  rw [View.read_writes_eq_canon _ _ _ (cov0_L2_A c i arg1 harg1 arg2 harg2 arg3 harg3 arg4 harg4 arg5 harg5 arg6 harg6 hc0 hc1 x0 x1)]
  unfold kernelRun0_A; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The one store into the second column output covers its buffer. -/
theorem cov0_L3_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x4096 .f32) (y : S256x1.Idx) :
    ∃ pc ∈ (kernelRun0_A c i arg1 harg1 arg2 harg2 arg3 harg3 arg4 harg4 arg5 harg5 arg6 harg6 hc0 hc1 x0 x1).2.1, y ∈ pc.1.set :=
  View.cover_of_tiledL (kernelRun0_A c i arg1 harg1 arg2 harg2 arg3 harg3 arg4 harg4 arg5 harg5 arg6 harg6 hc0 hc1 x0 x1).2.1 S256x1.size (by sl_kernel_rfl) y

/-- It leaves the row norms of y. -/
theorem sout0_L3_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x4096 .f32) (f : arg4.view.ty.Contents (Elt F)) :
    arg4.view.read (Elt F) (arg4.view.writes (Elt F) f (kernelRun0_A c i arg1 harg1 arg2 harg2 arg3 harg3 arg4 harg4 arg5 harg5 arg6 harg6 hc0 hc1 x0 x1).2.1) = k0_pay4 x1 := by
  rw [View.read_writes_eq_canon _ _ _ (cov0_L3_A c i arg1 harg1 arg2 harg2 arg3 harg3 arg4 harg4 arg5 harg5 arg6 harg6 hc0 hc1 x0 x1)]
  unfold kernelRun0_A; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The reset and the update each cover the accumulator cell. -/
theorem cov0_LS_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x4096 .f32) (y : S1x1.Idx) :
    ∃ pc ∈ (kernelRun0_A c i arg1 harg1 arg2 harg2 arg3 harg3 arg4 harg4 arg5 harg5 arg6 harg6 hc0 hc1 x0 x1).2.2.1, y ∈ pc.1.set :=
  View.cover_of_tiledL (kernelRun0_A c i arg1 harg1 arg2 harg2 arg3 harg3 arg4 harg4 arg5 harg5 arg6 harg6 hc0 hc1 x0 x1).2.2.1 S1x1.size (by sl_kernel_rfl) y

/-- The cell ends at the update of the zero cell (the load between the two stores reads the reset back). -/
theorem sout0_LS_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x4096 .f32) (f : arg6.view.ty.Contents (Elt F)) :
    arg6.view.read (Elt F) (arg6.view.writes (Elt F) f (kernelRun0_A c i arg1 harg1 arg2 harg2 arg3 harg3 arg4 harg4 arg5 harg5 arg6 harg6 hc0 hc1 x0 x1).2.2.1) = k0_pay2 x0 x1 (k0_pay1 (F := F)) := by
  rw [View.read_writes_eq_canon _ _ _ (cov0_LS_A c i arg1 harg1 arg2 harg2 arg3 harg3 arg4 harg4 arg5 harg5 arg6 harg6 hc0 hc1 x0 x1)]
  unfold kernelRun0_A; dsimp only; sl_unfold_words
  rw [View.canon_cons_unit_zero (S := S1x1) zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The one store into the first column output covers its buffer. -/
theorem cov0_L2_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x4096 .f32) (xs : Vec F S1x1 .f32) (y : S256x1.Idx) :
    ∃ pc ∈ (kernelRun0_B c i arg1 harg1 arg2 harg2 arg3 harg3 arg4 harg4 arg5 harg5 arg6 harg6 hc0 hc1 x0 x1 xs).1, y ∈ pc.1.set :=
  View.cover_of_tiledL (kernelRun0_B c i arg1 harg1 arg2 harg2 arg3 harg3 arg4 harg4 arg5 harg5 arg6 harg6 hc0 hc1 x0 x1 xs).1 S256x1.size (by sl_kernel_rfl) y

/-- It leaves the row norms of x. -/
theorem sout0_L2_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x4096 .f32) (xs : Vec F S1x1 .f32) (f : arg3.view.ty.Contents (Elt F)) :
    arg3.view.read (Elt F) (arg3.view.writes (Elt F) f (kernelRun0_B c i arg1 harg1 arg2 harg2 arg3 harg3 arg4 harg4 arg5 harg5 arg6 harg6 hc0 hc1 x0 x1 xs).1) = k0_pay3 x0 := by
  rw [View.read_writes_eq_canon _ _ _ (cov0_L2_B c i arg1 harg1 arg2 harg2 arg3 harg3 arg4 harg4 arg5 harg5 arg6 harg6 hc0 hc1 x0 x1 xs)]
  unfold kernelRun0_B; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The one store into the second column output covers its buffer. -/
theorem cov0_L3_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x4096 .f32) (xs : Vec F S1x1 .f32) (y : S256x1.Idx) :
    ∃ pc ∈ (kernelRun0_B c i arg1 harg1 arg2 harg2 arg3 harg3 arg4 harg4 arg5 harg5 arg6 harg6 hc0 hc1 x0 x1 xs).2.1, y ∈ pc.1.set :=
  View.cover_of_tiledL (kernelRun0_B c i arg1 harg1 arg2 harg2 arg3 harg3 arg4 harg4 arg5 harg5 arg6 harg6 hc0 hc1 x0 x1 xs).2.1 S256x1.size (by sl_kernel_rfl) y

/-- It leaves the row norms of y. -/
theorem sout0_L3_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x4096 .f32) (xs : Vec F S1x1 .f32) (f : arg4.view.ty.Contents (Elt F)) :
    arg4.view.read (Elt F) (arg4.view.writes (Elt F) f (kernelRun0_B c i arg1 harg1 arg2 harg2 arg3 harg3 arg4 harg4 arg5 harg5 arg6 harg6 hc0 hc1 x0 x1 xs).2.1) = k0_pay4 x1 := by
  rw [View.read_writes_eq_canon _ _ _ (cov0_L3_B c i arg1 harg1 arg2 harg2 arg3 harg3 arg4 harg4 arg5 harg5 arg6 harg6 hc0 hc1 x0 x1 xs)]
  unfold kernelRun0_B; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The update covers the accumulator cell. -/
theorem cov0_LS_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x4096 .f32) (xs : Vec F S1x1 .f32) (y : S1x1.Idx) :
    ∃ pc ∈ (kernelRun0_B c i arg1 harg1 arg2 harg2 arg3 harg3 arg4 harg4 arg5 harg5 arg6 harg6 hc0 hc1 x0 x1 xs).2.2.1, y ∈ pc.1.set :=
  View.cover_of_tiledL (kernelRun0_B c i arg1 harg1 arg2 harg2 arg3 harg3 arg4 harg4 arg5 harg5 arg6 harg6 hc0 hc1 x0 x1 xs).2.2.1 S1x1.size (by sl_kernel_rfl) y

/-- The cell ends at the update of what it held. -/
theorem sout0_LS_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x4096 .f32) (xs : Vec F S1x1 .f32) (f : arg6.view.ty.Contents (Elt F)) :
    arg6.view.read (Elt F) (arg6.view.writes (Elt F) f (kernelRun0_B c i arg1 harg1 arg2 harg2 arg3 harg3 arg4 harg4 arg5 harg5 arg6 harg6 hc0 hc1 x0 x1 xs).2.2.1) = k0_pay2 x0 x1 xs := by
  rw [View.read_writes_eq_canon _ _ _ (cov0_LS_B c i arg1 harg1 arg2 harg2 arg3 harg3 arg4 harg4 arg5 harg5 arg6 harg6 hc0 hc1 x0 x1 xs)]
  unfold kernelRun0_B; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The one store into the first column output covers its buffer. -/
theorem cov0_L2_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (y : S256x1.Idx) :
    ∃ pc ∈ (kernelRun0_C c i arg1 harg1 arg2 harg2 arg3 harg3 arg4 harg4 arg5 harg5 arg6 harg6 hc0 hc1 x0 x1 xs).1, y ∈ pc.1.set :=
  View.cover_of_tiledL (kernelRun0_C c i arg1 harg1 arg2 harg2 arg3 harg3 arg4 harg4 arg5 harg5 arg6 harg6 hc0 hc1 x0 x1 xs).1 S256x1.size (by sl_kernel_rfl) y

/-- It leaves the row norms of x. -/
theorem sout0_L2_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (f : arg3.view.ty.Contents (Elt F)) :
    arg3.view.read (Elt F) (arg3.view.writes (Elt F) f (kernelRun0_C c i arg1 harg1 arg2 harg2 arg3 harg3 arg4 harg4 arg5 harg5 arg6 harg6 hc0 hc1 x0 x1 xs).1) = k0_pay3 x0 := by
  rw [View.read_writes_eq_canon _ _ _ (cov0_L2_C c i arg1 harg1 arg2 harg2 arg3 harg3 arg4 harg4 arg5 harg5 arg6 harg6 hc0 hc1 x0 x1 xs)]
  unfold kernelRun0_C; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The one store into the second column output covers its buffer. -/
theorem cov0_L3_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (y : S256x1.Idx) :
    ∃ pc ∈ (kernelRun0_C c i arg1 harg1 arg2 harg2 arg3 harg3 arg4 harg4 arg5 harg5 arg6 harg6 hc0 hc1 x0 x1 xs).2.1, y ∈ pc.1.set :=
  View.cover_of_tiledL (kernelRun0_C c i arg1 harg1 arg2 harg2 arg3 harg3 arg4 harg4 arg5 harg5 arg6 harg6 hc0 hc1 x0 x1 xs).2.1 S256x1.size (by sl_kernel_rfl) y

/-- It leaves the row norms of y. -/
theorem sout0_L3_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (f : arg4.view.ty.Contents (Elt F)) :
    arg4.view.read (Elt F) (arg4.view.writes (Elt F) f (kernelRun0_C c i arg1 harg1 arg2 harg2 arg3 harg3 arg4 harg4 arg5 harg5 arg6 harg6 hc0 hc1 x0 x1 xs).2.1) = k0_pay4 x1 := by
  rw [View.read_writes_eq_canon _ _ _ (cov0_L3_C c i arg1 harg1 arg2 harg2 arg3 harg3 arg4 harg4 arg5 harg5 arg6 harg6 hc0 hc1 x0 x1 xs)]
  unfold kernelRun0_C; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The one store into the one-cell output covers its buffer. -/
theorem cov0_L4_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (y : S1x1.Idx) :
    ∃ pc ∈ (kernelRun0_C c i arg1 harg1 arg2 harg2 arg3 harg3 arg4 harg4 arg5 harg5 arg6 harg6 hc0 hc1 x0 x1 xs).2.2.1, y ∈ pc.1.set :=
  View.cover_of_tiledL (kernelRun0_C c i arg1 harg1 arg2 harg2 arg3 harg3 arg4 harg4 arg5 harg5 arg6 harg6 hc0 hc1 x0 x1 xs).2.2.1 S1x1.size (by sl_kernel_rfl) y

/-- It leaves the updated accumulator (the cell's load after the update reads the update back). -/
theorem sout0_L4_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (f : arg5.view.ty.Contents (Elt F)) :
    arg5.view.read (Elt F) (arg5.view.writes (Elt F) f (kernelRun0_C c i arg1 harg1 arg2 harg2 arg3 harg3 arg4 harg4 arg5 harg5 arg6 harg6 hc0 hc1 x0 x1 xs).2.2.1) = k0_pay2 x0 x1 xs := by
  rw [View.read_writes_eq_canon _ _ _ (cov0_L4_C c i arg1 harg1 arg2 harg2 arg3 harg3 arg4 harg4 arg5 harg5 arg6 harg6 hc0 hc1 x0 x1 xs)]
  unfold kernelRun0_C; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-- The update covers the accumulator cell. -/
theorem cov0_LS_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (y : S1x1.Idx) :
    ∃ pc ∈ (kernelRun0_C c i arg1 harg1 arg2 harg2 arg3 harg3 arg4 harg4 arg5 harg5 arg6 harg6 hc0 hc1 x0 x1 xs).2.2.2.1, y ∈ pc.1.set :=
  View.cover_of_tiledL (kernelRun0_C c i arg1 harg1 arg2 harg2 arg3 harg3 arg4 harg4 arg5 harg5 arg6 harg6 hc0 hc1 x0 x1 xs).2.2.2.1 S1x1.size (by sl_kernel_rfl) y

/-- The cell ends at the update of what it held. -/
theorem sout0_LS_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x4096 .f32) (xs : Vec F S1x1 .f32) (f : arg6.view.ty.Contents (Elt F)) :
    arg6.view.read (Elt F) (arg6.view.writes (Elt F) f (kernelRun0_C c i arg1 harg1 arg2 harg2 arg3 harg3 arg4 harg4 arg5 harg5 arg6 harg6 hc0 hc1 x0 x1 xs).2.2.2.1) = k0_pay2 x0 x1 xs := by
  rw [View.read_writes_eq_canon _ _ _ (cov0_LS_C c i arg1 harg1 arg2 harg2 arg3 harg3 arg4 harg4 arg5 harg5 arg6 harg6 hc0 hc1 x0 x1 xs)]
  unfold kernelRun0_C; dsimp only; sl_unfold_words
  rw [View.canon_unit_zero zeroOffs0]
  simp only [View.readAt_eq_ld, harg1.read_unread, harg2.read_unread, harg6.read_unread, View.ld_unit_zero (S := S256x4096) zeroOffs0, View.ld_unit_zero (S := S1x1) zeroOffs0, View.readCov_unit_zero (S := S1x1) _ zeroOffs0]

/-! ## The body obligation, at a generic point -/

/-- Each window's current staging memref at point `t`, as the pipeline passes it to the body, and its wholeness. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

/-- At the first point the accumulator is the first tile's sum added to the zero cell. -/
theorem acc0_first (c : Dev nD) (t : Fin cfg0.N) (hz : t.val = 0) :
    acc0 V c t.val t.isLt = k0_pay2 (iblk0 V c 0 t) (iblk0 V c 1 t) (k0_pay1 (F := F)) := by
  obtain ⟨n, hn⟩ := t
  cases n with
  | zero => rfl
  | succ n => exact absurd hz (Nat.succ_ne_zero n)

/-- What the body is called with at point `t`: the invariant, what the core owes, each window's current buffer, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold the tiles; the point is the first, the last, or neither, and that
    case's run applies: the invariant hands it the accumulator cell (at anything at the first point, afterwards at what
    the point before left) and takes it back at this point's accumulator; the column outputs' buffers end at the tiles'
    row norms; the one-cell output's buffer is handed back as found, except at the last point, where it ends at the
    accumulator. The other scoped buffers, the generator register and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Inv0 V c (t.val + 1) t.isLt from rfl, Inv0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 16 := lt_of_lt_of_eq t.isLt (show cfg0.N = 16 from N_0)
  by_cases h0 : t.val = 0
  · -- the first point
    have h1 : ¬t.val = 15 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [acc0_first V c t h0]
    rw [Inv0_castSucc V c t, Inv0_zero V c _ _ h0, PhiA0_eq]
    iintro ⟨⟨⟨HS, Hr⟩, Hg⟩, Ho, ⟨%d0, H0⟩, ⟨%d1, H1⟩, ⟨%d2, H2⟩, ⟨%d3, H3⟩, ⟨%d4, H4⟩⟩
    iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t)).2.2.2 _ Set.univ _)
    isplitl [H0]; · iexact H0
    isplitl [H1]; · iexact H1
    isplitl [H2]; · iexists _; iexact H2
    isplitl [H3]; · iexists _; iexact H3
    isplitl [H4]; · iexact H4
    isplitl [HS]; · iexact HS
    iintro ⟨H0, H1, ⟨%e2, H2⟩, ⟨%e3, H3⟩, H4, ⟨%es, HS⟩⟩
    isplitl [HS Hr Hg]
    · isplitl [HS Hr]
      · isplitl [HS]
        · unfold owns; iexists _; isplitr
          swap; · iexact HS
          ipureintro; exact sout0_LS_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) es
        iexact Hr
      iexact Hg
    isplitl [Ho]; · iexact Ho
    isplitl [H0]; · iexact H0
    isplitl [H1]; · iexact H1
    isplitl [H2]
    · unfold owns; iexists _; isplitr
      swap; · iexact H2
      ipureintro; exact sout0_L2_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) e2
    isplitl [H3]
    · unfold owns; iexists _; isplitr
      swap; · iexact H3
      ipureintro; exact sout0_L3_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) e3
    iexists _; iexact H4
  · have hc0 : ¬cond0_0 (grid0.coords t) := fun h => h0 ((hcond0_0 t).mp h)
    by_cases h1 : t.val = 15
    · -- the last point
      have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [acc0_pos V c t h0]
      rw [Inv0_castSucc V c t, Inv0_pos V c _ _ h0]
      iintro ⟨⟨⟨HS, Hr⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt))).2.2.2.2 Set.univ _)
      isplitl [H0]; · iexact H0
      isplitl [H1]; · iexact H1
      isplitl [H2]; · iexists _; iexact H2
      isplitl [H3]; · iexists _; iexact H3
      isplitl [H4]; · iexists _; iexact H4
      isplitl [HS]; · iexact HS
      iintro ⟨H0, H1, ⟨%e2, H2⟩, ⟨%e3, H3⟩, ⟨%e4, H4⟩, ⟨%es, HS⟩⟩
      isplitl [HS Hr Hg]
      · isplitl [HS Hr]
        · isplitl [HS]
          · unfold owns; iexists _; isplitr
            swap; · iexact HS
            ipureintro; exact sout0_LS_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt)) es
          iexact Hr
        iexact Hg
      isplitl [Ho]; · iexact Ho
      isplitl [H0]; · iexact H0
      isplitl [H1]; · iexact H1
      isplitl [H2]
      · unfold owns; iexists _; isplitr
        swap; · iexact H2
        ipureintro; exact sout0_L2_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt)) e2
      isplitl [H3]
      · unfold owns; iexists _; isplitr
        swap; · iexact H3
        ipureintro; exact sout0_L3_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt)) e3
      unfold owns; iexists _; isplitr
      swap; · iexact H4
      ipureintro; exact sout0_L4_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt)) e4
    · -- a point between
      have hc1 : ¬cond0_1 (grid0.coords t) := fun h => h1 ((hcond0_1 t).mp h)
      rw [Dat.leavesExact_idle (dat0 V c) 4 t (idleAt0_4 t hc1) (noFlush0_4 t hc1)]
      rw [acc0_pos V c t h0]
      rw [Inv0_castSucc V c t, Inv0_pos V c _ _ h0]
      iintro ⟨⟨⟨HS, Hr⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt))).2.2.2 _ Set.univ _)
      isplitl [H0]; · iexact H0
      isplitl [H1]; · iexact H1
      isplitl [H2]; · iexists _; iexact H2
      isplitl [H3]; · iexists _; iexact H3
      isplitl [H4]; · iexact H4
      isplitl [HS]; · iexact HS
      iintro ⟨H0, H1, ⟨%e2, H2⟩, ⟨%e3, H3⟩, H4, ⟨%es, HS⟩⟩
      isplitl [HS Hr Hg]
      · isplitl [HS Hr]
        · isplitl [HS]
          · unfold owns; iexists _; isplitr
            swap; · iexact HS
            ipureintro; exact sout0_LS_B c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt)) es
          iexact Hr
        iexact Hg
      isplitl [Ho]; · iexact Ho
      isplitl [H0]; · iexact H0
      isplitl [H1]; · iexact H1
      isplitl [H2]
      · unfold owns; iexists _; isplitr
        swap; · iexact H2
        ipureintro; exact sout0_L2_B c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt)) e2
      isplitl [H3]
      · unfold owns; iexists _; isplitr
        swap; · iexact H3
        ipureintro; exact sout0_L3_B c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (acc0 V c (t.val - 1) (Nat.lt_of_le_of_lt (Nat.sub_le _ _) t.isLt)) e3
      iexists _; iexact H4

/-- THE BODY OBLIGATION of the row-statistics region: the library's obligation at every point, the windows taken one by one. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Defs1.lean ====
/-
  The Gram region (the second pallas_call: an 8 × 16 grid, point (i, j) a 512 × 256 tile of the 4096 × 4096
  matrix of all-pairs squared distances), as data for the pipeline's launch rule.

  At point (i, j) the body reads the tiles x = p[512i .., :], y = q[256j .., :], the row norms' tiles
  a = n1[512i ..] (a column) and b = n2[256j ..] (a row), forms the tile of distances
      d(r, s) = (a(r) + b(s)) − 2 · Σ_k x(r,k) · y(s,k),
  and adds  Σ_r Σ_s d(r, s)  to one accumulator and the tile's part of the diagonal,
  Σ_r Σ_s [512i + r = 256j + s] · d(r, s), to a second one — two one-cell scratch buffers, both reset to 0 at the
  first point —; at the last point it copies the two accumulators into the two one-cell outputs.
  `acc1` is that pair of accumulators after point n; the invariant `Inv1` holds the two scratch cells at it
  between points, the other scoped buffers at anything.
-/
import proofs.«128264_j17093969838495_1_alg».proof.Proof.Gen.KernelIdeal.Launch
import proofs.«128264_j17093969838495_1_alg».proof.Proof.Gen.KernelIdeal.Skeleton
import proofs.«128264_j17093969838495_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's data are stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two accumulators -/

/-- The two scratch cells, whole scoped buffers of the kernel's own. -/
abbrev scM1_0 : Memref sig .tc .vmem S1x1 .f32 := Memref.whole cc1_scratch0
abbrev scM1_1 : Memref sig .tc .vmem S1x1 .f32 := Memref.whole cc1_scratch1

/-- One point's update of the first accumulator: the tile of distances summed over both axes, added to `s`. -/
def step8 (x0 : Vec F S512x4096 .f32) (x1 : Vec F S256x4096 .f32) (x2 : Vec F S512x1 .f32) (x3 : Vec F S1x256 .f32)
    (s : Vec F S1x1 .f32) : Vec F S1x1 .f32 :=
  k1_pay5 x0 x1 x2 x3 s

/-- One point's update of the second accumulator at grid coordinates `i`: the tile of distances masked to the
    entries whose global row index equals their global column index, summed over both axes, added to `s`. -/
def step9 (i : grid1.Coords) (x0 : Vec F S512x4096 .f32) (x1 : Vec F S256x4096 .f32) (x2 : Vec F S512x1 .f32) (x3 : Vec F S1x256 .f32)
    (s : Vec F S1x1 .f32) : Vec F S1x1 .f32 :=
  k1_pay1 (k1_pay4 x0 x1 x2 x3) (k1_pay6 i) (iota .tc S512x256 32 [1] iota_S512x256_d1_w32)
    (Scalar.muli (BitVec.ofNat 32 (i 1).val) 256#32) s

/-- The two accumulators after point `n`: from the zero cells at the first point, each point's two tile sums
    added to what the point before left. -/
def acc1 (c : Dev nD) : (n : ℕ) → n < cfg1.N → Vec F S1x1 .f32 × Vec F S1x1 .f32
  | 0, h =>
    (step8 (iblk1 V c 0 ⟨0, h⟩) (iblk1 V c 1 ⟨0, h⟩) (iblk1 V c 2 ⟨0, h⟩) (iblk1 V c 3 ⟨0, h⟩) (k1_pay2 (F := F)),
     step9 (grid1.coords ⟨0, h⟩) (iblk1 V c 0 ⟨0, h⟩) (iblk1 V c 1 ⟨0, h⟩) (iblk1 V c 2 ⟨0, h⟩) (iblk1 V c 3 ⟨0, h⟩) (k1_pay3 (F := F)))
  | n + 1, h =>
    (step8 (iblk1 V c 0 ⟨n + 1, h⟩) (iblk1 V c 1 ⟨n + 1, h⟩) (iblk1 V c 2 ⟨n + 1, h⟩) (iblk1 V c 3 ⟨n + 1, h⟩) (acc1 c n (Nat.lt_of_succ_lt h)).1,
     step9 (grid1.coords ⟨n + 1, h⟩) (iblk1 V c 0 ⟨n + 1, h⟩) (iblk1 V c 1 ⟨n + 1, h⟩) (iblk1 V c 2 ⟨n + 1, h⟩) (iblk1 V c 3 ⟨n + 1, h⟩) (acc1 c n (Nat.lt_of_succ_lt h)).2)

theorem acc1_zero (c : Dev nD) (h : 0 < cfg1.N) :
    acc1 V c 0 h =
      (step8 (iblk1 V c 0 ⟨0, h⟩) (iblk1 V c 1 ⟨0, h⟩) (iblk1 V c 2 ⟨0, h⟩) (iblk1 V c 3 ⟨0, h⟩) (k1_pay2 (F := F)),
       step9 (grid1.coords ⟨0, h⟩) (iblk1 V c 0 ⟨0, h⟩) (iblk1 V c 1 ⟨0, h⟩) (iblk1 V c 2 ⟨0, h⟩) (iblk1 V c 3 ⟨0, h⟩) (k1_pay3 (F := F))) := rfl

theorem acc1_succ (c : Dev nD) (n : ℕ) (h : n + 1 < cfg1.N) :
    acc1 V c (n + 1) h =
      (step8 (iblk1 V c 0 ⟨n + 1, h⟩) (iblk1 V c 1 ⟨n + 1, h⟩) (iblk1 V c 2 ⟨n + 1, h⟩) (iblk1 V c 3 ⟨n + 1, h⟩) (acc1 V c n (Nat.lt_of_succ_lt h)).1,
       step9 (grid1.coords ⟨n + 1, h⟩) (iblk1 V c 0 ⟨n + 1, h⟩) (iblk1 V c 1 ⟨n + 1, h⟩) (iblk1 V c 2 ⟨n + 1, h⟩) (iblk1 V c 3 ⟨n + 1, h⟩) (acc1 V c n (Nat.lt_of_succ_lt h)).2) := rfl

/-- At a point that is not the first: this point's two tile sums added to what the point before left. -/
theorem acc1_pos (c : Dev nD) (t : Fin cfg1.N) (hz : t.val ≠ 0) :
    acc1 V c t.val t.isLt =
      (step8 (iblk1 V c 0 t) (iblk1 V c 1 t) (iblk1 V c 2 t) (iblk1 V c 3 t) (acc1 V c (t.val - 1) (Nat.lt_of_le_of_lt (Nat.sub_le _ _) t.isLt)).1,
       step9 (grid1.coords t) (iblk1 V c 0 t) (iblk1 V c 1 t) (iblk1 V c 2 t) (iblk1 V c 3 t) (acc1 V c (t.val - 1) (Nat.lt_of_le_of_lt (Nat.sub_le _ _) t.isLt)).2) := by
  obtain ⟨n, hn⟩ := t
  cases n with
  | zero => exact absurd rfl hz
  | succ n => rfl

/-! ## The invariant -/

/-- The core's scoped buffers other than the two scratch cells (the other pallas_call's staging and scratch
    buffers), each whole at some contents, beside `X` (what is said of the two scratch cells). -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ X)

/-- The launch's invariant with the two scratch cells set apart as memrefs owned at some contents. -/
theorem PhiA1_eq (c : Dev nD) :
    (Pipeline.ΦA spec1 c : sProp 𝕄)
      = iprop(rest1 (F := F) c (iprop((∃ d, owns (c : Thread nD τ) scM1_0 fullShare d) ∗ (∃ d, owns (c : Thread nD τ) scM1_1 fullShare d))) ∗ (∃ r, prngReg c r)) := by
  unfold Pipeline.ΦA rest1; rw [scopedRest1_eq]; simp only [scM1_0, scM1_1, owns_whole]; rfl

/-- The region's invariant before position `n`: before the first point the launch's; afterwards the two scratch
    cells at the accumulators the point before left, the other scoped buffers at anything, the generator register at
    some state. -/
def Inv1 (c : Dev nD) : (n : ℕ) → n ≤ cfg1.N → sProp 𝕄
  | 0, _ => Pipeline.ΦA spec1 c
  | n + 1, hn => iprop(rest1 (F := F) c (iprop(owns (c : Thread nD τ) scM1_0 fullShare (acc1 V c n hn).1 ∗ owns (c : Thread nD τ) scM1_1 fullShare (acc1 V c n hn).2)) ∗ (∃ r, prngReg c r))

theorem Inv1_zero (c : Dev nD) (n : ℕ) (h : n ≤ cfg1.N) (hz : n = 0) : Inv1 V c n h = Pipeline.ΦA spec1 c := by
  subst hz; rfl

theorem Inv1_succ (c : Dev nD) (n : ℕ) (hn : n < cfg1.N) :
    Inv1 V c (n + 1) hn = iprop(rest1 (F := F) c (iprop(owns (c : Thread nD τ) scM1_0 fullShare (acc1 V c n hn).1 ∗ owns (c : Thread nD τ) scM1_1 fullShare (acc1 V c n hn).2)) ∗ (∃ r, prngReg c r)) := rfl

theorem Inv1_pos (c : Dev nD) (n : ℕ) (h : n ≤ cfg1.N) (hz : n ≠ 0) :
    Inv1 V c n h = iprop(rest1 (F := F) c (iprop(owns (c : Thread nD τ) scM1_0 fullShare (acc1 V c (n - 1) (by omega)).1 ∗ owns (c : Thread nD τ) scM1_1 fullShare (acc1 V c (n - 1) (by omega)).2)) ∗ (∃ r, prngReg c r)) := by
  cases n with
  | zero => exact absurd rfl hz
  | succ n => rfl

/-! ## The proof data -/

/-- The pipeline's proof data on core `c`: the arrays as the region finds them; after the body at point `t` each
    input's buffer at its block, the two one-cell outputs' at the two accumulators (they are stored, and written
    back, at the last point only); the invariant `Inv1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (acc1 V c t.val t.isLt).1
    | ⟨5, _⟩ => (acc1 V c t.val t.isLt).2
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (acc1 V c t.val t.isLt).1 := by dsimp only [dat1]
theorem after1_5 (c : Dev nD) (t : Fin cfg1.N) : (dat1 V c).after 5 t = (acc1 V c t.val t.isLt).2 := by dsimp only [dat1]

/-- The invariant at a point's start, restated at the point's position. -/
theorem Inv1_castSucc (c : Dev nD) (t : Fin cfg1.N) :
    (dat1 V c).Φ t.castSucc = Inv1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = Inv1 V c 0 (Nat.zero_le _) from rfl, Inv1_zero V c 0 _ rfl]
  try exact Idealize.SL.BI.Entails.refl _

/-- After the last point the invariant gives the launch's back: the accumulators' values are forgotten. -/
theorem hout1 (c : Dev nD) : (dat1 V c).Φ (Fin.last cfg1.N) ⊢ Pipeline.ΦA spec1 c := by
  rw [show (dat1 V c).Φ (Fin.last cfg1.N) = Inv1 V c (Fin.last cfg1.N).val (Nat.le_of_lt_succ (Fin.last cfg1.N).isLt) from rfl,
    Inv1_pos V c _ _ (by rw [Fin.val_last]; have : cfg1.N = 128 := N_1; omega), PhiA1_eq]
  unfold rest1
  iintro ⟨⟨A0, A1, A2, A3, A4, A5, A6, A7, A8, A9, HS0, HS1⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [HS0]
    · iexists _; iexact HS0
    iexists _; iexact HS1
  iexact Hg

end Cert.KernelIdeal.Hand

end
-- ==== Proof.KI.Body1.lean ====
/-
  The body obligation of the Gram region (the program's second kernel call: an 8 × 16 grid, 128 points).

  At a grid point the body reads the four input tiles, adds the tile's sum of squared distances to the first one-cell
  accumulator and the tile's part of the diagonal to the second one; at the first point it first resets both
  accumulators to the zero cell; at the last point it also copies the two accumulators into the two one-cell outputs.
  So there are three control cases: the first point, a middle point, the last point. For each the whole body is run
  once on abstract whole buffers, with the contents it leaves stated explicitly (`step8` and `step9` of what the
  accumulators held before). The obligation at a point then follows from its case's run: the invariant `Inv1` hands
  the body the two accumulator cells and takes them back at this point's values, the inputs' buffers hold their
  blocks whether or not the point fetched them, and the two output windows, idle and not written back off the last
  point, are handed back as found there and hold the accumulators at the last point.
-/
import proofs.«128264_j17093969838495_1_alg».proof.Proof.KI.Defs1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, over the grid coordinates -/

/-- The first conditional's test (both grid coordinates zero), the scalar chain substituted. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second conditional's test (the grid's last point). -/
abbrev cond1_1 (i : grid1.Coords) : Prop := k1_cond2 i = 1#1

/-- Zero offsets in two axes, however spelt. -/
theorem zeroOffs1 : (![0, 0] : Fin 2 → Nat) = fun _ => 0 := funext fun a => by fin_cases a <;> rfl

/-- One store through the whole one-cell rectangle leaves its payload, whatever the view and the prior contents; -/
theorem cell1_write_one {κ : Kind} {sp : Space} (v : View sig κ sp S1x1 .f32) (f : v.ty.Contents (Elt F)) (w : S1x1.Idx → Elt F .f32) :
    v.read (Elt F) (v.writes (Elt F) f [(⟨Rect.unit ![0, 0] S1x1.size inb_S1x1_S1x1_0_0, w⟩ : View.Piece (Elt F) S1x1 .f32)]) = w :=
  (View.read_writes_eq_canon v f _ (fun y => ⟨_, List.mem_singleton_self _, View.mem_set_unit_zero (S := S1x1) zeroOffs1 inb_S1x1_S1x1_0_0 y⟩)).trans
    (View.canon_unit_zero (S := S1x1) zeroOffs1 inb_S1x1_S1x1_0_0 w)

/-- and so does the last of several. -/
theorem cell1_write_last {κ : Kind} {sp : Space} (v : View sig κ sp S1x1 .f32) (f : v.ty.Contents (Elt F)) (w : S1x1.Idx → Elt F .f32)
    (L : List (View.Piece (Elt F) S1x1 .f32)) :
    v.read (Elt F) (v.writes (Elt F) f ((⟨Rect.unit ![0, 0] S1x1.size inb_S1x1_S1x1_0_0, w⟩ : View.Piece (Elt F) S1x1 .f32) :: L)) = w :=
  (View.read_writes_eq_canon v f _ (fun y => ⟨_, List.Mem.head _, View.mem_set_unit_zero (S := S1x1) zeroOffs1 inb_S1x1_S1x1_0_0 y⟩)).trans
    (View.canon_cons_unit_zero (S := S1x1) zeroOffs1 inb_S1x1_S1x1_0_0 w L)

/-! ## The whole body, run once per control case -/

set_option maxHeartbeats 1000000 in
/-- The body at the first point: on whole buffers, the four inputs' at their blocks and the two scratch cells at
    anything, it resets each scratch cell to the zero cell and runs to the inputs' as they were and each scratch cell
    at its update of the zero cell; the two outputs' buffers are not touched. -/
theorem run1_A (c : Dev nD) (i : grid1.Coords) (arg2 : Memref sig .tc .vmem S512x4096 .f32) (harg2 : arg2.IsWhole) (arg3 : Memref sig .tc .vmem S256x4096 .f32) (harg3 : arg3.IsWhole) (arg4 : Memref sig .tc .vmem S512x1 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc0 : cond1_0 i) (hc1 : ¬cond1_1 i) (x0 : Vec F S512x4096 .f32) (x1 : Vec F S256x4096 .f32) (x2 : Vec F S512x1 .f32) (x3 : Vec F S1x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (step8 x0 x1 x2 x3 (k1_pay2 (F := F))) ∗ owns (c : Thread nD τ) arg9 fullShare (step9 i x0 x1 x2 x3 (k1_pay3 (F := F)))) -∗ K ⟨⟩))
      ⊢ wp frame (wpE (defs₀ (F := F)) Variants.none c none) E (cc1__gram_kernel i arg2 harg2 arg3 harg3 arg4 harg4 arg5 harg5 arg6 harg6 arg7 harg7 arg8 harg8 arg9 harg9) K := by
  simp only [cc1__gram_kernel_eq_skeleton]; unfold cc1__gram_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    refine (cell1_write_last _ _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1, View.readCov_unit_zero (S := S1x1) _ zeroOffs1]
    rfl
  · iexists _; isplitr
    swap; · iexact HS1
    ipureintro
    refine (cell1_write_last _ _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1, View.readCov_unit_zero (S := S1x1) _ zeroOffs1]
    rfl

set_option maxHeartbeats 1000000 in
/-- The body at a point that is neither the first nor the last: on whole buffers, the four inputs' at their blocks and
    the two scratch cells at what the point before left, it runs to the inputs' as they were and each scratch cell at
    its update; the two outputs' buffers are not touched. -/
theorem run1_B (c : Dev nD) (i : grid1.Coords) (arg2 : Memref sig .tc .vmem S512x4096 .f32) (harg2 : arg2.IsWhole) (arg3 : Memref sig .tc .vmem S256x4096 .f32) (harg3 : arg3.IsWhole) (arg4 : Memref sig .tc .vmem S512x1 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc0 : ¬cond1_0 i) (hc1 : ¬cond1_1 i) (x0 : Vec F S512x4096 .f32) (x1 : Vec F S256x4096 .f32) (x2 : Vec F S512x1 .f32) (x3 : Vec F S1x256 .f32)
    (s0 s1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (step8 x0 x1 x2 x3 s0) ∗ owns (c : Thread nD τ) arg9 fullShare (step9 i x0 x1 x2 x3 s1)) -∗ K ⟨⟩))
      ⊢ wp frame (wpE (defs₀ (F := F)) Variants.none c none) E (cc1__gram_kernel i arg2 harg2 arg3 harg3 arg4 harg4 arg5 harg5 arg6 harg6 arg7 harg7 arg8 harg8 arg9 harg9) K := by
  simp only [cc1__gram_kernel_eq_skeleton]; unfold cc1__gram_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    refine (cell1_write_one _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1]
    rfl
  · iexists _; isplitr
    swap; · iexact HS1
    ipureintro
    refine (cell1_write_one _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1]
    rfl

set_option maxHeartbeats 1000000 in
/-- The body at the last point: on whole buffers, the four inputs' at their blocks, the two scratch cells at what the
    point before left and the two outputs' at anything, it runs to the inputs' as they were, each scratch cell at its
    update, and each output's buffer at a copy of its scratch cell. -/
theorem run1_C (c : Dev nD) (i : grid1.Coords) (arg2 : Memref sig .tc .vmem S512x4096 .f32) (harg2 : arg2.IsWhole) (arg3 : Memref sig .tc .vmem S256x4096 .f32) (harg3 : arg3.IsWhole) (arg4 : Memref sig .tc .vmem S512x1 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc0 : ¬cond1_0 i) (hc1 : cond1_1 i) (x0 : Vec F S512x4096 .f32) (x1 : Vec F S256x4096 .f32) (x2 : Vec F S512x1 .f32) (x3 : Vec F S1x256 .f32)
    (s0 s1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (step8 x0 x1 x2 x3 s0) ∗ owns (c : Thread nD τ) arg7 fullShare (step9 i x0 x1 x2 x3 s1)
            ∗ owns (c : Thread nD τ) arg8 fullShare (step8 x0 x1 x2 x3 s0) ∗ owns (c : Thread nD τ) arg9 fullShare (step9 i x0 x1 x2 x3 s1)) -∗ K ⟨⟩))
      ⊢ wp frame (wpE (defs₀ (F := F)) Variants.none c none) E (cc1__gram_kernel i arg2 harg2 arg3 harg3 arg4 harg4 arg5 harg5 arg6 harg6 arg7 harg7 arg8 harg8 arg9 harg9) K := by
  simp only [cc1__gram_kernel_eq_skeleton]; unfold cc1__gram_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (cell1_write_one _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1, View.readCov_unit_zero (S := S1x1) _ zeroOffs1]
    rfl
  isplitl [H5]
  · iexists _; isplitr
    swap; · iexact H5
    ipureintro
    refine (cell1_write_one _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1, View.readCov_unit_zero (S := S1x1) _ zeroOffs1]
    rfl
  isplitl [HS0]
  · iexists _; isplitr
    swap; · iexact HS0
    ipureintro
    refine (cell1_write_one _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1]
    rfl
  · iexists _; isplitr
    swap; · iexact HS1
    ipureintro
    refine (cell1_write_one _ _ _).trans ?_
    sl_unfold_words
    simp only [View.readAt_eq_ld, harg2.read_unread, harg3.read_unread, harg4.read_unread, harg5.read_unread, harg8.read_unread, harg9.read_unread, View.ld_unit_zero (S := S512x4096) zeroOffs1, View.ld_unit_zero (S := S256x4096) zeroOffs1, View.ld_unit_zero (S := S512x1) zeroOffs1, View.ld_unit_zero (S := S1x256) zeroOffs1, View.ld_unit_zero (S := S1x1) zeroOffs1]
    rfl

/-! ## The conditions in closed form, decided over the grid -/

/-- The first conditional is taken at the first point only. -/
theorem hcond1_0 : ∀ t : Fin cfg1.N, cond1_0 (grid1.coords t) ↔ t.val = 0 :=
  (by decide +kernel : ∀ t : Fin grid1.N, cond1_0 (grid1.coords t) ↔ t.val = 0)
/-- The second conditional is taken at the last point only. -/
theorem hcond1_1 : ∀ t : Fin cfg1.N, cond1_1 (grid1.coords t) ↔ t.val = 127 :=
  (by decide +kernel : ∀ t : Fin grid1.N, cond1_1 (grid1.coords t) ↔ t.val = 127)

/-! ## Where the windows are idle -/

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last point the two outputs are idle and not written back; at the last point they are live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The staging memrefs at a point, and what the inputs' hold -/

abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)

/-- Each input's current staging buffer holds its block at every point, fetched there or not: unfetched, the block
    index has not moved since the point that fetched it. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- The accumulators after the first point: the zero cells' updates. -/
theorem acc1_first (c : Dev nD) (t : Fin cfg1.N) (hz : t.val = 0) :
    acc1 V c t.val t.isLt =
      (step8 (iblk1 V c 0 t) (iblk1 V c 1 t) (iblk1 V c 2 t) (iblk1 V c 3 t) (k1_pay2 (F := F)),
       step9 (grid1.coords t) (iblk1 V c 0 t) (iblk1 V c 1 t) (iblk1 V c 2 t) (iblk1 V c 3 t) (k1_pay3 (F := F))) := by
  obtain ⟨n, hn⟩ := t
  cases n with
  | zero => rfl
  | succ n => exact absurd hz (Nat.succ_ne_zero n)

/-! ## The body obligation, at a generic point -/

/-- What the body is called with at point `t`: the invariant, the core's owes, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the closed forms say which of the three control
    cases the point is in; the invariant hands the body the two scratch cells (at anything at the first point, else at
    the accumulators the point before left) and takes them back at this point's accumulators; off the last point the
    two outputs' buffers are handed back as found, at the last point they hold the two accumulators. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Inv1 V c (t.val + 1) t.isLt from rfl, Inv1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 128 := lt_of_lt_of_eq t.isLt (show cfg1.N = 128 from N_1)
  by_cases h0 : t.val = 0
  · have h1 : ¬t.val = 127 := by omega
    rw [Dat.leavesExact_idle (dat1 V c) 4 t (idleAt1_4 t (fun h => h1 ((hcond1_1 t).mp h))) (noFlush1_4 t (fun h => h1 ((hcond1_1 t).mp h)))]
    rw [Dat.leavesExact_idle (dat1 V c) 5 t (idleAt1_5 t (fun h => h1 ((hcond1_1 t).mp h))) (noFlush1_5 t (fun h => h1 ((hcond1_1 t).mp h)))]
    rw [acc1_first V c t h0]
    rw [Inv1_castSucc V c t, Inv1_zero V c _ _ h0, PhiA1_eq]
    unfold rest1
    iintro ⟨⟨⟨A0, A1, A2, A3, A4, A5, A6, A7, A8, A9, HS0, HS1⟩, Hg⟩, Ho, ⟨%d0, H0⟩, ⟨%d1, H1⟩, ⟨%d2, H2⟩, ⟨%d3, H3⟩, ⟨%d4, H4⟩, ⟨%d5, H5⟩⟩
    iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _)
      ((hcond1_0 t).mpr h0) (fun h => h1 ((hcond1_1 t).mp h)) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitr [Ho H0 H1 H2 H3 H4 H5]
    · isplitr [Hg]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h1 : t.val = 127
    · rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [acc1_pos V c t h0]
      rw [Inv1_castSucc V c t, Inv1_pos V c _ _ h0]
      unfold rest1
      iintro ⟨⟨⟨A0, A1, A2, A3, A4, A5, A6, A7, A8, A9, HS0, HS1⟩, Hg⟩, Ho, ⟨%d0, H0⟩, ⟨%d1, H1⟩, ⟨%d2, H2⟩, ⟨%d3, H3⟩, ⟨%d4, H4⟩, ⟨%d5, H5⟩⟩
      iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _)
        (fun h => h0 ((hcond1_0 t).mp h)) ((hcond1_1 t).mpr h1) (iblk1 V c 0 t) (iblk1 V c 1 t) (iblk1 V c 2 t) (iblk1 V c 3 t)
        (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitr [Ho H0 H1 H2 H3 H4 H5]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [acc1_pos V c t h0]
      rw [Inv1_castSucc V c t, Inv1_pos V c _ _ h0]
      unfold rest1
      iintro ⟨⟨⟨A0, A1, A2, A3, A4, A5, A6, A7, A8, A9, HS0, HS1⟩, Hg⟩, Ho, ⟨%d0, H0⟩, ⟨%d1, H1⟩, ⟨%d2, H2⟩, ⟨%d3, H3⟩, ⟨%d4, H4⟩, ⟨%d5, H5⟩⟩
      iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _)
        (fun h => h0 ((hcond1_0 t).mp h)) (fun h => h1 ((hcond1_1 t).mp h)) (iblk1 V c 0 t) (iblk1 V c 1 t) (iblk1 V c 2 t) (iblk1 V c 3 t)
        (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitr [Ho H0 H1 H2 H3 H4 H5]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- THE BODY OBLIGATION of the Gram region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Fold.lean ====
/-
  The contents of the TensorCore's buffers at each boundary of the program: at launch, after the row-statistics
  region, after the reshape of the second column of norms into a row, after the Gram region, and after the ten
  scalar operations that end the program.

  A kernel region leaves each of its windows' arrays at what the pipeline's write-backs fold to (an input array
  as it was entered) and every other buffer untouched; a stretch of host operations leaves what the operations
  compute one after another. The two argument matrices are read by both regions through input windows and are
  written by no host operation, so at the end they hold what they held at launch.
-/
import proofs.«128264_j17093969838495_1_alg».proof.Proof.Gen.KernelIdeal.Launch
import proofs.«128264_j17093969838495_1_alg».proof.Proof.Gen.KernelIdeal.Skeleton
import proofs.«128264_j17093969838495_1_alg».proof.Proof.Gen.KernelIdeal.Points
import proofs.«128264_j17093969838495_1_alg».proof.Proof.KI.Defs0
import proofs.«128264_j17093969838495_1_alg».proof.Proof.KI.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core `c`'s buffers at launch: what the first region is entered from. -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b

/-- After the row-statistics region: its five arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the reshape of the second column of norms into a row: what the Gram region is entered from. -/
abbrev W2 : Dev nD → Valuation τ sig (Elt F) := fun c => StableHlo.after hostOps1 (W1 m c)
/-- The same read at the TensorCore's references. -/
abbrev V2 : (c : Dev nD) → (b : Ref sig .tc) → Buf (Elt F) ((c : Thread nD τ).loc b) := fun c b => W2 m c b

/-- After the Gram region: its six arrays at what the pipeline leaves, every other buffer as it was entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the ten scalar operations: the end of the program. -/
abbrev W4 : Dev nD → Valuation τ sig (Elt F) := fun c => StableHlo.after hostOps2 (W3 m c)

/-! ## The arguments end as launched

No host operation writes an argument matrix, and each region reads it through an input window, whose array the
pipeline leaves as it was entered: so the fold at an argument's buffer walks back to the launch memory. -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := (W3_arr m c 0).trans (((dat1 (V2 m) c).arrAt_in 0 rfl _).trans (A_eq1 (V2 m) c 0))
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := (W3_arr m c 1).trans (((dat1 (V2 m) c).arrAt_in 1 rfl _).trans (A_eq1 (V2 m) c 1))
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 1).trans (((dat0 (V0 m) c).arrAt_in 1 rfl _).trans (A_eq0 (V0 m) c 1))
    _ = m ((c : Thread nD τ).loc main_arg1) := rfl

/-! ## The proof data of both pipelines -/

/-- The prefetched tables' admissible contents: no pipeline has a table. -/
abbrev adm : (p : Fin 2) → (pcfgs (F := F) p).Adm := fun p => (cfgs p).toPCfg_adm

/-- Every pipeline's proof data, each at its region's entry contents: the row-statistics region at the launch
    contents, the Gram region at the contents after the reshape. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c

end Cert.KernelIdeal.Hand

end
-- ==== Proof.KI.Main.lean ====
/-
  The run of the whole program: the row-statistics region, the reshape, the Gram region and the ten scalar
  operations, as four segments over one thread state — between two segments the TensorCore holds every unscoped
  buffer whole at that boundary's contents, its generator register at some state, and owes nothing.

  Each region takes its arrays out of the unscoped buffers at entry and puts them back at what the pipeline leaves
  at exit; the scoped buffers no window stages and the generator register go into the region's invariant before
  the first point and come back after the last. What each region's body does at a point is taken as a hypothesis
  here. The launch then says: from any memory, every fair execution of the program terminates, and at the end every
  unscoped buffer holds the last boundary's contents; in particular the two argument matrices hold what they held
  at launch.
-/
import proofs.«128264_j17093969838495_1_alg».proof.Proof.Gen.KernelIdeal.Launch
import proofs.«128264_j17093969838495_1_alg».proof.Proof.Gen.KernelIdeal.Skeleton
import proofs.«128264_j17093969838495_1_alg».proof.Proof.Gen.KernelIdeal.Points
import proofs.«128264_j17093969838495_1_alg».proof.Proof.KI.Defs0
import proofs.«128264_j17093969838495_1_alg».proof.Proof.KI.Defs1
import proofs.«128264_j17093969838495_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The thread state between segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along:
    it runs to those buffers at what the operations compute one after another. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps1_fresh : (hostOps1 : List (HloOp τ sig (Elt F))).Forall fun op => op.fresh = ∅ := by
  simp only [List.Forall]; repeat' constructor
/-- None of the ten scalar operations allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The two regions as segments -/

set_option backward.isDefEq.respectTransparency.types false in
/-- The row-statistics region over the thread state: entered from every unscoped buffer at the launch contents, left at `W1`. Its arrays are split out of the unscoped buffers and put back at what the pipeline leaves; the generator register and the scoped buffers no window stages enter the invariant before the first point and come back after the last; nothing owed; no semaphore of the kernel's own. -/
def reg0 (hb0 : ∀ (V : (c : Dev nD) → (b : Ref sig .tc) → Buf (Elt F) ((c : Thread nD τ).loc b)) (c : Dev nD), BodyObligation (dat0 (F := F) V c) (defs₀ (F := F)) Variants.none () Set.univ) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (V0 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The Gram region over the thread state: entered from every unscoped buffer at the contents after the reshape, left at `W3`; the rest as for the first region. -/
def reg1 (hb1 : ∀ (V : (c : Dev nD) → (b : Ref sig .tc) → Buf (Elt F) ((c : Thread nD τ).loc b)) (c : Dev nD), BodyObligation (dat1 (F := F) V c) (defs₀ (F := F)) Variants.none () Set.univ) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's four segments in order. -/
abbrev segs (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ) : List (Pipeline.Seg (pcfgs (F := F)) adm (pdats m) () defs₀ 𝒱₀ L lv) :=
  [ .region (reg0 m hb0),
    .host (hseg hostOps1 hostOps1_sub hostOps1_fresh (W1 m)),
    .region (reg1 m hb1),
    .host (hseg hostOps2 hostOps2_sub hostOps2_fresh (W3 m)) ]
/-- The program IS the run of its segments. -/
theorem main_run (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ) (c : Dev nD) : main (F := F) c = Pipeline.Seg.run (segs m hb0 hb1) := (main_chain c).trans (by chain_rfl)

set_option backward.isDefEq.respectTransparency.types false in
/-- THE RUN. From any memory with zero counters, every weakly fair execution of the program on the TensorCores
    terminates, nothing faulting, and in every final state every unscoped buffer holds the last boundary's contents. -/
theorem run_all (hb0 : ∀ (V : (c : Dev nD) → (b : Ref sig .tc) → Buf (Elt F) ((c : Thread nD τ).loc b)) (c : Dev nD), BodyObligation (dat0 (F := F) V c) (defs₀ (F := F)) Variants.none () Set.univ)
      (hb1 : ∀ (V : (c : Dev nD) → (b : Ref sig .tc) → Buf (Elt F) ((c : Thread nD τ).loc b)) (c : Dev nD), BodyObligation (dat1 (F := F) V c) (defs₀ (F := F)) Variants.none () Set.univ)
      (m : (ℓ : Loc nD τ sig) → Buf (Elt F) ℓ) (ρ : Dev nD → PrngReg) :
      θ_run defs (onTc (τ := τ) (main (F := F))) ⟨m, fun _ => 0, ρ⟩ (fun r => ∀ c : Dev nD,
        ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m hb0 hb1)
    (fun c Q => by rw [main_run m hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the two argument matrices end as launched. -/
theorem frame (hb0 : ∀ (V : (c : Dev nD) → (b : Ref sig .tc) → Buf (Elt F) ((c : Thread nD τ).loc b)) (c : Dev nD), BodyObligation (dat0 (F := F) V c) (defs₀ (F := F)) Variants.none () Set.univ)
      (hb1 : ∀ (V : (c : Dev nD) → (b : Ref sig .tc) → Buf (Elt F) ((c : Thread nD τ).loc b)) (c : Dev nD), BodyObligation (dat1 (F := F) V c) (defs₀ (F := F)) Variants.none () Set.univ)
      (m : (ℓ : Loc nD τ sig) → Buf (Elt F) ℓ) (ρ : Dev nD → PrngReg) :
      θ_run defs (onTc (τ := τ) (main (F := F))) ⟨m, fun _ => 0, ρ⟩ (fun r => ∀ c : Dev nD,
        r.2.mem ((c.tc : Thread nD τ).loc main_arg0) = m ((c.tc : Thread nD τ).loc main_arg0) ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m c),
     (h c _ (mem_uc main_arg1 (by decide))).trans (W4_main_arg1 m c)⟩) (run_all hb0 hb1 m ρ)

/-- info: 'Cert.KernelIdeal.Hand.run_all' depends on axioms: [propext, Classical.choice, Quot.sound] -/
#guard_msgs in #print axioms run_all

end Cert.KernelIdeal.Hand

end
-- ==== Proof.Spec.lean ====
/-
  The mathematics both programs compute, as plain functions on the extended reals.

  For two 4096 × 4096 matrices p and q (rows are the points):
    possum p q = Σ_i Σ_k (p i k − q i k)²            the positive term's numerator
    nrm p i    = Σ_k (p i k)²                         a row's squared norm
    gram p q i j = Σ_k p i k · q j k                  the Gram matrix
    dist p q i j = (nrm p i + nrm q j) − 2 · gram p q i j   all-pairs squared distances
    sumd p q   = Σ_i Σ_j dist p q i j ,  trace p q = Σ_i dist p q i i
  and the result is  possum / 4096 + (−(sumd − trace)) / (4096 · 4095),  the two divisors being
  the float literals both programs carry (`tail`).
-/
import Idealize.ShloMosaic.PureOps.Ideal
import Idealize.ShloMosaic.Lib.ValueIdx

noncomputable section

namespace Cert.Spec

open Idealize.ShloMosaic

/-- The scalar shape and the matrix shape, spelt as the printed programs spell them. -/
abbrev Sc : Shape := ⟨0, ![]⟩
abbrev Sq : Shape := ⟨2, ![4096, 4096]⟩

/-- A matrix of extended reals, by row and column. -/
abbrev Mat : Type := Fin 4096 → Fin 4096 → EReal

/-- An array of shape [4096, 4096] read by row and column. -/
def mat (x : Sq.Idx → EReal) : Mat := fun i k => x (ValueIdx.ix2 i k)

/-- The literal 2.0 both programs multiply the Gram matrix by. -/
def two : EReal := Ideal.ofBits .f32 0x40000000#32

def possum (p q : Mat) : EReal := ∑ i, ∑ k, (p i k - q i k) * (p i k - q i k)
def nrm (p : Mat) (i : Fin 4096) : EReal := ∑ k, p i k * p i k
def gram (p q : Mat) (i j : Fin 4096) : EReal := ∑ k, p i k * q j k
def dist (p q : Mat) (i j : Fin 4096) : EReal := (nrm p i + nrm q j) - two * gram p q i j
def sumd (p q : Mat) : EReal := ∑ i, ∑ j, dist p q i j
def trace (p q : Mat) : EReal := ∑ i, dist p q i i

/-- The scalar operations both programs end with, on the three sums as rank-0 arrays:
    a / 4096 + (−(b − c)) / (4096 · 4095), the divisors the programs' own float literals. -/
def tail (a b c : FVec Ideal Sc .f32) : FVec Ideal Sc .f32 :=
  addf (Host.divf a (constant (F := Ideal) Sc .f32 0x45800000#32))
    (Host.divf (Host.negf (subf b c)) (constant (F := Ideal) Sc .f32 0x4B7FF000#32))

/-- The result both programs compute, as a rank-0 array. -/
def result (p q : Mat) : FVec Ideal Sc .f32 :=
  tail (fun _ => possum p q) (fun _ => sumd p q) (fun _ => trace p q)

end Cert.Spec

end
-- ==== Proof.SpecAlg.lean ====
/-
  Regrouping laws for finite sums, valid in any commutative additive monoid (the extended reals
  included): a sum taken tile by tile, or accumulated step by step from 0, equals the sum taken
  all at once.  Only commutativity and associativity of + are used.  They are then applied to the
  three sums of the specification: the positive term's numerator by 16 row tiles of 256 rows, and
  the sum of all pairwise distances and its diagonal by an 8 × 16 grid of 512 × 256 tiles.
-/
import proofs.«128264_j17093969838495_1_alg».proof.Proof.Spec
import Mathlib.Algebra.BigOperators.Fin
import Mathlib.Algebra.BigOperators.Intervals
import Mathlib.Algebra.BigOperators.Group.Finset.Piecewise
import Mathlib.Data.EReal.Basic
import Mathlib.Data.EReal.Operations

open Finset

namespace Cert.Spec

variable {M : Type*} [AddCommMonoid M]

/-- A double sum over A tiles of B consecutive indices is the single sum over all A·B indices:
    only commutativity and associativity of + are used. -/
theorem sum_tiles (A B : ℕ) (f : ℕ → M) :
    ∑ a ∈ Finset.range A, ∑ b ∈ Finset.range B, f (B * a + b) = ∑ i ∈ Finset.range (A * B), f i := by
  induction A with
  | zero => simp
  | succ A ih =>
    rw [Finset.sum_range_succ, ih, Nat.succ_mul, Finset.sum_range_add, Nat.mul_comm B A]

/-- The same regrouping for a function on Fin N with N = A·B: extend f by 0 outside its domain,
    regroup over ℕ, and come back. -/
theorem sum_fin_tiles (A B N : ℕ) (hN : A * B = N) (f : Fin N → M)
    (h : ∀ (t : Fin A) (r : Fin B), B * t.val + r.val < N) :
    ∑ t : Fin A, ∑ r : Fin B, f ⟨B * t.val + r.val, h t r⟩ = ∑ i, f i := by
  let g : ℕ → M := fun n => if hn : n < N then f ⟨n, hn⟩ else 0
  have hg : ∀ i : Fin N, g i.val = f i := fun i => dif_pos i.isLt
  have hL : ∀ (t : Fin A) (r : Fin B), g (B * t.val + r.val) = f ⟨B * t.val + r.val, h t r⟩ :=
    fun t r => dif_pos (h t r)
  calc ∑ t : Fin A, ∑ r : Fin B, f ⟨B * t.val + r.val, h t r⟩
      = ∑ t : Fin A, ∑ r : Fin B, g (B * t.val + r.val) :=
        Finset.sum_congr rfl fun t _ => Finset.sum_congr rfl fun r _ => (hL t r).symm
    _ = ∑ a ∈ Finset.range A, ∑ b ∈ Finset.range B, g (B * a + b) := by
        rw [← Fin.sum_univ_eq_sum_range (fun a => ∑ b ∈ Finset.range B, g (B * a + b)) A]
        refine Finset.sum_congr rfl fun t _ => ?_
        exact Fin.sum_univ_eq_sum_range (fun b => g (B * t.val + b)) B
    _ = ∑ i ∈ Finset.range (A * B), g i := sum_tiles A B g
    _ = ∑ i ∈ Finset.range N, g i := by rw [hN]
    _ = ∑ i : Fin N, g i.val := (Fin.sum_univ_eq_sum_range g N).symm
    _ = ∑ i, f i := Finset.sum_congr rfl fun i _ => hg i

/-- 4096 rows as 16 tiles of 256. -/
theorem sum_fin_tiles16 (f : Fin 4096 → M) :
    ∑ t : Fin 16, ∑ r : Fin 256, f ⟨256 * t.val + r.val, by omega⟩ = ∑ i, f i :=
  sum_fin_tiles 16 256 4096 (by norm_num) f (fun t r => by omega)

/-- 4096 rows as 8 tiles of 512. -/
theorem sum_fin_tiles8 (f : Fin 4096 → M) :
    ∑ t : Fin 8, ∑ r : Fin 512, f ⟨512 * t.val + r.val, by omega⟩ = ∑ i, f i :=
  sum_fin_tiles 8 512 4096 (by norm_num) f (fun t r => by omega)

/-- 128 grid steps in row-major order of an 8 × 16 grid. -/
theorem sum_grid128 (a : ℕ → M) :
    ∑ n ∈ Finset.range 128, a n = ∑ ti : Fin 8, ∑ tj : Fin 16, a (16 * ti.val + tj.val) := by
  have h := sum_tiles 8 16 a
  rw [show (8 * 16 : ℕ) = 128 by norm_num] at h
  rw [← h, ← Fin.sum_univ_eq_sum_range (fun x => ∑ b ∈ Finset.range 16, a (16 * x + b)) 8]
  refine Finset.sum_congr rfl fun ti _ => ?_
  exact (Fin.sum_univ_eq_sum_range (fun b => a (16 * ti.val + b)) 16).symm

/-- 16 grid steps. -/
theorem sum_grid16 (a : ℕ → M) : ∑ n ∈ Finset.range 16, a n = ∑ t : Fin 16, a t.val :=
  (Fin.sum_univ_eq_sum_range a 16).symm

/-- An accumulator that starts from 0 and adds one term per step holds the partial sum. -/
theorem fold_eq_sum (a s : ℕ → M) (h0 : s 0 = 0 + a 0) (hs : ∀ n, s (n + 1) = s n + a (n + 1))
    (n : ℕ) : s n = ∑ i ∈ Finset.range (n + 1), a i := by
  induction n with
  | zero => rw [h0, zero_add, Finset.sum_range_one]
  | succ n ih => rw [hs, ih, Finset.sum_range_succ _ (n + 1)]

/-- Summing a matrix masked to its diagonal gives the sum of the diagonal. -/
theorem sum_diag (g : Fin 4096 → Fin 4096 → M) :
    ∑ i, ∑ j, (if i = j then g i j else 0) = ∑ i, g i i := by
  refine Finset.sum_congr rfl fun i _ => ?_
  rw [Finset.sum_ite_eq]
  exact if_pos (Finset.mem_univ i)

/-- The diagonal mask written on the indices' values. -/
theorem sum_diag_val (g : Fin 4096 → Fin 4096 → M) :
    ∑ i, ∑ j, (if i.val = j.val then g i j else 0) = ∑ i, g i i := by
  refine Finset.sum_congr rfl fun i _ => ?_
  rw [Finset.sum_eq_single i]
  · exact if_pos rfl
  · intro j _ hji
    exact if_neg fun h => hji (Fin.ext h.symm)
  · intro h
    exact absurd (Finset.mem_univ i) h

/-- A double sum over an 8 × 16 grid of 512 × 256 tiles is the double sum over the whole matrix. -/
theorem sum_grid_tiles (G : Fin 4096 → Fin 4096 → M) :
    ∑ ti : Fin 8, ∑ tj : Fin 16, ∑ r : Fin 512, ∑ c : Fin 256,
      G ⟨512 * ti.val + r.val, by omega⟩ ⟨256 * tj.val + c.val, by omega⟩ = ∑ i, ∑ j, G i j := by
  calc ∑ ti : Fin 8, ∑ tj : Fin 16, ∑ r : Fin 512, ∑ c : Fin 256,
        G ⟨512 * ti.val + r.val, by omega⟩ ⟨256 * tj.val + c.val, by omega⟩
      = ∑ ti : Fin 8, ∑ r : Fin 512, ∑ tj : Fin 16, ∑ c : Fin 256,
        G ⟨512 * ti.val + r.val, by omega⟩ ⟨256 * tj.val + c.val, by omega⟩ :=
        Finset.sum_congr rfl fun ti _ => Finset.sum_comm
    _ = ∑ ti : Fin 8, ∑ r : Fin 512, ∑ j, G ⟨512 * ti.val + r.val, by omega⟩ j :=
        Finset.sum_congr rfl fun ti _ => Finset.sum_congr rfl fun r _ =>
          sum_fin_tiles16 (fun j => G ⟨512 * ti.val + r.val, by omega⟩ j)
    _ = ∑ i, ∑ j, G i j := sum_fin_tiles8 (fun i => ∑ j, G i j)

/-- The positive term's numerator, summed tile by tile over 16 row tiles of 256 rows. -/
theorem possum_tiled (p q : Mat) :
    ∑ t : Fin 16, ∑ r : Fin 256, ∑ k : Fin 4096,
      (p ⟨256 * t.val + r.val, by omega⟩ k - q ⟨256 * t.val + r.val, by omega⟩ k) *
        (p ⟨256 * t.val + r.val, by omega⟩ k - q ⟨256 * t.val + r.val, by omega⟩ k) = possum p q :=
  sum_fin_tiles16 (fun i => ∑ k : Fin 4096, (p i k - q i k) * (p i k - q i k))

/-- All pairwise distances, summed tile by tile over the 8 × 16 grid of 512 × 256 tiles. -/
theorem sumd_tiled (p q : Mat) :
    ∑ ti : Fin 8, ∑ tj : Fin 16, ∑ r : Fin 512, ∑ c : Fin 256,
      dist p q ⟨512 * ti.val + r.val, by omega⟩ ⟨256 * tj.val + c.val, by omega⟩ = sumd p q :=
  sum_grid_tiles (fun i j => dist p q i j)

/-- The diagonal distances, picked out tile by tile by the mask row = column. -/
theorem trace_tiled (p q : Mat) :
    ∑ ti : Fin 8, ∑ tj : Fin 16, ∑ r : Fin 512, ∑ c : Fin 256,
      (if 512 * ti.val + r.val = 256 * tj.val + c.val then
        dist p q ⟨512 * ti.val + r.val, by omega⟩ ⟨256 * tj.val + c.val, by omega⟩ else 0) =
      trace p q :=
  (sum_grid_tiles (fun i j => if i.val = j.val then dist p q i j else 0)).trans
    (sum_diag_val (fun i j => dist p q i j))

end Cert.Spec
-- ==== Proof.KI.Pay0.lean ====
/-
  The row-statistics kernel's arithmetic, read one entry at a time at the ideal values.

  At a grid point the kernel body holds two tiles x, y of 256 rows and 4096 columns and a one-cell accumulator a, and
  computes four values:
    · the zero cell the accumulator is reset to:                                   0
    · the rows' squared norms of x, as a column:                  (r, 0) ↦ Σ_k x(r,k)²
    · the same for y:                                             (r, 0) ↦ Σ_k y(r,k)²
    · the accumulator's next value:            a(0,0) + Σ_r Σ_k (x(r,k) − y(r,k))²
  Each is a chain of entrywise operations, sums along one axis, and reshapes between a vector and a one-column matrix.
  Read at an entry, an entrywise operation is the operation on the entries, a sum along an axis from its neutral start
  is the finite sum over that axis's coordinate, and a vector seen as a column has entry r at (r, 0).
-/
import proofs.«128264_j17093969838495_1_alg».proof.Proof.Gen.KernelIdeal.Skeleton
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

namespace Pay0

/-- A vector of length a seen as an a × 1 matrix has, at (i, u), the vector's entry i: row-major position
    i · 1 + u = i, the one column's coordinate u being 0. -/
theorem colCast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the columns of an m × n matrix, started from the neutral accumulator, is at row r the finite
    sum of that row's entries: the index inserted on the summed axis is (r, k). -/
theorem rowSum_apply {m n : ℕ} (src : FVec Ideal ⟨2, ![m, n]⟩ .f32)
    (h : (⟨2, ![m, n]⟩ : Shape).Reduces [1] ⟨1, ![m]⟩) (hφ : FKind.Formats .f32)
    (hacc : (0x00000000#32 : BitVec 32) = 0x00000000#32) (r : Fin m) :
    multiReduction .add [1] ⟨1, ![m]⟩ src 0x00000000#32 h hφ hacc (ix1 r) = ∑ k : Fin n, src (ix2 r k) := by
  refine (Ideal.multiReduction_add_single src 0x00000000#32 h hφ hacc (ix1 r)).trans ?_
  refine Finset.sum_congr rfl fun k _ => congrArg src ?_
  funext c
  match c with
  | ⟨0, _⟩ => exact Fin.ext rfl
  | ⟨1, _⟩ => exact Fin.ext rfl

/-- The sum down the rows of an m × 1 matrix, started from the neutral accumulator, is at its one entry the finite
    sum of the column: the index inserted on the summed axis is (r, u). -/
theorem colSum_apply {m : ℕ} (src : FVec Ideal ⟨2, ![m, 1]⟩ .f32)
    (h : (⟨2, ![m, 1]⟩ : Shape).Reduces [0] ⟨1, ![1]⟩) (hφ : FKind.Formats .f32)
    (hacc : (0x00000000#32 : BitVec 32) = 0x00000000#32) (u : Fin 1) :
    multiReduction .add [0] ⟨1, ![1]⟩ src 0x00000000#32 h hφ hacc (ix1 u) = ∑ r : Fin m, src (ix2 r u) := by
  refine (Ideal.multiReduction_add_single src 0x00000000#32 h hφ hacc (ix1 u)).trans ?_
  refine Finset.sum_congr rfl fun r _ => congrArg src ?_
  funext c
  match c with
  | ⟨0, _⟩ => exact Fin.ext rfl
  | ⟨1, _⟩ => exact Fin.ext rfl

end Pay0

open Pay0

/-- The cell the accumulator is reset to is 0: the splat of the zero word, reshaped to its own shape. -/
theorem pay1_zero : (k0_pay1 (F := Ideal)) (ix2 (0 : Fin 1) (0 : Fin 1)) = 0 := by
  unfold k0_pay1
  refine (congrFun (shapeCast_self _ _) _).trans ?_
  exact Ideal.ofBits_zero_f32

/-- Row r of the first column output: the sum over the row of the squared entries of x. -/
theorem pay3_apply (x : Vec Ideal S256x4096 .f32) (r : Fin 256) :
    k0_pay3 x (ix2 r (0 : Fin 1)) = ∑ k : Fin 4096, x (ix2 r k) * x (ix2 r k) := by
  unfold k0_pay3
  refine (colCast_apply _ _ r 0).trans ?_
  exact rowSum_apply _ _ _ _ r

/-- Row r of the second column output: the sum over the row of the squared entries of y. -/
theorem pay4_apply (y : Vec Ideal S256x4096 .f32) (r : Fin 256) :
    k0_pay4 y (ix2 r (0 : Fin 1)) = ∑ k : Fin 4096, y (ix2 r k) * y (ix2 r k) := by
  unfold k0_pay4
  refine (colCast_apply _ _ r 0).trans ?_
  exact rowSum_apply _ _ _ _ r

/-- The accumulator's next value: what it held plus the tile's sum, over rows then columns, of the squared
    differences. The inner sums are the rows' (a vector, seen as a column), the outer sum runs down that column. -/
theorem pay2_apply (x y : Vec Ideal S256x4096 .f32) (a : Vec Ideal S1x1 .f32) :
    k0_pay2 x y a (ix2 (0 : Fin 1) (0 : Fin 1))
      = a (ix2 (0 : Fin 1) (0 : Fin 1))
        + ∑ r : Fin 256, ∑ k : Fin 4096, (x (ix2 r k) - y (ix2 r k)) * (x (ix2 r k) - y (ix2 r k)) := by
  unfold k0_pay2
  refine (congrFun (shapeCast_self _ _) _).trans ?_
  refine (addf_apply _ _ _).trans ?_
  refine congrArg (HAdd.hAdd (a (ix2 (0 : Fin 1) (0 : Fin 1)))) ?_
  refine (colCast_apply _ _ 0 0).trans ?_
  refine (colSum_apply _ _ _ _ 0).trans ?_
  refine Finset.sum_congr rfl fun r _ => ?_
  refine (colCast_apply _ _ r 0).trans ?_
  exact rowSum_apply _ _ _ _ r

end Cert.KernelIdeal.Hand

end
-- ==== Proof.KI.Value0.lean ====
/-
  What the row-statistics region leaves in its three output arrays, at the exact (extended-real) values, for any
  contents the region is entered with.  With p and q the two 4096 × 4096 input matrices:

    · the two column outputs end holding every row's squared norm,  Σ_k p(i,k)²  and  Σ_k q(i,k)²:
      point t writes back rows 256·t … 256·t + 255, and the sixteen blocks tile the 4096 rows;
    · the one-cell output ends holding  Σ_i Σ_k (p(i,k) − q(i,k))²:  the accumulator after point n is the sum of
      the tile sums of points 0 … n (induction over the points, from the zero cell), the last point copies it out,
      and the sixteen tile sums regroup into the whole double sum.

  Only commutativity and associativity of + on the extended reals are used.
-/
import proofs.«128264_j17093969838495_1_alg».proof.Proof.KI.Defs0
import proofs.«128264_j17093969838495_1_alg».proof.Proof.Spec
import proofs.«128264_j17093969838495_1_alg».proof.Proof.SpecAlg
import Idealize.ShloMosaic.Lib.Pipeline.Value
import Idealize.ShloMosaic.Lib.ValueIdx
import Idealize.ShloMosaic.PureOps.Ideal.Laws
import proofs.«128264_j17093969838495_1_alg».proof.Proof.KI.Pay0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## Where the blocks sit -/

/-- The printed index maps over the grid: at point t the two inputs' and the two column outputs' blocks are
    block (t, 0) of their arrays, the one-cell output's is block (0, 0). -/
theorem r0_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

theorem r0_lt16 (t : Fin cfg0.N) : t.val < 16 := by
  have h := t.isLt; have hN : cfg0.N = 16 := N_0; omega

/-- Row r of the tile at point t is row 256·t + r of the matrix. -/
def r0_rowOf (t : Fin cfg0.N) (r : Fin 256) : Fin 4096 := ⟨256 * t.val + r.val, by have := r0_lt16 t; have := r.isLt; omega⟩

/-- The first input's block at point t, entry (r, k), is the first matrix at (256·t + r, k). -/
theorem r0_blk0_apply (c : Dev nD) (t : Fin cfg0.N) (r : Fin 256) (k : Fin 4096) :
    (iblk0 V c 0 t : Vec Ideal S256x4096 .f32) (ix2 r k) = Cert.Spec.mat (V c main_arg0) (r0_rowOf t r) k := by
  obtain ⟨e0, e1, -⟩ := r0_idx_facts t
  unfold iblk0
  rw [View.read_apply]
  show V c main_arg0 _ = V c main_arg0 (ix2 (r0_rowOf t r) k)
  congr 1
  funext a
  apply Fin.ext
  match a with
  | ⟨0, _⟩ => show win0_0.index t (0 : Fin 2) * 256 + 1 * r.val = 256 * t.val + r.val; rw [e0]; omega
  | ⟨1, _⟩ => show win0_0.index t (1 : Fin 2) * 4096 + 1 * k.val = k.val; rw [e1]; omega

/-- The second input's block at point t, entry (r, k), is the second matrix at (256·t + r, k). -/
theorem r0_blk1_apply (c : Dev nD) (t : Fin cfg0.N) (r : Fin 256) (k : Fin 4096) :
    (iblk0 V c 1 t : Vec Ideal S256x4096 .f32) (ix2 r k) = Cert.Spec.mat (V c main_arg1) (r0_rowOf t r) k := by
  obtain ⟨-, -, e0, e1, -⟩ := r0_idx_facts t
  unfold iblk0
  rw [View.read_apply]
  show V c main_arg1 _ = V c main_arg1 (ix2 (r0_rowOf t r) k)
  congr 1
  funext a
  apply Fin.ext
  match a with
  | ⟨0, _⟩ => show win0_1.index t (0 : Fin 2) * 256 + 1 * r.val = 256 * t.val + r.val; rw [e0]; omega
  | ⟨1, _⟩ => show win0_1.index t (1 : Fin 2) * 4096 + 1 * k.val = k.val; rw [e1]; omega

/-! ## The two column outputs: every row's squared norm -/

/-- What the first column output ends holding: row i's squared norm of the first matrix. -/
def r0_G2 (c : Dev nD) : S4096x1.Idx → EReal :=
  fun i => Cert.Spec.nrm (Cert.Spec.mat (V c main_arg0)) ⟨(i 0).val, idx2_lt0 i⟩

/-- What the second column output ends holding: row i's squared norm of the second matrix. -/
def r0_G3 (c : Dev nD) : S4096x1.Idx → EReal :=
  fun i => Cert.Spec.nrm (Cert.Spec.mat (V c main_arg1)) ⟨(i 0).val, idx2_lt0 i⟩

/-- What point t writes back into the first column output is its block of the row norms. -/
theorem r0_flushed2_eq (c : Dev nD) (t : Fin cfg0.N) :
    (dat0 (F := Ideal) V c).flushed 2 t = ((cfg0.win 2).blk t).view.read (Elt Ideal) (r0_G2 V c) := by
  obtain ⟨-, -, -, -, e0, e1, -⟩ := r0_idx_facts t
  show (cfg0.win 2).cut (grid0.coords t) ((dat0 (F := Ideal) V c).after 2 t) = _
  rw [after0_2]
  funext y
  obtain ⟨r, z, rfl⟩ : ∃ (r : Fin 256) (z : Fin 1), y = ix2 r z := ⟨y 0, y 1, eq_ix2 y⟩
  obtain rfl : z = 0 := Subsingleton.elim _ _
  have hx : (cfg0.win 2).xinj (grid0.coords t) (ix2 r (0 : Fin 1)) = ix2 r (0 : Fin 1) := by
    funext a; match a with | ⟨0, _⟩ => rfl | ⟨1, _⟩ => rfl
  refine (congrArg (k0_pay3 (iblk0 V c 0 t)) hx).trans ?_
  refine (pay3_apply (iblk0 V c 0 t) r).trans ?_
  show _ = Cert.Spec.nrm (Cert.Spec.mat (V c main_arg0)) ⟨((((cfg0.win 2).blk t).view.emb (ix2 r (0 : Fin 1))) 0).val, _⟩
  have hrow : (⟨((((cfg0.win 2).blk t).view.emb (ix2 r (0 : Fin 1))) 0).val, idx2_lt0 _⟩ : Fin 4096) = r0_rowOf t r := by
    apply Fin.ext
    show win0_2.index t (0 : Fin 2) * 256 + 1 * r.val = 256 * t.val + r.val
    rw [e0]; omega
  rw [hrow]
  unfold Cert.Spec.nrm
  exact Finset.sum_congr rfl fun k _ => by rw [r0_blk0_apply V c t r k]

/-- What point t writes back into the second column output is its block of the row norms. -/
theorem r0_flushed3_eq (c : Dev nD) (t : Fin cfg0.N) :
    (dat0 (F := Ideal) V c).flushed 3 t = ((cfg0.win 3).blk t).view.read (Elt Ideal) (r0_G3 V c) := by
  obtain ⟨-, -, -, -, -, -, e0, e1, -⟩ := r0_idx_facts t
  show (cfg0.win 3).cut (grid0.coords t) ((dat0 (F := Ideal) V c).after 3 t) = _
  rw [after0_3]
  funext y
  obtain ⟨r, z, rfl⟩ : ∃ (r : Fin 256) (z : Fin 1), y = ix2 r z := ⟨y 0, y 1, eq_ix2 y⟩
  obtain rfl : z = 0 := Subsingleton.elim _ _
  have hx : (cfg0.win 3).xinj (grid0.coords t) (ix2 r (0 : Fin 1)) = ix2 r (0 : Fin 1) := by
    funext a; match a with | ⟨0, _⟩ => rfl | ⟨1, _⟩ => rfl
  refine (congrArg (k0_pay4 (iblk0 V c 1 t)) hx).trans ?_
  refine (pay4_apply (iblk0 V c 1 t) r).trans ?_
  show _ = Cert.Spec.nrm (Cert.Spec.mat (V c main_arg1)) ⟨((((cfg0.win 3).blk t).view.emb (ix2 r (0 : Fin 1))) 0).val, _⟩
  have hrow : (⟨((((cfg0.win 3).blk t).view.emb (ix2 r (0 : Fin 1))) 0).val, idx2_lt0 _⟩ : Fin 4096) = r0_rowOf t r := by
    apply Fin.ext
    show win0_3.index t (0 : Fin 2) * 256 + 1 * r.val = 256 * t.val + r.val
    rw [e0]; omega
  rw [hrow]
  unfold Cert.Spec.nrm
  exact Finset.sum_congr rfl fun k _ => by rw [r0_blk1_apply V c t r k]

/-- The point whose block holds row i: i / 256. -/
def r0_ptOf (i : S4096x1.Idx) : Fin cfg0.N := ⟨(i 0).val / 256, by
  have h := idx2_lt0 i; have hN : cfg0.N = 16 := N_0; omega⟩

/-- Every row of the first column output is in some point's block. -/
theorem r0_cover2 (i : S4096x1.Idx) :
    ∃ t : Fin cfg0.N, (cfg0.win 2).flush t = true ∧ i ∈ ((cfg0.win 2).blk t).view.set := by
  refine ⟨r0_ptOf i, flush0_2 _, ?_⟩
  obtain ⟨-, -, -, -, e0, e1, -⟩ := r0_idx_facts (r0_ptOf i)
  have h0 := idx2_lt0 i
  have h1 := idx2_lt1 i
  have hp : (r0_ptOf i).val = (i 0).val / 256 := rfl
  show i ∈ ((View.whole main_v0_0).slice (win0_2.rect (r0_ptOf i))).set
  rw [View.set_slice_whole, Rect.mem_set_unit]
  intro a
  match a with
  | ⟨0, _⟩ =>
    show win0_2.index (r0_ptOf i) (0 : Fin 2) * 256 ≤ (i 0).val ∧ (i 0).val < win0_2.index (r0_ptOf i) (0 : Fin 2) * 256 + 256
    rw [e0, hp]; omega
  | ⟨1, _⟩ =>
    show win0_2.index (r0_ptOf i) (1 : Fin 2) * 1 ≤ (i 1).val ∧ (i 1).val < win0_2.index (r0_ptOf i) (1 : Fin 2) * 1 + 1
    rw [e1]; omega

/-- Every row of the second column output is in some point's block. -/
theorem r0_cover3 (i : S4096x1.Idx) :
    ∃ t : Fin cfg0.N, (cfg0.win 3).flush t = true ∧ i ∈ ((cfg0.win 3).blk t).view.set := by
  refine ⟨r0_ptOf i, flush0_3 _, ?_⟩
  obtain ⟨-, -, -, -, -, -, e0, e1, -⟩ := r0_idx_facts (r0_ptOf i)
  have h0 := idx2_lt0 i
  have h1 := idx2_lt1 i
  have hp : (r0_ptOf i).val = (i 0).val / 256 := rfl
  show i ∈ ((View.whole main_v0_1).slice (win0_3.rect (r0_ptOf i))).set
  rw [View.set_slice_whole, Rect.mem_set_unit]
  intro a
  match a with
  | ⟨0, _⟩ =>
    show win0_3.index (r0_ptOf i) (0 : Fin 2) * 256 ≤ (i 0).val ∧ (i 0).val < win0_3.index (r0_ptOf i) (0 : Fin 2) * 256 + 256
    rw [e0, hp]; omega
  | ⟨1, _⟩ =>
    show win0_3.index (r0_ptOf i) (1 : Fin 2) * 1 ≤ (i 1).val ∧ (i 1).val < win0_3.index (r0_ptOf i) (1 : Fin 2) * 1 + 1
    rw [e1]; omega

/-- The first column output after the region: every row's squared norm. -/
theorem r0_final2 (c : Dev nD) : (dat0 (F := Ideal) V c).arrAt 2 cfg0.N = r0_G2 V c :=
  (dat0 (F := Ideal) V c).arrAt_eq_of_cover 2 (r0_G2 V c) (fun t _ => r0_flushed2_eq V c t) r0_cover2

/-- The second column output after the region: every row's squared norm. -/
theorem r0_final3 (c : Dev nD) : (dat0 (F := Ideal) V c).arrAt 3 cfg0.N = r0_G3 V c :=
  (dat0 (F := Ideal) V c).arrAt_eq_of_cover 3 (r0_G3 V c) (fun t _ => r0_flushed3_eq V c t) r0_cover3

/-- Row r of the first column output after the region is the squared norm of the first matrix's row r. -/
theorem n1_final (c : Dev nD) (r : Fin 4096) :
    (dat0 (F := Ideal) V c).arrAt 2 cfg0.N (ix2 r (0 : Fin 1)) = Cert.Spec.nrm (Cert.Spec.mat (V c main_arg0)) r := by
  rw [r0_final2]; rfl

/-- Row r of the second column output after the region is the squared norm of the second matrix's row r. -/
theorem n2_final (c : Dev nD) (r : Fin 4096) :
    (dat0 (F := Ideal) V c).arrAt 3 cfg0.N (ix2 r (0 : Fin 1)) = Cert.Spec.nrm (Cert.Spec.mat (V c main_arg1)) r := by
  rw [r0_final3]; rfl

/-! ## The one-cell output: the accumulator over the points -/

/-- The tile sum point n adds to the accumulator: Σ_r Σ_k (p − q)² over rows 256·n … 256·n + 255
    (0 past the grid). -/
def r0_tileSum (c : Dev nD) (n : ℕ) : EReal :=
  if h : n < 16 then
    ∑ r : Fin 256, ∑ k : Fin 4096,
      (Cert.Spec.mat (V c main_arg0) ⟨256 * n + r.val, by have := r.isLt; omega⟩ k
          - Cert.Spec.mat (V c main_arg1) ⟨256 * n + r.val, by have := r.isLt; omega⟩ k)
        * (Cert.Spec.mat (V c main_arg0) ⟨256 * n + r.val, by have := r.isLt; omega⟩ k
          - Cert.Spec.mat (V c main_arg1) ⟨256 * n + r.val, by have := r.isLt; omega⟩ k)
  else 0

/-- The tile's sum of squared differences, for two tiles whose entries are the matrices' at rows 256·t + r. -/
theorem r0_tile_eq (c : Dev nD) (t : Fin cfg0.N) (x y : Vec Ideal S256x4096 .f32)
    (hx : ∀ (r : Fin 256) (k : Fin 4096), x (ix2 r k) = Cert.Spec.mat (V c main_arg0) (r0_rowOf t r) k)
    (hy : ∀ (r : Fin 256) (k : Fin 4096), y (ix2 r k) = Cert.Spec.mat (V c main_arg1) (r0_rowOf t r) k) :
    (∑ r : Fin 256, ∑ k : Fin 4096, (x (ix2 r k) - y (ix2 r k)) * (x (ix2 r k) - y (ix2 r k)))
      = r0_tileSum V c t.val := by
  unfold r0_tileSum
  rw [dif_pos (r0_lt16 t)]
  refine Finset.sum_congr rfl fun r _ => Finset.sum_congr rfl fun k _ => ?_
  rw [hx r k, hy r k]
  rfl

/-- One point's step: the accumulator it finds plus its tile sum. -/
theorem r0_acc_step (c : Dev nD) (t : Fin cfg0.N) (a : Vec Ideal S1x1 .f32) :
    k0_pay2 (iblk0 V c 0 t) (iblk0 V c 1 t) a (ix2 (0 : Fin 1) (0 : Fin 1))
      = a (ix2 (0 : Fin 1) (0 : Fin 1)) + r0_tileSum V c t.val :=
  (pay2_apply (iblk0 V c 0 t) (iblk0 V c 1 t) a).trans
    (congrArg (fun z => a (ix2 (0 : Fin 1) (0 : Fin 1)) + z)
      (r0_tile_eq V c t (iblk0 V c 0 t) (iblk0 V c 1 t) (r0_blk0_apply V c t) (r0_blk1_apply V c t)))

/-- The accumulator after point n is the sum of the tile sums of points 0 … n. -/
theorem r0_acc_val (c : Dev nD) (n : ℕ) : ∀ h : n < cfg0.N,
    acc0 (F := Ideal) V c n h (ix2 (0 : Fin 1) (0 : Fin 1)) = ∑ i ∈ Finset.range (n + 1), r0_tileSum V c i := by
  induction n with
  | zero =>
    intro h
    refine (congrFun (acc0_zero (F := Ideal) V c h) _).trans ?_
    refine (r0_acc_step V c ⟨0, h⟩ (k0_pay1 (F := Ideal))).trans ?_
    rw [pay1_zero, zero_add, Finset.sum_range_one]
  | succ n ih =>
    intro h
    refine (congrFun (acc0_succ (F := Ideal) V c n h) _).trans ?_
    refine (r0_acc_step V c ⟨n + 1, h⟩ (acc0 (F := Ideal) V c n (Nat.lt_of_succ_lt h))).trans ?_
    rw [ih (Nat.lt_of_succ_lt h), Finset.sum_range_succ _ (n + 1)]

/-- The sixteen tile sums add up to the whole sum of squared differences. -/
theorem r0_tiles_total (c : Dev nD) :
    ∑ i ∈ Finset.range 16, r0_tileSum V c i
      = Cert.Spec.possum (Cert.Spec.mat (V c main_arg0)) (Cert.Spec.mat (V c main_arg1)) := by
  rw [Cert.Spec.sum_grid16, ← Cert.Spec.possum_tiled]
  refine Finset.sum_congr rfl fun t _ => ?_
  unfold r0_tileSum
  rw [dif_pos t.isLt]

/-- What the one-cell output ends holding. -/
def r0_G4 (c : Dev nD) : S1x1.Idx → EReal :=
  fun _ => Cert.Spec.possum (Cert.Spec.mat (V c main_arg0)) (Cert.Spec.mat (V c main_arg1))

/-- The one write-back, at the last point, writes the whole sum. -/
theorem r0_flushed4_eq (c : Dev nD) (t : Fin cfg0.N) (hf : (cfg0.win 4).flush t = true) :
    (dat0 (F := Ideal) V c).flushed 4 t = ((cfg0.win 4).blk t).view.read (Elt Ideal) (r0_G4 V c) := by
  have h15 : t.val = 15 := by
    have h1 := (flush0_4 t).mp hf; have h2 := r0_lt16 t; omega
  show (cfg0.win 4).cut (grid0.coords t) ((dat0 (F := Ideal) V c).after 4 t) = _
  rw [after0_4]
  funext y
  obtain ⟨a, b, rfl⟩ : ∃ (a : Fin 1) (b : Fin 1), y = ix2 a b := ⟨y 0, y 1, eq_ix2 y⟩
  obtain rfl : a = 0 := Subsingleton.elim _ _
  obtain rfl : b = 0 := Subsingleton.elim _ _
  have hx : (cfg0.win 4).xinj (grid0.coords t) (ix2 (0 : Fin 1) (0 : Fin 1)) = ix2 (0 : Fin 1) (0 : Fin 1) := by
    funext a; match a with | ⟨0, _⟩ => rfl | ⟨1, _⟩ => rfl
  refine (congrArg (acc0 (F := Ideal) V c t.val t.isLt) hx).trans ?_
  refine (r0_acc_val V c t.val t.isLt).trans ?_
  show _ = Cert.Spec.possum (Cert.Spec.mat (V c main_arg0)) (Cert.Spec.mat (V c main_arg1))
  rw [h15]
  exact r0_tiles_total V c

/-- The last point. -/
def r0_tLast : Fin cfg0.N := ⟨15, by have hN : cfg0.N = 16 := N_0; omega⟩

/-- The one cell is in the last point's block. -/
theorem r0_cover4 (i : S1x1.Idx) :
    ∃ t : Fin cfg0.N, (cfg0.win 4).flush t = true ∧ i ∈ ((cfg0.win 4).blk t).view.set := by
  refine ⟨r0_tLast, (flush0_4 r0_tLast).mpr rfl, ?_⟩
  obtain ⟨-, -, -, -, -, -, -, -, e0, e1⟩ := r0_idx_facts r0_tLast
  have h0 := idx2_lt0 i
  have h1 := idx2_lt1 i
  show i ∈ ((View.whole main_v0_2).slice (win0_4.rect r0_tLast)).set
  rw [View.set_slice_whole, Rect.mem_set_unit]
  intro a
  match a with
  | ⟨0, _⟩ =>
    show win0_4.index r0_tLast (0 : Fin 2) * 1 ≤ (i 0).val ∧ (i 0).val < win0_4.index r0_tLast (0 : Fin 2) * 1 + 1
    rw [e0]; omega
  | ⟨1, _⟩ =>
    show win0_4.index r0_tLast (1 : Fin 2) * 1 ≤ (i 1).val ∧ (i 1).val < win0_4.index r0_tLast (1 : Fin 2) * 1 + 1
    rw [e1]; omega

/-- The one-cell output after the region: the whole sum of squared differences. -/
theorem r0_final4 (c : Dev nD) : (dat0 (F := Ideal) V c).arrAt 4 cfg0.N = r0_G4 V c :=
  (dat0 (F := Ideal) V c).arrAt_eq_of_cover 4 (r0_G4 V c) (fun t hf => r0_flushed4_eq V c t hf) r0_cover4

/-- The one-cell output after the region is Σ_i Σ_k (p − q)². -/
theorem possum_final (c : Dev nD) :
    (dat0 (F := Ideal) V c).arrAt 4 cfg0.N (ix2 (0 : Fin 1) (0 : Fin 1))
      = Cert.Spec.possum (Cert.Spec.mat (V c main_arg0)) (Cert.Spec.mat (V c main_arg1)) := by
  rw [r0_final4]; rfl

end Cert.KernelIdeal.Hand

end
-- ==== Proof.KI.Pay1.lean ====
/-
  The Gram region's arithmetic, read at an index, at the exact instance (a float is an extended real,
  every operation its textbook one, a change of format the identity).

  For a tile x0 of 512 rows of p, a tile x1 of 256 rows of q, the column x2 of the 512 rows' squared
  norms and the row x3 of the 256 rows' squared norms:
    · the tile of squared distances is, at (r, s),
        (x2(r) + x3(s)) − 2 · Σ_k x0(r,k) · x1(s,k)
      (the matrix product contracts axis 1 of both operands; 2 is the literal both programs carry);
    · the first accumulator's update adds Σ_r Σ_s of that tile to the one-cell accumulator;
    · the second accumulator's update adds the same double sum restricted to the entries whose global
      row number 512·i₀ + r equals their global column number 256·i₁ + s, the comparison being made
      on 32-bit words, which at these sizes (i₀ < 8, i₁ < 16) do not wrap.
  The two accumulators start from the zero cell.
-/
import proofs.«128264_j17093969838495_1_alg».proof.Proof.KI.Defs1
import proofs.«128264_j17093969838495_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

/-! ## The zero cells -/

/-- The first accumulator's initial cell is zero. -/
theorem pay2_zero : (k1_pay2 (F := Ideal)) (ix2 (0 : Fin 1) (0 : Fin 1)) = 0 := by
  unfold k1_pay2
  rw [shapeCast_self]
  exact Ideal.ofBits_zero_f32

/-- The second accumulator's initial cell is zero. -/
theorem pay3_zero : (k1_pay3 (F := Ideal)) (ix2 (0 : Fin 1) (0 : Fin 1)) = 0 := by
  unfold k1_pay3
  rw [shapeCast_self]
  exact Ideal.ofBits_zero_f32

/-! ## The matrix product at an index -/

/-- The left operand's index on its free axis is the output's row. -/
theorem lhsIdx_dot_0 (j : S512x256.Idx) (k : dot_S512x4096_S256x4096_S512x256_1_1_0_0_n_n.contr.Idx) :
    (dot_S512x4096_S256x4096_S512x256_1_1_0_0_n_n.lhsIdx j k 0).val = (j 0).val := by
  simp [DotDims.lhsIdx, dot_S512x4096_S256x4096_S512x256_1_1_0_0_n_n]
  rfl

/-- The left operand's index on its contracted axis is the contraction index. -/
theorem lhsIdx_dot_1 (j : S512x256.Idx) (k : dot_S512x4096_S256x4096_S512x256_1_1_0_0_n_n.contr.Idx) :
    (dot_S512x4096_S256x4096_S512x256_1_1_0_0_n_n.lhsIdx j k 1).val = (k ⟨0, by decide⟩).val :=
  DotDims.lhsIdx_val_of_single _ rfl j k

/-- The right operand's index on its free axis is the output's column. -/
theorem rhsIdx_dot_0 (j : S512x256.Idx) (k : dot_S512x4096_S256x4096_S512x256_1_1_0_0_n_n.contr.Idx) :
    (dot_S512x4096_S256x4096_S512x256_1_1_0_0_n_n.rhsIdx j k 0).val = (j 1).val := by
  simp [DotDims.rhsIdx, dot_S512x4096_S256x4096_S512x256_1_1_0_0_n_n]
  rfl

/-- The right operand's index on its contracted axis is the contraction index. -/
theorem rhsIdx_dot_1 (j : S512x256.Idx) (k : dot_S512x4096_S256x4096_S512x256_1_1_0_0_n_n.contr.Idx) :
    (dot_S512x4096_S256x4096_S512x256_1_1_0_0_n_n.rhsIdx j k 1).val = (k ⟨0, by decide⟩).val :=
  DotDims.rhsIdx_val_of_single _ rfl j k

/-- The product of a [512, 4096] tile with a [256, 4096] tile, contracting axis 1 of both, into the
    zero tile, at (r, s): Σ_k x0(r,k) · x1(s,k). -/
theorem matmulT_apply {φ₁ φ₂ : FTy} (x0 : FVec Ideal S512x4096 φ₁) (x1 : FVec Ideal S256x4096 φ₂)
    (r : Fin 512) (s : Fin 256) :
    matmul (F := Ideal) dot_S512x4096_S256x4096_S512x256_1_1_0_0_n_n none x0 x1
        (constant (F := Ideal) S512x256 .f32 0x00000000#32) (ix2 r s)
      = ∑ k : Fin 4096, x0 (ix2 r k) * x1 (ix2 s k) := by
  show FloatOps.matmul dot_S512x4096_S256x4096_S512x256_1_1_0_0_n_n none x0 x1
      (constant (F := Ideal) S512x256 .f32 0x00000000#32) (ix2 r s) = _
  rw [Ideal.matmul_constant_zero_apply,
    ← Equiv.sum_comp (contrEquiv1 dot_S512x4096_S256x4096_S512x256_1_1_0_0_n_n 4096 rfl rfl).symm]
  refine Finset.sum_congr rfl fun c _ => ?_
  have hc := contrEquiv1_symm_val dot_S512x4096_S256x4096_S512x256_1_1_0_0_n_n 4096 rfl rfl c
  have hl : dot_S512x4096_S256x4096_S512x256_1_1_0_0_n_n.lhsIdx (ix2 r s)
      ((contrEquiv1 dot_S512x4096_S256x4096_S512x256_1_1_0_0_n_n 4096 rfl rfl).symm c) = ix2 r c := by
    funext ax; apply Fin.ext
    match ax with
    | ⟨0, _⟩ => exact lhsIdx_dot_0 _ _
    | ⟨1, _⟩ => exact (lhsIdx_dot_1 _ _).trans hc
  have hr : dot_S512x4096_S256x4096_S512x256_1_1_0_0_n_n.rhsIdx (ix2 r s)
      ((contrEquiv1 dot_S512x4096_S256x4096_S512x256_1_1_0_0_n_n 4096 rfl rfl).symm c) = ix2 s c := by
    funext ax; apply Fin.ext
    match ax with
    | ⟨0, _⟩ => exact rhsIdx_dot_0 _ _
    | ⟨1, _⟩ => exact (rhsIdx_dot_1 _ _).trans hc
  rw [hl, hr]

/-! ## The squared-distance tile at an index -/

/-- A column copied along the lanes reads its entry at the row coordinate. -/
theorem colBcast_apply (x2 : FVec Ideal S512x1 .f32) (r : Fin 512) (s : Fin 256) :
    broadcastTo S512x256 x2 broadcasts_S512x1_S512x256 (ix2 r s) = x2 (ix2 r (0 : Fin 1)) :=
  broadcastTo_apply x2 broadcasts_S512x1_S512x256 (ix2 r s) (ix2 r (0 : Fin 1))
    (fun a => match a with | ⟨0, _⟩ => rfl | ⟨1, _⟩ => rfl)

/-- The tile of squared distances at (r, s): the two squared norms added, less twice the inner
    product of row r of the first tile with row s of the second. -/
theorem pay4_apply1 (x0 : Vec Ideal S512x4096 .f32) (x1 : Vec Ideal S256x4096 .f32)
    (x2 : Vec Ideal S512x1 .f32) (x3 : Vec Ideal S1x256 .f32) (r : Fin 512) (s : Fin 256) :
    k1_pay4 (F := Ideal) x0 x1 x2 x3 (ix2 r s)
      = (x2 (ix2 r (0 : Fin 1)) + x3 (ix2 (0 : Fin 1) s))
        - Cert.Spec.two * ∑ k : Fin 4096, x0 (ix2 r k) * x1 (ix2 s k) := by
  unfold k1_pay4
  rw [subf_apply, addf_apply, mulf_apply, broadcast_apply, shapeCast_self, shapeCast_self,
    colBcast_apply, broadcastTo_1b_ab_apply, matmulT_apply]
  rfl

/-! ## A tile summed over both axes into one cell -/

/-- A vector of 512 sums made a column reads its entry at the row coordinate. -/
theorem colCast_apply (v : FVec Ideal S512 .f32) (r : Fin 512) (u : Fin 1) :
    shapeCast S512x1 v shapeCasts_S512_S512x1 (ix2 r u) = v (ix1 r) :=
  shapeCast_apply v shapeCasts_S512_S512x1 _ _ (by
    have hu : u.val = 0 := by omega
    rw [Shape.rowMajor_val_two, Shape.rowMajor_val_one]
    show r.val = r.val * 1 + u.val
    omega)

/-- The sum along the lanes of a [512, 256] tile, at row r. -/
theorem laneSum_apply (y : FVec Ideal S512x256 .f32) (hφ : FKind.Formats .f32)
    (hacc : (0x00000000#32 : BitVec 32) = 0x00000000#32) (r : Fin 512) :
    multiReduction (F := Ideal) .add [1] S512 y 0x00000000#32 reduces_S512x256_S512 hφ hacc (ix1 r)
      = ∑ s : Fin 256, y (ix2 r s) := by
  refine (Ideal.multiReduction_add_single y 0x00000000#32 reduces_S512x256_S512 hφ hacc (ix1 r)).trans ?_
  refine Finset.sum_congr rfl fun k _ => congrArg y ?_
  funext d
  match d with
  | ⟨0, _⟩ => rfl
  | ⟨1, _⟩ => rfl

/-- The kernel's way of summing a [512, 256] tile into one cell — along the lanes, the 512 sums made a
    column, the column summed, the one sum made a cell — is the double sum over rows and lanes. -/
theorem tileSum_apply (y : FVec Ideal S512x256 .f32) (hφ : FKind.Formats .f32)
    (hacc : (0x00000000#32 : BitVec 32) = 0x00000000#32) :
    shapeCast S1x1
        (multiReduction (F := Ideal) .add [0] S1
          (shapeCast S512x1
            (multiReduction (F := Ideal) .add [1] S512 y 0x00000000#32 reduces_S512x256_S512 hφ hacc)
            shapeCasts_S512_S512x1)
          0x00000000#32 reduces_S512x1_S1 hφ hacc)
        shapeCasts_S1_S1x1 (ix2 (0 : Fin 1) (0 : Fin 1))
      = ∑ r : Fin 512, ∑ s : Fin 256, y (ix2 r s) := by
  refine (shapeCast_a_1a_apply _ shapeCasts_S1_S1x1 0 0).trans ?_
  refine (Ideal.multiReduction_add_single _ 0x00000000#32 reduces_S512x1_S1 hφ hacc (ix1 0)).trans ?_
  refine Finset.sum_congr rfl fun r _ => ?_
  refine Eq.trans (congrArg _ (?_ : _ = ix2 r (0 : Fin 1)))
    ((colCast_apply _ r 0).trans (laneSum_apply y hφ hacc r))
  funext d
  match d with
  | ⟨0, _⟩ => rfl
  | ⟨1, _⟩ => rfl

/-- The first accumulator's update: the tile of squared distances summed over both axes, added to the
    cell. -/
theorem step8_apply (x0 : Vec Ideal S512x4096 .f32) (x1 : Vec Ideal S256x4096 .f32)
    (x2 : Vec Ideal S512x1 .f32) (x3 : Vec Ideal S1x256 .f32) (a : Vec Ideal S1x1 .f32) :
    step8 (F := Ideal) x0 x1 x2 x3 a (ix2 (0 : Fin 1) (0 : Fin 1))
      = a (ix2 (0 : Fin 1) (0 : Fin 1))
        + ∑ r : Fin 512, ∑ s : Fin 256, k1_pay4 (F := Ideal) x0 x1 x2 x3 (ix2 r s) := by
  unfold step8 k1_pay5
  refine (congrFun (shapeCast_self _ _) _).trans ?_
  refine (addf_apply _ _ _).trans ?_
  exact congrArg (a (ix2 (0 : Fin 1) (0 : Fin 1)) + ·)
    (tileSum_apply (k1_pay4 (F := Ideal) x0 x1 x2 x3) _ _)

/-! ## The diagonal mask -/

/-- At these sizes the two global numbers, computed on 32-bit words, are equal exactly when they are
    equal as numbers: nothing wraps. -/
theorem word_eq_iff (a b r s : ℕ) (ha : a < 8) (hb : b < 16) (hr : r < 512) (hs : s < 256) :
    BitVec.ofNat 32 r + BitVec.ofNat 32 a * 512#32 = BitVec.ofNat 32 s + BitVec.ofNat 32 b * 256#32
      ↔ 512 * a + r = 256 * b + s := by
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

/-- The mask at (r, s) of the tile at grid coordinates i is the bit of
    512·i₀ + r = 256·i₁ + s. -/
theorem diagMask_apply (i : grid1.Coords) (r : Fin 512) (s : Fin 256) :
    cmpi .eq (k1_pay6 i)
        (addi (iota .tc S512x256 32 [1] iota_S512x256_d1_w32)
          (broadcast S512x256 (Scalar.muli (BitVec.ofNat 32 (i 1).val) 256#32))) (ix2 r s)
      = if 512 * (i 0).val + r.val = 256 * (i 1).val + s.val then 1#1 else 0#1 := by
  have h0 : (i 0).val < 8 := (i 0).isLt
  have h1 : (i 1).val < 16 := (i 1).isLt
  unfold k1_pay6
  show IntOp.cmpi .eq
      (IntOp.addi (iota .tc S512x256 32 [0] iota_S512x256_d0_w32 (ix2 r s))
        (BitVec.ofNat 32 (i 0).val * 512#32))
      (IntOp.addi (iota .tc S512x256 32 [1] iota_S512x256_d1_w32 (ix2 r s))
        (BitVec.ofNat 32 (i 1).val * 256#32)) = _
  rw [iota_single_apply, iota_single_apply]
  show IntOp.cmpi .eq (BitVec.ofNat 32 r.val + BitVec.ofNat 32 (i 0).val * 512#32)
      (BitVec.ofNat 32 s.val + BitVec.ofNat 32 (i 1).val * 256#32) = _
  by_cases h : 512 * (i 0).val + r.val = 256 * (i 1).val + s.val
  · rw [if_pos h, StableHlo.Predicate.cmpi_eq_iff]
    exact (word_eq_iff _ _ _ _ h0 h1 r.isLt s.isLt).mpr h
  · rw [if_neg h]
    apply eq_zero_of_ne_one
    rw [StableHlo.Predicate.cmpi_eq_iff]
    exact fun e => h ((word_eq_iff _ _ _ _ h0 h1 r.isLt s.isLt).mp e)

/-- The second accumulator's update: the tile of squared distances kept where the global row number
    equals the global column number, summed over both axes, added to the cell. -/
theorem step9_apply (i : grid1.Coords) (x0 : Vec Ideal S512x4096 .f32) (x1 : Vec Ideal S256x4096 .f32)
    (x2 : Vec Ideal S512x1 .f32) (x3 : Vec Ideal S1x256 .f32) (a : Vec Ideal S1x1 .f32) :
    step9 (F := Ideal) i x0 x1 x2 x3 a (ix2 (0 : Fin 1) (0 : Fin 1))
      = a (ix2 (0 : Fin 1) (0 : Fin 1))
        + ∑ r : Fin 512, ∑ s : Fin 256,
            if 512 * (i 0).val + r.val = 256 * (i 1).val + s.val
            then k1_pay4 (F := Ideal) x0 x1 x2 x3 (ix2 r s) else 0 := by
  unfold step9 k1_pay1
  refine (congrFun (shapeCast_self _ _) _).trans ?_
  refine (addf_apply _ _ _).trans ?_
  refine congrArg (a (ix2 (0 : Fin 1) (0 : Fin 1)) + ·) ?_
  refine (tileSum_apply _ _ _).trans ?_
  refine Finset.sum_congr rfl fun r _ => Finset.sum_congr rfl fun s _ => ?_
  refine (select_apply _ _ _ _).trans ?_
  rw [diagMask_apply]
  by_cases h : 512 * (i 0).val + r.val = 256 * (i 1).val + s.val
  · rw [if_pos h, if_pos h, select_one]
  · rw [if_neg h, if_neg h, select_zero]
    exact Ideal.ofBits_zero_f32

end Cert.KernelIdeal.Hand

end
-- ==== Proof.KI.Value1.lean ====
/-
  What the Gram region leaves in its two one-cell outputs.

  The region runs over an 8 × 16 grid in row-major order: point t is the pair (i, j) = (t / 16, t % 16), and it
  works on the 512 × 256 tile of the 4096 × 4096 matrix of squared distances whose rows are 512·i + r and whose
  columns are 256·j + s.  Each window's block at point t is a restriction of its array: rows 512·i + r of p and of the
  column of p's row norms, rows 256·j + s of q, columns 256·j + s of the row of q's row norms.  So the tile's entry
  (r, s) is dist p q (512·i + r) (256·j + s).  The first accumulator gains the tile's sum at every point, the second
  the sum of the tile's entries whose global row equals their global column; both start from 0.  After the 128
  points they hold the sum over all tiles, which is the sum over the whole matrix (sumd), and the sum over the
  diagonal (trace).  The outputs are written back once, at the last point, with the accumulators' final values.
-/
import proofs.«128264_j17093969838495_1_alg».proof.Proof.KI.Defs1
import proofs.«128264_j17093969838495_1_alg».proof.Proof.KI.Pay1
import proofs.«128264_j17093969838495_1_alg».proof.Proof.SpecAlg
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

/-! ## Where the blocks sit -/

/-- The block indices of the four input windows and the grid coordinates at point `t`, in closed form: the row
    tile is `t / 16`, the column tile `t % 16`. Decided once over the 128 points. -/
theorem idx_facts1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = t.val % 16
    ∧ ((grid1.coords t) 0).val = t.val / 16 ∧ ((grid1.coords t) 1).val = t.val % 16 :=
  (by decide +kernel : ∀ t : Fin grid1.N, _)

/-- The two one-cell output windows never move: block (0, 0), the whole cell. -/
theorem idx_facts1_out : ∀ t : Fin cfg1.N,
    win1_4.index t (0 : Fin 2) * win1_4.size 0 = 0 ∧ win1_4.index t (1 : Fin 2) * win1_4.size 1 = 0
    ∧ win1_4.xsize (grid1.coords t) 0 = 1 ∧ win1_4.xsize (grid1.coords t) 1 = 1
    ∧ win1_5.index t (0 : Fin 2) * win1_5.size 0 = 0 ∧ win1_5.index t (1 : Fin 2) * win1_5.size 1 = 0
    ∧ win1_5.xsize (grid1.coords t) 0 = 1 ∧ win1_5.xsize (grid1.coords t) 1 = 1 :=
  (by decide +kernel : ∀ t : Fin grid1.N, _)

/-- Row `r` of window 0's block at point `t` is row `512 · (t / 16) + r` of the first argument. -/
theorem blk0_apply (c : Dev nD) (t : Fin cfg1.N) (r : Fin 512) (k : Fin 4096) (hb : 512 * (t.val / 16) + r.val < 4096) :
    (iblk1 V c 0 t : Vec Ideal S512x4096 .f32) (ix2 r k) = V c main_arg0 (ix2 (⟨512 * (t.val / 16) + r.val, hb⟩ : Fin 4096) k) := by
  obtain ⟨e0, e1, -⟩ := idx_facts1 t
  unfold iblk1
  rw [View.read_apply]
  show V c main_arg0 _ = V c main_arg0 _
  congr 1
  funext a
  apply Fin.ext
  match a with
  | ⟨0, _⟩ => show win1_0.index t (0 : Fin 2) * 512 + 1 * r.val = 512 * (t.val / 16) + r.val; omega
  | ⟨1, _⟩ => show win1_0.index t (1 : Fin 2) * 4096 + 1 * k.val = k.val; omega

/-- Row `s` of window 1's block at point `t` is row `256 · (t % 16) + s` of the second argument. -/
theorem blk1_apply (c : Dev nD) (t : Fin cfg1.N) (s : Fin 256) (k : Fin 4096) (hb : 256 * (t.val % 16) + s.val < 4096) :
    (iblk1 V c 1 t : Vec Ideal S256x4096 .f32) (ix2 s k) = V c main_arg1 (ix2 (⟨256 * (t.val % 16) + s.val, hb⟩ : Fin 4096) k) := by
  obtain ⟨-, -, e0, e1, -⟩ := idx_facts1 t
  unfold iblk1
  rw [View.read_apply]
  show V c main_arg1 _ = V c main_arg1 _
  congr 1
  funext a
  apply Fin.ext
  match a with
  | ⟨0, _⟩ => show win1_1.index t (0 : Fin 2) * 256 + 1 * s.val = 256 * (t.val % 16) + s.val; omega
  | ⟨1, _⟩ => show win1_1.index t (1 : Fin 2) * 4096 + 1 * k.val = k.val; omega

/-- Entry `r` of window 2's block at point `t` is entry `512 · (t / 16) + r` of the column of row norms. -/
theorem blk2_apply (c : Dev nD) (t : Fin cfg1.N) (r : Fin 512) (hb : 512 * (t.val / 16) + r.val < 4096) :
    (iblk1 V c 2 t : Vec Ideal S512x1 .f32) (ix2 r (0 : Fin 1)) = V c main_v0_0 (ix2 (⟨512 * (t.val / 16) + r.val, hb⟩ : Fin 4096) (0 : Fin 1)) := by
  obtain ⟨-, -, -, -, e0, e1, -⟩ := idx_facts1 t
  unfold iblk1
  rw [View.read_apply]
  show V c main_v0_0 _ = V c main_v0_0 _
  congr 1
  funext a
  apply Fin.ext
  match a with
  | ⟨0, _⟩ => show win1_2.index t (0 : Fin 2) * 512 + 1 * r.val = 512 * (t.val / 16) + r.val; omega
  | ⟨1, _⟩ => show win1_2.index t (1 : Fin 2) * 1 + 1 * 0 = 0; omega

/-- Entry `s` of window 3's block at point `t` is entry `256 · (t % 16) + s` of the row of row norms. -/
theorem blk3_apply (c : Dev nD) (t : Fin cfg1.N) (s : Fin 256) (hb : 256 * (t.val % 16) + s.val < 4096) :
    (iblk1 V c 3 t : Vec Ideal S1x256 .f32) (ix2 (0 : Fin 1) s) = V c main_v1 (ix2 (0 : Fin 1) (⟨256 * (t.val % 16) + s.val, hb⟩ : Fin 4096)) := by
  obtain ⟨-, -, -, -, -, -, e0, e1, -⟩ := idx_facts1 t
  unfold iblk1
  rw [View.read_apply]
  show V c main_v1 _ = V c main_v1 _
  congr 1
  funext a
  apply Fin.ext
  match a with
  | ⟨0, _⟩ => show win1_3.index t (0 : Fin 2) * 1 + 1 * 0 = 0; omega
  | ⟨1, _⟩ => show win1_3.index t (1 : Fin 2) * 256 + 1 * s.val = 256 * (t.val % 16) + s.val; omega

/-! ## The tile at a point -/

section Tile

variable (c : Dev nD) (p q : Cert.Spec.Mat)
  (hp : Cert.Spec.mat (V c main_arg0) = p) (hq : Cert.Spec.mat (V c main_arg1) = q)
  (hn1 : ∀ r : Fin 4096, V c main_v0_0 (ix2 r (0 : Fin 1)) = Cert.Spec.nrm p r)
  (hn2 : ∀ s : Fin 4096, V c main_v1 (ix2 (0 : Fin 1) s) = Cert.Spec.nrm q s)

include hp hq hn1 hn2 in
/-- Entry (r, s) of the tile of distances at point `t` is the squared distance between row `512 · (t / 16) + r`
    of p and row `256 · (t % 16) + s` of q. -/
theorem tile_apply (t : Fin cfg1.N) (r : Fin 512) (s : Fin 256)
    (hr : 512 * (t.val / 16) + r.val < 4096) (hs : 256 * (t.val % 16) + s.val < 4096) :
    k1_pay4 (iblk1 V c 0 t) (iblk1 V c 1 t) (iblk1 V c 2 t) (iblk1 V c 3 t) (ix2 r s)
      = Cert.Spec.dist p q ⟨512 * (t.val / 16) + r.val, hr⟩ ⟨256 * (t.val % 16) + s.val, hs⟩ := by
  refine (pay4_apply1 (iblk1 V c 0 t) (iblk1 V c 1 t) (iblk1 V c 2 t) (iblk1 V c 3 t) r s).trans ?_
  have e2 := (blk2_apply V c t r hr).trans (hn1 _)
  have e3 := (blk3_apply V c t s hs).trans (hn2 _)
  have e0 : ∀ k : Fin 4096, (iblk1 V c 0 t : Vec Ideal S512x4096 .f32) (ix2 r k) = p ⟨512 * (t.val / 16) + r.val, hr⟩ k :=
    fun k => (blk0_apply V c t r k hr).trans (congrFun (congrFun hp _) k)
  have e1 : ∀ k : Fin 4096, (iblk1 V c 1 t : Vec Ideal S256x4096 .f32) (ix2 s k) = q ⟨256 * (t.val % 16) + s.val, hs⟩ k :=
    fun k => (blk1_apply V c t s k hs).trans (congrFun (congrFun hq _) k)
  rw [e2, e3]
  unfold Cert.Spec.dist Cert.Spec.gram
  congr 2
  refine Finset.sum_congr rfl fun k _ => ?_
  rw [e0 k, e1 k]

/-- The sum of the tile of distances of grid step `n` (0 past the grid). -/
def stepSum (n : ℕ) : EReal :=
  if h : n < 128 then ∑ r : Fin 512, ∑ s : Fin 256,
    Cert.Spec.dist p q ⟨512 * (n / 16) + r.val, by omega⟩ ⟨256 * (n % 16) + s.val, by omega⟩ else 0

/-- The part of the diagonal inside the tile of grid step `n`: the entries whose global row is their global
    column (0 past the grid). -/
def stepDiag (n : ℕ) : EReal :=
  if h : n < 128 then ∑ r : Fin 512, ∑ s : Fin 256,
    (if 512 * (n / 16) + r.val = 256 * (n % 16) + s.val then
      Cert.Spec.dist p q ⟨512 * (n / 16) + r.val, by omega⟩ ⟨256 * (n % 16) + s.val, by omega⟩ else 0) else 0

include hp hq hn1 hn2 in
/-- One point's update of the first accumulator adds the tile's sum. -/
theorem step8_tile (t : Fin cfg1.N) (a : Vec Ideal S1x1 .f32) :
    step8 (iblk1 V c 0 t) (iblk1 V c 1 t) (iblk1 V c 2 t) (iblk1 V c 3 t) a (ix2 (0 : Fin 1) (0 : Fin 1))
      = a (ix2 (0 : Fin 1) (0 : Fin 1)) + stepSum p q t.val := by
  have hN : grid1.N = 128 := N_1
  have ht : t.val < 128 := by have h2 : t.val < grid1.N := t.isLt; omega
  refine (step8_apply (iblk1 V c 0 t) (iblk1 V c 1 t) (iblk1 V c 2 t) (iblk1 V c 3 t) a).trans ?_
  unfold stepSum
  rw [dif_pos ht]
  exact congrArg _ (Finset.sum_congr rfl fun r _ => Finset.sum_congr rfl fun s _ =>
    tile_apply V c p q hp hq hn1 hn2 t r s _ _)

include hp hq hn1 hn2 in
/-- One point's update of the second accumulator adds the tile's part of the diagonal. -/
theorem step9_tile (t : Fin cfg1.N) (a : Vec Ideal S1x1 .f32) :
    step9 (grid1.coords t) (iblk1 V c 0 t) (iblk1 V c 1 t) (iblk1 V c 2 t) (iblk1 V c 3 t) a (ix2 (0 : Fin 1) (0 : Fin 1))
      = a (ix2 (0 : Fin 1) (0 : Fin 1)) + stepDiag p q t.val := by
  have hN : grid1.N = 128 := N_1
  have ht : t.val < 128 := by have h2 : t.val < grid1.N := t.isLt; omega
  obtain ⟨-, -, -, -, -, -, -, -, e8, e9⟩ := idx_facts1 t
  refine (step9_apply (grid1.coords t) (iblk1 V c 0 t) (iblk1 V c 1 t) (iblk1 V c 2 t) (iblk1 V c 3 t) a).trans ?_
  unfold stepDiag
  rw [dif_pos ht]
  refine congrArg _ (Finset.sum_congr rfl fun r _ => Finset.sum_congr rfl fun s _ => ?_)
  exact if_congr (by rw [e8, e9]) (tile_apply V c p q hp hq hn1 hn2 t r s _ _) rfl

include hp hq hn1 hn2 in
/-- After point `n` the two accumulators hold the tile sums, and the diagonal parts, of the points up to `n`. -/
theorem acc1_sum : ∀ (n : ℕ) (h : n < cfg1.N),
    (acc1 V c n h).1 (ix2 (0 : Fin 1) (0 : Fin 1)) = ∑ i ∈ Finset.range (n + 1), stepSum p q i
    ∧ (acc1 V c n h).2 (ix2 (0 : Fin 1) (0 : Fin 1)) = ∑ i ∈ Finset.range (n + 1), stepDiag p q i
  | 0, h => by
    rw [acc1_zero]
    refine ⟨(step8_tile V c p q hp hq hn1 hn2 ⟨0, h⟩ (k1_pay2 (F := Ideal))).trans ?_,
      (step9_tile V c p q hp hq hn1 hn2 ⟨0, h⟩ (k1_pay3 (F := Ideal))).trans ?_⟩
    · rw [pay2_zero, zero_add, Finset.sum_range_one]
    · rw [pay3_zero, zero_add, Finset.sum_range_one]
  | n + 1, h => by
    obtain ⟨ih1, ih2⟩ := acc1_sum n (Nat.lt_of_succ_lt h)
    rw [acc1_succ]
    refine ⟨(step8_tile V c p q hp hq hn1 hn2 ⟨n + 1, h⟩ _).trans ?_,
      (step9_tile V c p q hp hq hn1 hn2 ⟨n + 1, h⟩ _).trans ?_⟩
    · rw [ih1, Finset.sum_range_succ _ (n + 1)]
    · rw [ih2, Finset.sum_range_succ _ (n + 1)]

end Tile

/-! ## The tiles make up the matrix -/

/-- The tile sum of grid step `16 · ti + tj` is the sum over tile (ti, tj). -/
theorem stepSum_grid (p q : Cert.Spec.Mat) (ti : Fin 8) (tj : Fin 16) :
    stepSum p q (16 * ti.val + tj.val) = ∑ r : Fin 512, ∑ s : Fin 256,
      Cert.Spec.dist p q ⟨512 * ti.val + r.val, by omega⟩ ⟨256 * tj.val + s.val, by omega⟩ := by
  unfold stepSum
  rw [dif_pos (by omega)]
  refine Finset.sum_congr rfl fun r _ => Finset.sum_congr rfl fun s _ => ?_
  exact congrArg₂ (Cert.Spec.dist p q)
    (Fin.ext (show 512 * ((16 * ti.val + tj.val) / 16) + r.val = 512 * ti.val + r.val by omega))
    (Fin.ext (show 256 * ((16 * ti.val + tj.val) % 16) + s.val = 256 * tj.val + s.val by omega))

/-- The diagonal part of grid step `16 · ti + tj` is the masked sum over tile (ti, tj). -/
theorem stepDiag_grid (p q : Cert.Spec.Mat) (ti : Fin 8) (tj : Fin 16) :
    stepDiag p q (16 * ti.val + tj.val) = ∑ r : Fin 512, ∑ s : Fin 256,
      (if 512 * ti.val + r.val = 256 * tj.val + s.val then
        Cert.Spec.dist p q ⟨512 * ti.val + r.val, by omega⟩ ⟨256 * tj.val + s.val, by omega⟩ else 0) := by
  unfold stepDiag
  rw [dif_pos (by omega)]
  refine Finset.sum_congr rfl fun r _ => Finset.sum_congr rfl fun s _ => ?_
  refine if_congr (by omega) ?_ rfl
  exact congrArg₂ (Cert.Spec.dist p q)
    (Fin.ext (show 512 * ((16 * ti.val + tj.val) / 16) + r.val = 512 * ti.val + r.val by omega))
    (Fin.ext (show 256 * ((16 * ti.val + tj.val) % 16) + s.val = 256 * tj.val + s.val by omega))

/-- The 128 tile sums add up to the sum of all pairwise distances. -/
theorem sum_stepSum (p q : Cert.Spec.Mat) : ∑ i ∈ Finset.range 128, stepSum p q i = Cert.Spec.sumd p q := by
  rw [Cert.Spec.sum_grid128, ← Cert.Spec.sumd_tiled p q]
  exact Finset.sum_congr rfl fun ti _ => Finset.sum_congr rfl fun tj _ => stepSum_grid p q ti tj

/-- The 128 diagonal parts add up to the sum of the diagonal distances. -/
theorem sum_stepDiag (p q : Cert.Spec.Mat) : ∑ i ∈ Finset.range 128, stepDiag p q i = Cert.Spec.trace p q := by
  rw [Cert.Spec.sum_grid128, ← Cert.Spec.trace_tiled p q]
  exact Finset.sum_congr rfl fun ti _ => Finset.sum_congr rfl fun tj _ => stepDiag_grid p q ti tj

/-! ## What is written back -/

/-- A one-cell array has one index. -/
theorem idx11_eq (x y : S1x1.Idx) : x = y := funext fun a => Fin.ext (by
  match a with
  | ⟨0, _⟩ =>
    have h1 : (x 0).val < 1 := (x 0).isLt
    have h2 : (y 0).val < 1 := (y 0).isLt
    show (x 0).val = (y 0).val
    omega
  | ⟨1, _⟩ =>
    have h1 : (x 1).val < 1 := (x 1).isLt
    have h2 : (y 1).val < 1 := (y 1).isLt
    show (x 1).val = (y 1).val
    omega)

/-- The two accumulators after the last point, as contents of the two one-cell output arrays. -/
abbrev res4 (c : Dev nD) (h : 127 < cfg1.N) : Buf (Elt Ideal) ((c : Thread nD τ).loc main_v2_0) := (acc1 V c 127 h).1
abbrev res5 (c : Dev nD) (h : 127 < cfg1.N) : Buf (Elt Ideal) ((c : Thread nD τ).loc main_v2_1) := (acc1 V c 127 h).2

/-- The one write-back of window 4, at the last point, writes the first accumulator's final value. -/
theorem flushed4_eq (c : Dev nD) (h127 : 127 < cfg1.N) (t : Fin cfg1.N) (hf : (cfg1.win 4).flush t = true) :
    (dat1 (F := Ideal) V c).flushed 4 t = ((cfg1.win 4).blk t).view.read (Elt Ideal) (res4 V c h127) := by
  have hN : grid1.N = 128 := N_1
  have ht : t.val = 127 := by
    have h1 := (flush1_4 t).mp hf
    have h2 : t.val < grid1.N := t.isLt
    omega
  obtain rfl : t = ⟨127, h127⟩ := Fin.ext ht
  funext j
  rw [View.read_apply]
  show (dat1 (F := Ideal) V c).after 4 ⟨127, h127⟩ _ = (acc1 V c 127 h127).1 _
  rw [after1_4]
  exact congrArg (acc1 V c 127 h127).1 (idx11_eq _ _)

/-- The one write-back of window 5, at the last point, writes the second accumulator's final value. -/
theorem flushed5_eq (c : Dev nD) (h127 : 127 < cfg1.N) (t : Fin cfg1.N) (hf : (cfg1.win 5).flush t = true) :
    (dat1 (F := Ideal) V c).flushed 5 t = ((cfg1.win 5).blk t).view.read (Elt Ideal) (res5 V c h127) := by
  have hN : grid1.N = 128 := N_1
  have ht : t.val = 127 := by
    have h1 := (flush1_5 t).mp hf
    have h2 : t.val < grid1.N := t.isLt
    omega
  obtain rfl : t = ⟨127, h127⟩ := Fin.ext ht
  funext j
  rw [View.read_apply]
  show (dat1 (F := Ideal) V c).after 5 ⟨127, h127⟩ _ = (acc1 V c 127 h127).2 _
  rw [after1_5]
  exact congrArg (acc1 V c 127 h127).2 (idx11_eq _ _)

/-- The last point's block of window 4 is the whole cell. -/
theorem cover4 (h127 : 127 < cfg1.N) (i : S1x1.Idx) :
    ∃ t : Fin cfg1.N, (cfg1.win 4).flush t = true ∧ i ∈ ((cfg1.win 4).blk t).view.set := by
  refine ⟨⟨127, h127⟩, (flush1_4 _).mpr rfl, ?_⟩
  obtain ⟨e0, e1, e2, e3, -⟩ := idx_facts1_out ⟨127, h127⟩
  show i ∈ ((View.whole main_v2_0).slice (win1_4.rect ⟨127, h127⟩)).set
  rw [View.set_slice_whole, Rect.mem_set_unit]
  intro a
  match a with
  | ⟨0, _⟩ =>
    have h1 : (i 0).val < 1 := (i 0).isLt
    show win1_4.index ⟨127, h127⟩ (0 : Fin 2) * win1_4.size 0 ≤ (i 0 : Nat) ∧ (i 0 : Nat) < win1_4.index ⟨127, h127⟩ (0 : Fin 2) * win1_4.size 0 + win1_4.xsize (grid1.coords ⟨127, h127⟩) 0
    rw [e0, e2]; omega
  | ⟨1, _⟩ =>
    have h1 : (i 1).val < 1 := (i 1).isLt
    show win1_4.index ⟨127, h127⟩ (1 : Fin 2) * win1_4.size 1 ≤ (i 1 : Nat) ∧ (i 1 : Nat) < win1_4.index ⟨127, h127⟩ (1 : Fin 2) * win1_4.size 1 + win1_4.xsize (grid1.coords ⟨127, h127⟩) 1
    rw [e1, e3]; omega

/-- The last point's block of window 5 is the whole cell. -/
theorem cover5 (h127 : 127 < cfg1.N) (i : S1x1.Idx) :
    ∃ t : Fin cfg1.N, (cfg1.win 5).flush t = true ∧ i ∈ ((cfg1.win 5).blk t).view.set := by
  refine ⟨⟨127, h127⟩, (flush1_5 _).mpr rfl, ?_⟩
  obtain ⟨-, -, -, -, e0, e1, e2, e3⟩ := idx_facts1_out ⟨127, h127⟩
  show i ∈ ((View.whole main_v2_1).slice (win1_5.rect ⟨127, h127⟩)).set
  rw [View.set_slice_whole, Rect.mem_set_unit]
  intro a
  match a with
  | ⟨0, _⟩ =>
    have h1 : (i 0).val < 1 := (i 0).isLt
    show win1_5.index ⟨127, h127⟩ (0 : Fin 2) * win1_5.size 0 ≤ (i 0 : Nat) ∧ (i 0 : Nat) < win1_5.index ⟨127, h127⟩ (0 : Fin 2) * win1_5.size 0 + win1_5.xsize (grid1.coords ⟨127, h127⟩) 0
    rw [e0, e2]; omega
  | ⟨1, _⟩ =>
    have h1 : (i 1).val < 1 := (i 1).isLt
    show win1_5.index ⟨127, h127⟩ (1 : Fin 2) * win1_5.size 1 ≤ (i 1 : Nat) ∧ (i 1 : Nat) < win1_5.index ⟨127, h127⟩ (1 : Fin 2) * win1_5.size 1 + win1_5.xsize (grid1.coords ⟨127, h127⟩) 1
    rw [e1, e3]; omega

/-- So the first output array ends holding the first accumulator's final value, -/
theorem final4 (c : Dev nD) (h127 : 127 < cfg1.N) : (dat1 (F := Ideal) V c).arrAt 4 cfg1.N = res4 V c h127 :=
  (dat1 (F := Ideal) V c).arrAt_eq_of_cover 4 (res4 V c h127) (flushed4_eq V c h127) (cover4 h127)

/-- and the second output array the second accumulator's. -/
theorem final5 (c : Dev nD) (h127 : 127 < cfg1.N) : (dat1 (F := Ideal) V c).arrAt 5 cfg1.N = res5 V c h127 :=
  (dat1 (F := Ideal) V c).arrAt_eq_of_cover 5 (res5 V c h127) (flushed5_eq V c h127) (cover5 h127)

/-! ## The two results -/

/-- The first output cell ends at the sum of all pairwise squared distances. -/
theorem sumd_final (c : Dev nD) (p q : Cert.Spec.Mat) (hp : Cert.Spec.mat (V c main_arg0) = p) (hq : Cert.Spec.mat (V c main_arg1) = q)
    (hn1 : ∀ r : Fin 4096, V c main_v0_0 (ix2 r (0 : Fin 1)) = Cert.Spec.nrm p r)
    (hn2 : ∀ s : Fin 4096, V c main_v1 (ix2 (0 : Fin 1) s) = Cert.Spec.nrm q s) :
    (dat1 (F := Ideal) V c).arrAt 4 cfg1.N (ix2 (0 : Fin 1) (0 : Fin 1)) = Cert.Spec.sumd p q := by
  have h127 : 127 < cfg1.N := by show 127 < grid1.N; rw [N_1]; decide
  rw [final4 V c h127]
  show (acc1 V c 127 h127).1 (ix2 (0 : Fin 1) (0 : Fin 1)) = _
  rw [(acc1_sum V c p q hp hq hn1 hn2 127 h127).1]
  exact sum_stepSum p q

/-- The second output cell ends at the sum of the diagonal squared distances. -/
theorem trace_final (c : Dev nD) (p q : Cert.Spec.Mat) (hp : Cert.Spec.mat (V c main_arg0) = p) (hq : Cert.Spec.mat (V c main_arg1) = q)
    (hn1 : ∀ r : Fin 4096, V c main_v0_0 (ix2 r (0 : Fin 1)) = Cert.Spec.nrm p r)
    (hn2 : ∀ s : Fin 4096, V c main_v1 (ix2 (0 : Fin 1) s) = Cert.Spec.nrm q s) :
    (dat1 (F := Ideal) V c).arrAt 5 cfg1.N (ix2 (0 : Fin 1) (0 : Fin 1)) = Cert.Spec.trace p q := by
  have h127 : 127 < cfg1.N := by show 127 < grid1.N; rw [N_1]; decide
  rw [final5 V c h127]
  show (acc1 V c 127 h127).2 (ix2 (0 : Fin 1) (0 : Fin 1)) = _
  rw [(acc1_sum V c p q hp hq hn1 hn2 127 h127).2]
  exact sum_stepDiag p q

end Cert.KernelIdeal.Hand

end
-- ==== Proof.KI.ValueMain.lean ====
/-
  The program's result is the specification.

  With p and q the two argument matrices at launch, the buffers are followed through the program's four stretches:
    · the row-statistics region leaves the two columns of squared row norms  nrm p,  nrm q  and the one-cell
      sum  possum p q,  and the arguments as they were;
    · the reshape turns the column  nrm q  into a row (entry (0, s) of the row is entry (s, 0) of the column)
      and writes nothing else;
    · the Gram region, entered with the arguments and the two norm vectors, leaves the one-cell sums
      sumd p q  and  trace p q,  and writes neither the arguments nor the first region's cell;
    · the ten scalar operations read the three cells as rank-0 arrays and apply
      a / 4096 + (−(b − c)) / (4096 · 4095): the specification's tail on the three sums.
  What the two regions leave in their output arrays is taken as five hypotheses, each for any entry contents.
-/
import proofs.«128264_j17093969838495_1_alg».proof.Proof.KI.Fold
import proofs.«128264_j17093969838495_1_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

local notation "𝕄" => MT nD τ sig Unit (Elt Ideal) ℕ (UR sig nD τ) ℕ

variable (m : (ℓ : Loc nD τ sig) → Buf (Elt Ideal) ℓ)

/-! ## After the row-statistics region -/

/-- The first argument is an input window's array: the region leaves it as launched. -/
theorem V1_arg0 (c : Dev nD) : V1 m c main_arg0 = m ((c : Thread nD τ).loc main_arg0) :=
  (W1_arr m c 0).trans (((dat0 (V0 m) c).arrAt_in 0 rfl _).trans (A_eq0 (V0 m) c 0))
theorem V1_arg1 (c : Dev nD) : V1 m c main_arg1 = m ((c : Thread nD τ).loc main_arg1) :=
  (W1_arr m c 1).trans (((dat0 (V0 m) c).arrAt_in 1 rfl _).trans (A_eq0 (V0 m) c 1))

theorem V1_v0_0 (c : Dev nD) : V1 m c main_v0_0 = (dat0 (V0 m) c).arrAt 2 cfg0.N := W1_arr m c 2
theorem V1_v0_1 (c : Dev nD) : V1 m c main_v0_1 = (dat0 (V0 m) c).arrAt 3 cfg0.N := W1_arr m c 3
theorem V1_v0_2 (c : Dev nD) : V1 m c main_v0_2 = (dat0 (V0 m) c).arrAt 4 cfg0.N := W1_arr m c 4

/-! ## After the reshape -/

/-- The reshape writes the row buffer only. -/
theorem V2_of_ne (c : Dev nD) (b : Ref sig .tc) (hb : b ≠ main_v1) : V2 m c b = V1 m c b :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The row buffer after the reshape: entry (0, s) is entry (s, 0) of the column it was made from. -/
theorem V2_v1 (c : Dev nD) (s : Fin 4096) :
    V2 m c main_v1 (ix2 (0 : Fin 1) s) = V1 m c main_v0_1 (ix2 s (0 : Fin 1)) := by
  have e : V2 m c main_v1 = fun i => shapeCast S1x4096 (V1 m c main_v0_1) shapeCasts_S4096x1_S1x4096 i := by
    show StableHlo.after hostOps1 _ (Proc.devRef .tc main_v1) = _
    after_results
    rfl
  rw [e]
  exact shapeCast_apply _ _ _ _ (by
    show (S4096x1.rowMajor (ix2 s (0 : Fin 1))).val = (S1x4096.rowMajor (ix2 (0 : Fin 1) s)).val
    rw [Shape.rowMajor_val_two, Shape.rowMajor_val_two]
    show s.val * 1 + 0 = 0 * 4096 + s.val
    omega)

/-! ## After the Gram region -/

theorem V3_v2_0 (c : Dev nD) : V3 m c main_v2_0 = (dat1 (V2 m) c).arrAt 4 cfg1.N := W3_arr m c 4
theorem V3_v2_1 (c : Dev nD) : V3 m c main_v2_1 = (dat1 (V2 m) c).arrAt 5 cfg1.N := W3_arr m c 5

/-- The first region's cell is no window's array of the Gram region and is not the reshape's result. -/
theorem V3_v0_2 (c : Dev nD) : V3 m c main_v0_2 = (dat0 (V0 m) c).arrAt 4 cfg0.N :=
  ((W3_of_ne m c main_v0_2 (by decide)).trans (V2_of_ne m c main_v0_2 (by decide))).trans (V1_v0_2 m c)

/-! ## After the ten scalar operations -/

/-- A rank-0 array made from a one-cell array holds the cell. -/
theorem shapeCast_cell (x : S1x1.Idx → EReal) (h : S1x1.ShapeCasts S_) :
    shapeCast S_ x h = fun _ => x (ix2 (0 : Fin 1) (0 : Fin 1)) :=
  funext fun j => shapeCast_apply x h j (ix2 (0 : Fin 1) (0 : Fin 1)) (by
    rw [Shape.rowMajor_val_two]
    show 0 * 1 + 0 = (Shape.rowMajorPi _ j).val
    rw [Shape.rowMajorPi_zero])

/-- The result buffer is the specification's tail on the three cells read as rank-0 arrays: the same four
    operations on the same two literals. -/
theorem W4_v10 (c : Dev nD) :
    W4 m c (Proc.devRef .tc main_v10)
      = Cert.Spec.tail (shapeCast S_ (V3 m c main_v0_2) shapeCasts_S1x1_S_)
          (shapeCast S_ (V3 m c main_v2_0) shapeCasts_S1x1_S_) (shapeCast S_ (V3 m c main_v2_1) shapeCasts_S1x1_S_) := by
  show StableHlo.after hostOps2 _ (Proc.devRef .tc main_v10) = _
  after_results
  rfl

/-! ## The result -/

/-- The result buffer at the end of the program is the specification at the two argument matrices as launched,
    given what the two regions leave in their output arrays. -/
theorem result_eq
    (h_n1 : ∀ (V : (c : Dev nD) → (b : Ref sig .tc) → Buf (Elt Ideal) ((c : Thread nD τ).loc b)) (c : Dev nD) (r : Fin 4096),
      (dat0 (F := Ideal) V c).arrAt 2 cfg0.N (ix2 r (0 : Fin 1)) = Cert.Spec.nrm (Cert.Spec.mat (V c main_arg0)) r)
    (h_n2 : ∀ (V : (c : Dev nD) → (b : Ref sig .tc) → Buf (Elt Ideal) ((c : Thread nD τ).loc b)) (c : Dev nD) (r : Fin 4096),
      (dat0 (F := Ideal) V c).arrAt 3 cfg0.N (ix2 r (0 : Fin 1)) = Cert.Spec.nrm (Cert.Spec.mat (V c main_arg1)) r)
    (h_pos : ∀ (V : (c : Dev nD) → (b : Ref sig .tc) → Buf (Elt Ideal) ((c : Thread nD τ).loc b)) (c : Dev nD),
      (dat0 (F := Ideal) V c).arrAt 4 cfg0.N (ix2 (0 : Fin 1) (0 : Fin 1))
        = Cert.Spec.possum (Cert.Spec.mat (V c main_arg0)) (Cert.Spec.mat (V c main_arg1)))
    (h_sumd : ∀ (V : (c : Dev nD) → (b : Ref sig .tc) → Buf (Elt Ideal) ((c : Thread nD τ).loc b)) (c : Dev nD) (p q : Cert.Spec.Mat),
      Cert.Spec.mat (V c main_arg0) = p → Cert.Spec.mat (V c main_arg1) = q →
      (∀ r : Fin 4096, V c main_v0_0 (ix2 r (0 : Fin 1)) = Cert.Spec.nrm p r) →
      (∀ s : Fin 4096, V c main_v1 (ix2 (0 : Fin 1) s) = Cert.Spec.nrm q s) →
      (dat1 (F := Ideal) V c).arrAt 4 cfg1.N (ix2 (0 : Fin 1) (0 : Fin 1)) = Cert.Spec.sumd p q)
    (h_trace : ∀ (V : (c : Dev nD) → (b : Ref sig .tc) → Buf (Elt Ideal) ((c : Thread nD τ).loc b)) (c : Dev nD) (p q : Cert.Spec.Mat),
      Cert.Spec.mat (V c main_arg0) = p → Cert.Spec.mat (V c main_arg1) = q →
      (∀ r : Fin 4096, V c main_v0_0 (ix2 r (0 : Fin 1)) = Cert.Spec.nrm p r) →
      (∀ s : Fin 4096, V c main_v1 (ix2 (0 : Fin 1) s) = Cert.Spec.nrm q s) →
      (dat1 (F := Ideal) V c).arrAt 5 cfg1.N (ix2 (0 : Fin 1) (0 : Fin 1)) = Cert.Spec.trace p q)
    (c : Dev nD) :
    W4 (F := Ideal) m c (Proc.devRef .tc main_v10)
      = Cert.Spec.result (Cert.Spec.mat (m ((c : Thread nD τ).loc main_arg0))) (Cert.Spec.mat (m ((c : Thread nD τ).loc main_arg1))) := by
  -- the Gram region is entered with the arguments as launched and the two vectors of squared row norms
  have a0 : Cert.Spec.mat (V2 m c main_arg0) = Cert.Spec.mat (m ((c : Thread nD τ).loc main_arg0)) :=
    congrArg Cert.Spec.mat ((V2_of_ne m c main_arg0 (by decide)).trans (V1_arg0 m c))
  have a1 : Cert.Spec.mat (V2 m c main_arg1) = Cert.Spec.mat (m ((c : Thread nD τ).loc main_arg1)) :=
    congrArg Cert.Spec.mat ((V2_of_ne m c main_arg1 (by decide)).trans (V1_arg1 m c))
  have n0 : ∀ r : Fin 4096, V2 m c main_v0_0 (ix2 r (0 : Fin 1))
      = Cert.Spec.nrm (Cert.Spec.mat (m ((c : Thread nD τ).loc main_arg0))) r := fun r =>
    (congrFun ((V2_of_ne m c main_v0_0 (by decide)).trans (V1_v0_0 m c)) (ix2 r (0 : Fin 1))).trans (h_n1 (V0 m) c r)
  have n1 : ∀ s : Fin 4096, V2 m c main_v1 (ix2 (0 : Fin 1) s)
      = Cert.Spec.nrm (Cert.Spec.mat (m ((c : Thread nD τ).loc main_arg1))) s := fun s =>
    ((V2_v1 m c s).trans (congrFun (V1_v0_1 m c) (ix2 s (0 : Fin 1)))).trans (h_n2 (V0 m) c s)
  -- the three cells
  have e0 : shapeCast S_ (V3 m c main_v0_2) shapeCasts_S1x1_S_
      = fun _ => Cert.Spec.possum (Cert.Spec.mat (m ((c : Thread nD τ).loc main_arg0))) (Cert.Spec.mat (m ((c : Thread nD τ).loc main_arg1))) :=
    (shapeCast_cell _ _).trans (funext fun _ =>
      (congrFun (V3_v0_2 m c) (ix2 (0 : Fin 1) (0 : Fin 1))).trans (h_pos (V0 m) c))
  have e1 : shapeCast S_ (V3 m c main_v2_0) shapeCasts_S1x1_S_
      = fun _ => Cert.Spec.sumd (Cert.Spec.mat (m ((c : Thread nD τ).loc main_arg0))) (Cert.Spec.mat (m ((c : Thread nD τ).loc main_arg1))) :=
    (shapeCast_cell _ _).trans (funext fun _ =>
      (congrFun (V3_v2_0 m c) (ix2 (0 : Fin 1) (0 : Fin 1))).trans (h_sumd (V2 m) c _ _ a0 a1 n0 n1))
  have e2 : shapeCast S_ (V3 m c main_v2_1) shapeCasts_S1x1_S_
      = fun _ => Cert.Spec.trace (Cert.Spec.mat (m ((c : Thread nD τ).loc main_arg0))) (Cert.Spec.mat (m ((c : Thread nD τ).loc main_arg1))) :=
    (shapeCast_cell _ _).trans (funext fun _ =>
      (congrFun (V3_v2_1 m c) (ix2 (0 : Fin 1) (0 : Fin 1))).trans (h_trace (V2 m) c _ _ a0 a1 n0 n1))
  rw [W4_v10 m c, e0, e1, e2]
  rfl

end Cert.KernelIdeal.Hand

end
-- ==== Proof.RefTerm.lean ====
/-
  The reference program's run, composed as one pure term.

  Each definition below is the composition of the reference program's host operations, in the
  program's own order and with the program's own constants and shape evidence, as a function of the
  two input arrays a and b of shape [4096, 4096]:
    v2 a b   = Σ over both axes of (a − b) · (a − b)
    rowsq a  = Σ over axis 1 of a · a                (a vector of 4096 row sums)
    v9 a b   = a · bᵀ                                (contraction of a's axis 1 with bᵀ's axis 0)
    v17 a b  = (rowsq a broadcast along rows + rowsq b broadcast along columns) − 2 · v9 a b
    v18 a b  = Σ over both axes of v17 a b
    v19 a b  = Σ over both axes of (v17 a b where row index = column index, else 0)
    out a b  = v2 / 4096 + (−(v18 − v19)) / (4096 · 4095)
  They are generic in the float instance.
-/
import proofs.«128264_j17093969838495_1_alg».proof.Proof.Gen.ReferenceIdeal

noncomputable section

namespace Cert.ReferenceIdeal.RefRun

open Idealize.ShloMosaic Idealize.SL.Sem
open Cert.ReferenceIdeal Cert.ReferenceIdeal.Facts₀ Cert.ReferenceIdeal.Facts

variable {F : FTy → Type} [FloatOps F]

/-- The sum over both axes of the squared difference. -/
def v2 (a b : (⟨S4096x4096, .f32⟩ : BufTy).Contents (Elt F)) :
    (⟨S_, .f32⟩ : BufTy).Contents (Elt F) :=
  Host.reduceAdd (mulf (subf a b) (subf a b)) (constant S_ .f32 0x00000000#32)
    reducesTo_S4096x4096_S_d0_1 h_S_

/-- The row sums of the squared entries. -/
def rowsq (a : (⟨S4096x4096, .f32⟩ : BufTy).Contents (Elt F)) :
    (⟨S4096, .f32⟩ : BufTy).Contents (Elt F) :=
  Host.reduceAdd (mulf a a) (constant S_ .f32 0x00000000#32)
    reducesTo_S4096x4096_S4096_d1 h_S_

/-- The product of a with the transpose of b. -/
def v9 (a b : (⟨S4096x4096, .f32⟩ : BufTy).Contents (Elt F)) :
    (⟨S4096x4096, .f32⟩ : BufTy).Contents (Elt F) :=
  Host.dotGeneral dot_S4096x4096_S4096x4096_S4096x4096_1_0_0_1_n_n none a
    (transpose S4096x4096 [1, 0] b transposes_S4096x4096_S4096x4096_1_0)

/-- The matrix of all-pairs squared distances. -/
def v17 (a b : (⟨S4096x4096, .f32⟩ : BufTy).Contents (Elt F)) :
    (⟨S4096x4096, .f32⟩ : BufTy).Contents (Elt F) :=
  subf
    (addf
      (broadcastInDim S4096x4096 ![0, 1] bcast_S4096x1_S4096x4096_0_1
        (broadcastInDim S4096x1 ![0] bcast_S4096_S4096x1_0 (rowsq a)))
      (broadcastInDim S4096x4096 ![0, 1] bcast_S1x4096_S4096x4096_0_1
        (broadcastInDim S1x4096 ![1] bcast_S4096_S1x4096_1 (rowsq b))))
    (mulf
      (broadcastInDim S4096x4096 ![] bcast_S_S4096x4096 (constant S_ .f32 0x40000000#32))
      (v9 a b))

/-- The sum of all squared distances. -/
def v18 (a b : (⟨S4096x4096, .f32⟩ : BufTy).Contents (Elt F)) :
    (⟨S_, .f32⟩ : BufTy).Contents (Elt F) :=
  Host.reduceAdd (v17 a b) (constant S_ .f32 0x00000000#32)
    reducesTo_S4096x4096_S_d0_1 h_S_

/-- The sum of the diagonal squared distances: the matrix masked where the row index equals the
    column index, summed over both axes. -/
def v19 (a b : (⟨S4096x4096, .f32⟩ : BufTy).Contents (Elt F)) :
    (⟨S_, .f32⟩ : BufTy).Contents (Elt F) :=
  Host.reduceAdd
    (select
      (cmpi .eq
        (addi (iotaInDim S4096x4096 32 0)
          (broadcastInDim S4096x4096 ![] bcast_S_S4096x4096 (constantI S_ 32 0#32)))
        (iotaInDim S4096x4096 32 1))
      (v17 a b)
      (broadcastInDim S4096x4096 ![] bcast_S_S4096x4096 (constant S_ .f32 0x00000000#32)))
    (constant S_ .f32 0x00000000#32)
    reducesTo_S4096x4096_S_d0_1 h_S_

/-- The program's result. -/
def out (a b : (⟨S4096x4096, .f32⟩ : BufTy).Contents (Elt F)) :
    (⟨S_, .f32⟩ : BufTy).Contents (Elt F) :=
  addf
    (Host.divf (v2 a b) (constant S_ .f32 0x45800000#32))
    (Host.divf (Host.negf (subf (v18 a b) (v19 a b))) (constant S_ .f32 0x4B7FF000#32))

end Cert.ReferenceIdeal.RefRun

end
-- ==== Proof.RefRun.lean ====
/-
  The reference program's run.

  The reference is a straight line of 41 host operations on [4096, 4096] arrays: 25 in the entry function up to
  the sum of the matrix of squared distances, 11 inside the called trace function (its two index grids, the
  integer zero and its broadcast, the sum and comparison that mark the diagonal, the float zero and its broadcast,
  the choice between the matrix and zero made by the function that one calls, one more zero, and the sum over both
  axes), and 5 that combine the two sums with the mean squared difference. Listed in that order, each writing its
  own buffer, the line's fold over the launch contents gives every buffer's final contents; read at the result
  buffer it is the composed term `out` of the two arguments, and at the arguments it is what was there.
-/
import proofs.«128264_j17093969838495_1_alg».proof.Proof.Gen.ReferenceIdeal
import proofs.«128264_j17093969838495_1_alg».proof.Proof.RefTerm
import Idealize.ShloMosaic.Lib.StableHlo.Run

noncomputable section

namespace Cert.ReferenceIdeal.RefRun

open Cert.ReferenceIdeal Cert.ReferenceIdeal.Gen
open Idealize.ShloMosaic Idealize.ShloMosaic.TcCoe Idealize.SL.Sem Idealize.ShloMosaic.StableHlo

variable {F : FTy → Type} [FloatOps F]

/-- The run's 41 host operations in program order: the 25 of @main up to the sum of all distances, the 11 of the
    trace (eight of its own, the select of the inlined choice, the zero and the reduction) over the call's own buffers,
    and the 5 that combine the sums into the result. -/
abbrev ops : List (HloOp τ sig (Elt F)) :=
  [ binary main_arg0 main_arg1 main_v0 (subf : (⟨S4096x4096, .f32⟩ : BufTy).Contents (Elt F) → (⟨S4096x4096, .f32⟩ : BufTy).Contents (Elt F) → (⟨S4096x4096, .f32⟩ : BufTy).Contents (Elt F)),
    binary main_v0 main_v0 main_v1 (mulf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x00000000#32),
    binary main_v1 main_cst main_v2 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_0 (constant S_ .f32 0x45800000#32),
    binary main_v2 main_cst_0 main_v3 (Host.divf : (⟨S_, .f32⟩ : BufTy).Contents (Elt F) → (⟨S_, .f32⟩ : BufTy).Contents (Elt F) → (⟨S_, .f32⟩ : BufTy).Contents (Elt F)),
    binary main_arg0 main_arg0 main_v4 (mulf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0x00000000#32),
    binary main_v4 main_cst_1 main_v5 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    binary main_arg1 main_arg1 main_v6 (mulf : (⟨S4096x4096, .f32⟩ : BufTy).Contents (Elt F) → (⟨S4096x4096, .f32⟩ : BufTy).Contents (Elt F) → (⟨S4096x4096, .f32⟩ : BufTy).Contents (Elt F)),
    nullary main_cst_2 (constant S_ .f32 0x00000000#32),
    binary main_v6 main_cst_2 main_v7 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_arg1 main_v8 ((transpose S4096x4096 [1, 0] · transposes_S4096x4096_S4096x4096_1_0) : (⟨S4096x4096, .f32⟩ : BufTy).Contents (Elt F) → (⟨S4096x4096, .f32⟩ : BufTy).Contents (Elt F)),
    binary main_arg0 main_v8 main_v9 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_v5 main_v10 (broadcastInDim S4096x1 ![0] bcast_S4096_S4096x1_0 : (⟨S4096, .f32⟩ : BufTy).Contents (Elt F) → (⟨S4096x1, .f32⟩ : BufTy).Contents (Elt F)),
    unary main_v7 main_v11 (broadcastInDim S1x4096 ![1] bcast_S4096_S1x4096_1 : (⟨S4096, .f32⟩ : BufTy).Contents (Elt F) → (⟨S1x4096, .f32⟩ : BufTy).Contents (Elt F)),
    unary main_v10 main_v12 (broadcastInDim S4096x4096 ![0, 1] bcast_S4096x1_S4096x4096_0_1 : (⟨S4096x1, .f32⟩ : BufTy).Contents (Elt F) → (⟨S4096x4096, .f32⟩ : BufTy).Contents (Elt F)),
    unary main_v11 main_v13 (broadcastInDim S4096x4096 ![0, 1] bcast_S1x4096_S4096x4096_0_1 : (⟨S1x4096, .f32⟩ : BufTy).Contents (Elt F) → (⟨S4096x4096, .f32⟩ : BufTy).Contents (Elt F)),
    binary main_v12 main_v13 main_v14 (addf : (⟨S4096x4096, .f32⟩ : BufTy).Contents (Elt F) → (⟨S4096x4096, .f32⟩ : BufTy).Contents (Elt F) → (⟨S4096x4096, .f32⟩ : BufTy).Contents (Elt F)),
    nullary main_cst_3 (constant S_ .f32 0x40000000#32),
    unary main_cst_3 main_v15 (broadcastInDim S4096x4096 ![] bcast_S_S4096x4096 : (⟨S_, .f32⟩ : BufTy).Contents (Elt F) → (⟨S4096x4096, .f32⟩ : BufTy).Contents (Elt F)),
    binary main_v15 main_v9 main_v16 (mulf : (⟨S4096x4096, .f32⟩ : BufTy).Contents (Elt F) → (⟨S4096x4096, .f32⟩ : BufTy).Contents (Elt F) → (⟨S4096x4096, .f32⟩ : BufTy).Contents (Elt F)),
    binary main_v14 main_v16 main_v17 (subf : (⟨S4096x4096, .f32⟩ : BufTy).Contents (Elt F) → (⟨S4096x4096, .f32⟩ : BufTy).Contents (Elt F) → (⟨S4096x4096, .f32⟩ : BufTy).Contents (Elt F)),
    nullary main_cst_4 (constant S_ .f32 0x00000000#32),
    binary main_v17 main_cst_4 main_v18 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    TRef.nullary main_call0.v0 (iotaInDim S4096x4096 32 0),
    TRef.nullary main_call0.v1 (iotaInDim S4096x4096 32 1),
    TRef.nullary main_call0.c (constantI S_ 32 0#32),
    TRef.unary main_call0.c main_call0.v2 (broadcastInDim S4096x4096 ![] bcast_S_S4096x4096),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S4096x4096 ![] bcast_S_S4096x4096),
    TRef.ternary main_call0.v4 (.of main_v17) main_call0.v5 main_call0.call0.v0 select,
    TRef.nullary main_call0.cst_0 (constant S_ .f32 0x00000000#32),
    TRef.binary main_call0.call0.v0 main_call0.cst_0 main_call0.v7 (fun x v => Host.reduceAdd x v reducesTo_S4096x4096_S_d0_1 h_S_),
    binary main_v18 main_v19 main_v20 (subf : (⟨S_, .f32⟩ : BufTy).Contents (Elt F) → (⟨S_, .f32⟩ : BufTy).Contents (Elt F) → (⟨S_, .f32⟩ : BufTy).Contents (Elt F)),
    unary main_v20 main_v21 (Host.negf : (⟨S_, .f32⟩ : BufTy).Contents (Elt F) → (⟨S_, .f32⟩ : BufTy).Contents (Elt F)),
    nullary main_cst_5 (constant S_ .f32 0x4B7FF000#32),
    binary main_v21 main_cst_5 main_v22 (Host.divf : (⟨S_, .f32⟩ : BufTy).Contents (Elt F) → (⟨S_, .f32⟩ : BufTy).Contents (Elt F) → (⟨S_, .f32⟩ : BufTy).Contents (Elt F)),
    binary main_v3 main_v22 main_v23 (addf : (⟨S_, .f32⟩ : BufTy).Contents (Elt F) → (⟨S_, .f32⟩ : BufTy).Contents (Elt F) → (⟨S_, .f32⟩ : BufTy).Contents (Elt F)) ]

set_option maxRecDepth 1024 in
/-- @main is that straight line: with the two callees' bodies unfolded where they are called, both sides are one
    chain of host steps once the sequencing is reassociated. -/
theorem main_eq (c : Dev nD) : main (F := F) c = seq ops := by
  simp only [main, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., binary_bufs_sub .., nullary_bufs_sub .., binary_bufs_sub .., nullary_bufs_sub .., binary_bufs_sub ..,
    binary_bufs_sub .., nullary_bufs_sub .., binary_bufs_sub .., binary_bufs_sub .., nullary_bufs_sub .., binary_bufs_sub ..,
    unary_bufs_sub .., binary_bufs_sub .., unary_bufs_sub .., unary_bufs_sub .., unary_bufs_sub .., unary_bufs_sub ..,
    binary_bufs_sub .., nullary_bufs_sub .., unary_bufs_sub .., binary_bufs_sub .., binary_bufs_sub .., nullary_bufs_sub ..,
    binary_bufs_sub ..,
    nullary_bufs_sub .., nullary_bufs_sub .., nullary_bufs_sub .., unary_bufs_sub .., binary_bufs_sub .., binary_bufs_sub ..,
    nullary_bufs_sub .., unary_bufs_sub .., ternary_bufs_sub .., nullary_bufs_sub .., binary_bufs_sub ..,
    binary_bufs_sub .., unary_bufs_sub .., nullary_bufs_sub .., binary_bufs_sub .., binary_bufs_sub ..⟩

set_option maxRecDepth 8192 in
set_option maxHeartbeats 1600000 in
/-- On the one device, for any float values, from any memory with zero counters: every weakly fair execution of
    @main terminates with the result buffer at the composed term of the two arguments' launch contents, and the
    arguments unchanged. -/
theorem run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v23) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v23).trans (by after_results_simp <;> rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.RefRun

end
-- ==== Proof.RefValue.lean ====
/-
  At the exact instance (a float is an extended real and every operation is its textbook one) the
  reference program's composed term is the specification.

  Each non-pointwise operation of the reference is read at an index:
    · the sum over both axes of a [4096, 4096] array, started from the literal 0, is Σ_i Σ_k x(i,k);
    · the sum over axis 1, started from 0, is at row i the sum Σ_k x(i,k);
    · the contraction of a's axis 1 with axis 0 of the transpose of b is at (i,j) Σ_k a(i,k)·b(j,k);
    · a vector broadcast first to a column (or a row) and then to the square reads its entry at
      the row (or column) coordinate;
    · the integer mask "row number + 0 = column number" is at (i,j) the bit of i = j, because two
      coordinates below 4096 are equal as 32-bit words exactly when they are equal.
  With these, the squared-distance matrix is Spec.dist at every index, the three reduced scalars are
  Spec.possum, Spec.sumd and Spec.trace (the masked sum collapses to the diagonal), and the four
  closing scalar operations are Spec.tail's own.
-/
import proofs.«128264_j17093969838495_1_alg».proof.Proof.RefTerm
import proofs.«128264_j17093969838495_1_alg».proof.Proof.Spec
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember
import Idealize.ShloMosaic.Lib.StableHlo.Predicate

noncomputable section

namespace Cert.ReferenceIdeal.RefRun

open Idealize.ShloMosaic Idealize.SL.Sem Idealize.ShloMosaic.ValueIdx
open Cert.ReferenceIdeal Cert.ReferenceIdeal.Facts₀ Cert.ReferenceIdeal.Facts

/-! ## The non-pointwise operations, read at an index -/

/-- The host sum over both axes, from the literal zero: the double sum over rows and columns. -/
theorem sumAll_eq (x : FVec Ideal S4096x4096 .f32) :
    Host.reduceAdd (F := Ideal) x (constant (F := Ideal) S_ .f32 0x00000000#32)
        reducesTo_S4096x4096_S_d0_1 h_S_
      = fun _ => ∑ i : Fin 4096, ∑ k : Fin 4096, x (ix2 i k) := by
  funext j
  rw [hostReduceAdd_apply, Ideal.hostReduceAdd_total _ (fun b => b.elim0), constant_apply,
    Ideal.ofBits_zero_f32, zero_add, sum_idx2]

/-- The host sum over axis 1, from the literal zero, at row i: the sum over that row. -/
theorem rowSum_apply (x : FVec Ideal S4096x4096 .f32) (i : Fin 4096) :
    Host.reduceAdd (F := Ideal) x (constant (F := Ideal) S_ .f32 0x00000000#32)
        reducesTo_S4096x4096_S4096_d1 h_S_ (ix1 i)
      = ∑ k : Fin 4096, x (ix2 i k) := by
  have h : S4096x4096.Reduces [1] S4096 := by decide
  rw [hostReduceAdd_apply, Ideal.hostReduceAdd_single _ h, constant_apply,
    Ideal.ofBits_zero_f32, zero_add]
  refine Finset.sum_congr rfl fun k _ => congrArg x ?_
  funext d
  match d with
  | ⟨0, _⟩ => rfl
  | ⟨1, _⟩ => rfl

/-- The contraction of x's axis 1 with axis 0 of y's transpose, at (i, j): Σ_k x(i,k) · y(j,k). -/
theorem dotT_apply (x y : FVec Ideal S4096x4096 .f32) (i j : Fin 4096) :
    Host.dotGeneral (F := Ideal) dot_S4096x4096_S4096x4096_S4096x4096_1_0_0_1_n_n none x
        (transpose S4096x4096 [1, 0] y transposes_S4096x4096_S4096x4096_1_0) (ix2 i j)
      = ∑ k : Fin 4096, x (ix2 i k) * y (ix2 j k) := by
  show Host.dotGeneral (F := Ideal) (DotDims.plain 4096 4096 4096) none x
        (transpose S4096x4096 [1, 0] y transposes_S4096x4096_S4096x4096_1_0) (ix2 i j) = _
  rw [StackMember.dotGeneral_plain_apply]
  refine Finset.sum_congr rfl fun k _ => ?_
  rw [transpose_apply [1, 0] y transposes_S4096x4096_S4096x4096_1_0 (ix2 k j) (ix2 j k)
    (fun b => match b with | ⟨0, _⟩ => rfl | ⟨1, _⟩ => rfl)]

/-- A vector made a column and then copied along the rows reads its entry at the row coordinate. -/
theorem bcastRows_apply (v : FVec Ideal S4096 .f32) (i j : Fin 4096) :
    broadcastInDim S4096x4096 ![0, 1] bcast_S4096x1_S4096x4096_0_1
        (broadcastInDim S4096x1 ![0] bcast_S4096_S4096x1_0 v) (ix2 i j) = v (ix1 i) := by
  rw [broadcastInDim_apply ![0, 1] bcast_S4096x1_S4096x4096_0_1 _ (ix2 i j) (ix2 i (0 : Fin 1))
      (fun a => match a with | ⟨0, _⟩ => rfl | ⟨1, _⟩ => rfl),
    broadcastInDim_apply ![0] bcast_S4096_S4096x1_0 v (ix2 i (0 : Fin 1)) (ix1 i)
      (fun a => match a with | ⟨0, _⟩ => rfl)]

/-- A vector made a row and then copied down the columns reads its entry at the column coordinate. -/
theorem bcastCols_apply (v : FVec Ideal S4096 .f32) (i j : Fin 4096) :
    broadcastInDim S4096x4096 ![0, 1] bcast_S1x4096_S4096x4096_0_1
        (broadcastInDim S1x4096 ![1] bcast_S4096_S1x4096_1 v) (ix2 i j) = v (ix1 j) := by
  rw [broadcastInDim_apply ![0, 1] bcast_S1x4096_S4096x4096_0_1 _ (ix2 i j) (ix2 (0 : Fin 1) j)
      (fun a => match a with | ⟨0, _⟩ => rfl | ⟨1, _⟩ => rfl),
    broadcastInDim_apply ![1] bcast_S4096_S1x4096_1 v (ix2 (0 : Fin 1) j) (ix1 j)
      (fun a => match a with | ⟨0, _⟩ => rfl)]

/-- Two coordinates below 4096 are equal as 32-bit words exactly when they are equal. -/
theorem ofNat_eq_iff (i j : Fin 4096) : BitVec.ofNat 32 i.val = BitVec.ofNat 32 j.val ↔ i = j := by
  constructor
  · intro h
    have h' := congrArg BitVec.toNat h
    simp only [BitVec.toNat_ofNat] at h'
    apply Fin.ext
    have hi := i.isLt
    have hj := j.isLt
    omega
  · rintro rfl; rfl

/-- The integer mask (row number + 0 compared for equality with the column number) at (i, j) is the
    bit of i = j. -/
theorem mask_apply (i j : Fin 4096) :
    cmpi .eq
        (addi (iotaInDim S4096x4096 32 0)
          (broadcastInDim S4096x4096 ![] bcast_S_S4096x4096 (constantI S_ 32 0#32)))
        (iotaInDim S4096x4096 32 1) (ix2 i j)
      = if i = j then 1#1 else 0#1 := by
  show IntOp.cmpi .eq (IntOp.addi (iotaInDim S4096x4096 32 0 (ix2 i j))
      (broadcastInDim S4096x4096 ![] bcast_S_S4096x4096 (constantI S_ 32 0#32) (ix2 i j)))
      (iotaInDim S4096x4096 32 1 (ix2 i j)) = _
  rw [broadcastInDim_scalar_apply, iotaInDim_apply, iotaInDim_apply]
  show IntOp.cmpi .eq (BitVec.ofNat 32 i.val + 0#32) (BitVec.ofNat 32 j.val) = _
  rw [BitVec.add_zero]
  by_cases hij : i = j
  · rw [if_pos hij, StableHlo.Predicate.cmpi_eq_iff, hij]
  · rw [if_neg hij]
    apply eq_zero_of_ne_one
    rw [StableHlo.Predicate.cmpi_eq_iff, ofNat_eq_iff]
    exact hij

/-- A double sum of terms kept only where the two indices agree is the sum along the diagonal. -/
theorem sum_onDiag (g : Fin 4096 → Fin 4096 → EReal) :
    ∑ i, ∑ j, (if i = j then g i j else 0) = ∑ i, g i i :=
  Finset.sum_congr rfl fun i _ => by
    rw [Finset.sum_ite_eq Finset.univ i (g i), if_pos (Finset.mem_univ i)]

/-! ## The reference's values -/

/-- The first reduced scalar is the sum of squared differences. -/
theorem v2_eq (a b : (⟨S4096x4096, .f32⟩ : BufTy).Contents (Elt Ideal)) :
    v2 (F := Ideal) a b = fun _ => Cert.Spec.possum (Cert.Spec.mat a) (Cert.Spec.mat b) := by
  unfold v2
  rw [sumAll_eq]
  rfl

/-- The matrix the reference builds is the all-pairs squared distance at every index. -/
theorem v17_apply (a b : (⟨S4096x4096, .f32⟩ : BufTy).Contents (Elt Ideal)) (i j : Fin 4096) :
    v17 (F := Ideal) a b (ix2 i j) = Cert.Spec.dist (Cert.Spec.mat a) (Cert.Spec.mat b) i j := by
  unfold v17 v9 rowsq
  rw [subf_apply, addf_apply, mulf_apply, bcastRows_apply, bcastCols_apply, rowSum_apply,
    rowSum_apply, broadcastInDim_scalar_apply, constant_apply, dotT_apply]
  rfl

/-- The second reduced scalar is the sum of all squared distances. -/
theorem v18_eq (a b : (⟨S4096x4096, .f32⟩ : BufTy).Contents (Elt Ideal)) :
    v18 (F := Ideal) a b = fun _ => Cert.Spec.sumd (Cert.Spec.mat a) (Cert.Spec.mat b) := by
  unfold v18
  rw [sumAll_eq]
  funext _
  unfold Cert.Spec.sumd
  exact Finset.sum_congr rfl fun i _ => Finset.sum_congr rfl fun j _ => v17_apply a b i j

/-- The third reduced scalar, the masked sum, is the sum of the diagonal squared distances. -/
theorem v19_eq (a b : (⟨S4096x4096, .f32⟩ : BufTy).Contents (Elt Ideal)) :
    v19 (F := Ideal) a b = fun _ => Cert.Spec.trace (Cert.Spec.mat a) (Cert.Spec.mat b) := by
  unfold v19
  rw [sumAll_eq]
  funext _
  unfold Cert.Spec.trace
  refine Eq.trans ?_
    (sum_onDiag fun i j => Cert.Spec.dist (Cert.Spec.mat a) (Cert.Spec.mat b) i j)
  refine Finset.sum_congr rfl fun i _ => Finset.sum_congr rfl fun j _ => ?_
  rw [select_apply, mask_apply, v17_apply, broadcastInDim_scalar_apply, constant_apply,
    Ideal.ofBits_zero_f32]
  by_cases h : i = j
  · rw [if_pos h, if_pos h, select_one]
  · rw [if_neg h, if_neg h, select_zero]

/-- The reference's result is the specification's. -/
theorem out_eq (a b : (⟨S4096x4096, .f32⟩ : BufTy).Contents (Elt Ideal)) :
    out (F := Ideal) a b = Cert.Spec.result (Cert.Spec.mat a) (Cert.Spec.mat b) := by
  unfold out Cert.Spec.result Cert.Spec.tail
  rw [v2_eq, v18_eq, v19_eq]

end Cert.ReferenceIdeal.RefRun

end
-- ==== Proof.lean ====
/-
  Two 4096 × 4096 matrices p and q (rows are points). Both programs compute
      Σ_i Σ_k (p i k − q i k)² / 4096  +  (−(Σ_i Σ_j d i j − Σ_i d i i)) / (4096 · 4095),
  where d i j = (Σ_k (p i k)² + Σ_k (q j k)²) − 2 · Σ_k p i k · q j k is the squared distance of row i of p from
  row j of q by the Gram expansion.

  The kernel program does it in two grid regions: the first walks 16 tiles of 256 rows, writing the rows' squared
  norms and accumulating the tiles' sums of squared differences in a one-cell scratch; the second walks the
  8 × 16 tiles (512 × 256) of the distance matrix, accumulating each tile's sum and the tile's part of the diagonal
  in two one-cell scratches. The reference computes the whole sums at once. Over the extended reals a sum may be
  regrouped and reordered freely (addition there is commutative and associative, infinities included), the tiles
  partition the index ranges, and every other operation and literal is the same on both sides: that is the whole
  equivalence, and it needs no finiteness of the inputs.

  The frames: each region's body is run at a grid point in one of three control cases (first point: the scratch
  reset and updated; last point: the scratch updated and copied out; otherwise updated), the scratch's value
  between points being the region's invariant; the two regions and the host operations around them are then
  composed by the launch rule for a program of several regions. The same text serves the word-level program and
  the idealized one. The reference is a host program: its run is the composition of its operations.
-/
import proofs.«128264_j17093969838495_1_alg».proof.Proof.Gen.Kernel
import proofs.«128264_j17093969838495_1_alg».proof.Proof.Gen.KernelIdeal
import proofs.«128264_j17093969838495_1_alg».proof.Proof.Gen.ReferenceIdeal
import proofs.«128264_j17093969838495_1_alg».proof.Proof.Gen.Pre_finite_inputs
import proofs.«128264_j17093969838495_1_alg».proof.Defs
import proofs.«128264_j17093969838495_1_alg».proof.Proof.K.Body0
import proofs.«128264_j17093969838495_1_alg».proof.Proof.K.Body1
import proofs.«128264_j17093969838495_1_alg».proof.Proof.K.Main
import proofs.«128264_j17093969838495_1_alg».proof.Proof.KI.Body0
import proofs.«128264_j17093969838495_1_alg».proof.Proof.KI.Body1
import proofs.«128264_j17093969838495_1_alg».proof.Proof.KI.Main
import proofs.«128264_j17093969838495_1_alg».proof.Proof.KI.Value0
import proofs.«128264_j17093969838495_1_alg».proof.Proof.KI.Value1
import proofs.«128264_j17093969838495_1_alg».proof.Proof.KI.ValueMain
import proofs.«128264_j17093969838495_1_alg».proof.Proof.RefRun
import proofs.«128264_j17093969838495_1_alg».proof.Proof.RefValue

noncomputable section

namespace Cert.Proof

open Idealize.ShloMosaic Idealize.ShloMosaic.TcCoe Idealize.SL.Sem

/-- The word-level kernel program runs and leaves its two argument matrices as launched. -/
theorem frame_k : Cert.frame_Kernel := fun m ρ _ =>
  Cert.Kernel.Hand.frame (fun V c => Cert.Kernel.Hand.body_obligation0 V c) (fun V c => Cert.Kernel.Hand.body_obligation1 V c) m ρ

/-- The idealized kernel program runs and leaves its two argument matrices as launched. -/
theorem frame_ki : Cert.frame_KernelIdeal := fun m ρ _ =>
  Cert.KernelIdeal.Hand.frame (fun V c => Cert.KernelIdeal.Hand.body_obligation0 V c) (fun V c => Cert.KernelIdeal.Hand.body_obligation1 V c) m ρ

/-- The reference runs and leaves its two argument matrices as launched: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Over the extended reals both programs end at the specification's value of the two argument matrices. -/
theorem algebraic : Cert.algebraic_KernelIdeal_ReferenceIdeal := by
  intro m ρ m' ρ' _ hagree
  refine ⟨fun c => Cert.Spec.result
      (Cert.Spec.mat (m ((c.tc : Thread Cert.KernelIdeal.nD Cert.KernelIdeal.τ).loc Cert.KernelIdeal.main_arg0)))
      (Cert.Spec.mat (m ((c.tc : Thread Cert.KernelIdeal.nD Cert.KernelIdeal.τ).loc Cert.KernelIdeal.main_arg1))), ?_, ?_⟩
  · refine (θ_run Cert.KernelIdeal.defs _ _).mono (fun r h c => ⟨?_, ?_, ?_⟩)
      (Cert.KernelIdeal.Hand.run_all (fun V c => Cert.KernelIdeal.Hand.body_obligation0 V c)
        (fun V c => Cert.KernelIdeal.Hand.body_obligation1 V c) m ρ)
    · exact (h c _ (Cert.KernelIdeal.Hand.mem_uc Cert.KernelIdeal.main_v10 (by decide))).trans
        (Cert.KernelIdeal.Hand.result_eq m Cert.KernelIdeal.Hand.n1_final Cert.KernelIdeal.Hand.n2_final
          Cert.KernelIdeal.Hand.possum_final Cert.KernelIdeal.Hand.sumd_final Cert.KernelIdeal.Hand.trace_final c)
    · exact (h c _ (Cert.KernelIdeal.Hand.mem_uc Cert.KernelIdeal.main_arg0 (by decide))).trans (Cert.KernelIdeal.Hand.W4_main_arg0 m c)
    · exact (h c _ (Cert.KernelIdeal.Hand.mem_uc Cert.KernelIdeal.main_arg1 (by decide))).trans (Cert.KernelIdeal.Hand.W4_main_arg1 m c)
  · refine (θ_run Cert.ReferenceIdeal.defs _ _).mono (fun r h c => ⟨(h c).1.trans ?_, (h c).2⟩)
      (Cert.ReferenceIdeal.RefRun.run (F := Ideal) m' ρ')
    rw [(hagree c).1, (hagree c).2]
    exact Cert.ReferenceIdeal.RefRun.out_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
